-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x7 : Shape := ⟨2, ![200000, 7]⟩
abbrev S100000x5 : Shape := ⟨2, ![100000, 5]⟩
abbrev S1200000 : Shape := ⟨1, ![1200000]⟩
abbrev S64x7 : Shape := ⟨2, ![64, 7]⟩
abbrev S64 : Shape := ⟨1, ![64]⟩
abbrev S64x64 : Shape := ⟨2, ![64, 64]⟩
abbrev S64x5 : Shape := ⟨2, ![64, 5]⟩
abbrev S2x64x64 : Shape := ⟨3, ![2, 64, 64]⟩
abbrev S2x64 : Shape := ⟨2, ![2, 64]⟩
abbrev S1x64 : Shape := ⟨2, ![1, 64]⟩
abbrev S1 : Shape := ⟨1, ![1]⟩
abbrev S_ : Shape := ⟨0, ![]⟩

class Facts : Prop where
  bcast_S_S200000x7 : S_.BroadcastsInDim S200000x7 (![] : Fin 0 → Fin S200000x7.rank)
  reducesTo_S200000x7_S_d0_1 : S200000x7.ReducesTo [0, 1] S_
  h_S_ : 0 < S_.numel
  bcast_S_S100000x5 : S_.BroadcastsInDim S100000x5 (![] : Fin 0 → Fin S100000x5.rank)
  reducesTo_S100000x5_S_d0_1 : S100000x5.ReducesTo [0, 1] S_
  bcast_S_S64x7 : S_.BroadcastsInDim S64x7 (![] : Fin 0 → Fin S64x7.rank)
  reducesTo_S64x7_S_d0_1 : S64x7.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S1200000 : S_.BroadcastsInDim S1200000 (![] : Fin 0 → Fin S1200000.rank)
  reducesTo_S1200000_S_d0 : S1200000.ReducesTo [0] S_

variable [Facts]

def fn_part5 {F : FTy → Type} [FloatOps F] (main_arg3 : IVec S1200000 32) (main_v78 : IVec S_ 1) (main_v84 : IVec S_ 1) : IVec S_ 1 :=
  let main_v85 : IVec S_ 1 := andi main_v78 main_v84
  let main_c_33 : IVec S_ 32 := constantI S_ 32 0#32
  let main_v86 : IVec S1200000 32 := broadcastInDim S1200000 ![] bcast_S_S1200000 main_c_33
  let main_v87 : IVec S1200000 1 := cmpi .sge main_arg3 main_v86
  let main_c_34 : IVec S_ 32 := constantI S_ 32 100000#32
  let main_v88 : IVec S1200000 32 := broadcastInDim S1200000 ![] bcast_S_S1200000 main_c_34
  let main_v89 : IVec S1200000 1 := cmpi .slt main_arg3 main_v88
  let main_v90 : IVec S1200000 1 := andi main_v87 main_v89
  let main_c_35 : IVec S_ 1 := constantI S_ 1 1#1
  let main_v91 : IVec S_ 1 := (fun x v => Host.reduce IntOp.andi x v reducesTo_S1200000_S_d0 h_S_) main_v90 main_c_35
  let main_v92 : IVec S_ 1 := andi main_v85 main_v91
  main_v92

def fn_part4 {F : FTy → Type} [FloatOps F] (main_arg2 : IVec S1200000 32) (main_arg3 : IVec S1200000 32) (main_arg16 : FVec F S1x64 .f32) (main_arg17 : FVec F S1 .f32) (main_v63 : IVec S_ 1) (main_v67 : IVec S_ 1) : IVec S_ 1 :=
  let main_v68 : IVec S_ 1 := andi main_v63 main_v67
  let main_v69 : FVec F S1x64 .f32 := Host.absf main_arg16
  let main_cst_26 : FVec F S_ .f32 := constant S_ .f32 0x7F800000#32
  let main_v70 : FVec F S1x64 .f32 := broadcastInDim S1x64 ![] bcast_S_S1x64 main_cst_26
  let main_v71 : IVec S1x64 1 := cmpf .olt main_v69 main_v70
  let main_c_27 : IVec S_ 1 := constantI S_ 1 1#1
  let main_v72 : IVec S_ 1 := (fun x v => Host.reduce IntOp.andi x v reducesTo_S1x64_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 0#32
  let main_v79 : IVec S1200000 32 := broadcastInDim S1200000 ![] bcast_S_S1200000 main_c_30
  let main_v80 : IVec S1200000 1 := cmpi .sge main_arg2 main_v79
  let main_c_31 : IVec S_ 32 := constantI S_ 32 200000#32
  let main_v81 : IVec S1200000 32 := broadcastInDim S1200000 ![] bcast_S_S1200000 main_c_31
  let main_v82 : IVec S1200000 1 := cmpi .slt main_arg2 main_v81
  let main_v83 : IVec S1200000 1 := andi main_v80 main_v82
  let main_c_32 : IVec S_ 1 := constantI S_ 1 1#1
  let main_v84 : IVec S_ 1 := (fun x v => Host.reduce IntOp.andi x v reducesTo_S1200000_S_d0 h_S_) main_v83 main_c_32
  fn_part5 (F := F) main_arg3 main_v78 main_v84

def fn_part3 {F : FTy → Type} [FloatOps F] (main_arg2 : IVec S1200000 32) (main_arg3 : IVec S1200000 32) (main_arg13 : FVec F S2x64 .f32) (main_arg14 : FVec F S2x64x64 .f32) (main_arg15 : FVec F S2x64 .f32) (main_arg16 : FVec F S1x64 .f32) (main_arg17 : FVec F S1 .f32) (main_v48 : IVec S_ 1) (main_v49 : FVec F S2x64x64 .f32) (main_v50 : FVec F S2x64x64 .f32) : IVec S_ 1 :=
  let main_v51 : IVec S2x64x64 1 := cmpf .olt main_v49 main_v50
  let main_c_19 : IVec S_ 1 := constantI S_ 1 1#1
  let main_v52 : IVec S_ 1 := (fun x v => Host.reduce IntOp.andi x v reducesTo_S2x64x64_S_d0_1_2 h_S_) main_v51 main_c_19
  let main_v53 : IVec S_ 1 := andi main_v48 main_v52
  let main_v54 : FVec F S2x64 .f32 := Host.absf main_arg13
  let main_cst_20 : FVec F S_ .f32 := constant S_ .f32 0x7F800000#32
  let main_v55 : FVec F S2x64 .f32 := broadcastInDim S2x64 ![] bcast_S_S2x64 main_cst_20
  let main_v56 : IVec S2x64 1 := cmpf .olt main_v54 main_v55
  let main_c_21 : IVec S_ 1 := constantI S_ 1 1#1
  let main_v57 : IVec S_ 1 := (fun x v => Host.reduce IntOp.andi x v reducesTo_S2x64_S_d0_1 h_S_) main_v56 main_c_21
  let main_v58 : IVec S_ 1 := andi main_v53 main_v57
  let main_v59 : FVec F S2x64x64 .f32 := Host.absf main_arg14
  let main_cst_22 : FVec F S_ .f32 := constant S_ .f32 0x7F800000#32
  let main_v60 : FVec F S2x64x64 .f32 := broadcastInDim S2x64x64 ![] bcast_S_S2x64x64 main_cst_22
  let main_v61 : IVec S2x64x64 1 := cmpf .olt main_v59 main_v60
  let main_c_23 : IVec S_ 1 := constantI S_ 1 1#1
  let main_v62 : IVec S_ 1 := (fun x v => Host.reduce IntOp.andi x v reducesTo_S2x64x64_S_d0_1_2 h_S_) main_v61 main_c_23
  let main_v63 : IVec S_ 1 := andi main_v58 main_v62
  let main_v64 : FVec F S2x64 .f32 := Host.absf main_arg15
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg2 main_arg3 main_arg16 main_arg17 main_v63 main_v67

def fn_part2 {F : FTy → Type} [FloatOps F] (main_arg2 : IVec S1200000 32) (main_arg3 : IVec S1200000 32) (main_arg9 : FVec F S64 .f32) (main_arg10 : FVec F S64x64 .f32) (main_arg11 : FVec F S64 .f32) (main_arg12 : FVec F S2x64x64 .f32) (main_arg13 : FVec F S2x64 .f32) (main_arg14 : FVec F S2x64x64 .f32) (main_arg15 : FVec F S2x64 .f32) (main_arg16 : FVec F S1x64 .f32) (main_arg17 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S2x64x64 .f32 := Host.absf main_arg12
  let main_cst_18 : FVec F S_ .f32 := constant S_ .f32 0x7F800000#32
  let main_v50 : FVec F S2x64x64 .f32 := broadcastInDim S2x64x64 ![] bcast_S_S2x64x64 main_cst_18
  fn_part3 (F := F) main_arg2 main_arg3 main_arg13 main_arg14 main_arg15 main_arg16 main_arg17 main_v48 main_v49 main_v50

def fn_part1 {F : FTy → Type} [FloatOps F] (main_arg2 : IVec S1200000 32) (main_arg3 : IVec S1200000 32) (main_arg6 : FVec F S64x64 .f32) (main_arg7 : FVec F S64 .f32) (main_arg8 : FVec F S64x5 .f32) (main_arg9 : FVec F S64 .f32) (main_arg10 : FVec F S64x64 .f32) (main_arg11 : FVec F S64 .f32) (main_arg12 : FVec F S2x64x64 .f32) (main_arg13 : FVec F S2x64 .f32) (main_arg14 : FVec F S2x64x64 .f32) (main_arg15 : FVec F S2x64 .f32) (main_arg16 : FVec F S1x64 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x5 .f32 := Host.absf main_arg8
  let main_cst_10 : FVec F S_ .f32 := constant S_ .f32 0x7F800000#32
  let main_v30 : FVec F S64x5 .f32 := broadcastInDim S64x5 ![] bcast_S_S64x5 main_cst_10
  let main_v31 : IVec S64x5 1 := cmpf .olt main_v29 main_v30
  let main_c_11 : IVec S_ 1 := constantI S_ 1 1#1
  let main_v32 : IVec S_ 1 := (fun x v => Host.reduce IntOp.andi x v reducesTo_S64x5_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_v33

def fn {F : FTy → Type} [FloatOps F] (main_arg0 : FVec F S200000x7 .f32) (main_arg1 : FVec F S100000x5 .f32) (main_arg2 : IVec S1200000 32) (main_arg3 : IVec S1200000 32) (main_arg4 : FVec F S64x7 .f32) (main_arg5 : FVec F S64 .f32) (main_arg6 : FVec F S64x64 .f32) (main_arg7 : FVec F S64 .f32) (main_arg8 : FVec F S64x5 .f32) (main_arg9 : FVec F S64 .f32) (main_arg10 : FVec F S64x64 .f32) (main_arg11 : FVec F S64 .f32) (main_arg12 : FVec F S2x64x64 .f32) (main_arg13 : FVec F S2x64 .f32) (main_arg14 : FVec F S2x64x64 .f32) (main_arg15 : FVec F S2x64 .f32) (main_arg16 : FVec F S1x64 .f32) (main_arg17 : FVec F S1 .f32) : IVec S_ 1 :=
  let main_v0 : FVec F S200000x7 .f32 := Host.absf main_arg0
  let main_cst : FVec F S_ .f32 := constant S_ .f32 0x7F800000#32
  let main_v1 : FVec F S200000x7 .f32 := broadcastInDim S200000x7 ![] bcast_S_S200000x7 main_cst
  let main_v2 : IVec S200000x7 1 := cmpf .olt main_v0 main_v1
  let main_c : IVec S_ 1 := constantI S_ 1 1#1
  let main_v3 : IVec S_ 1 := (fun x v => Host.reduce IntOp.andi x v reducesTo_S200000x7_S_d0_1 h_S_) main_v2 main_c
  let main_v4 : FVec F S100000x5 .f32 := Host.absf main_arg1
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  let main_v9 : FVec F S64x7 .f32 := Host.absf main_arg4
  let main_cst_2 : FVec F S_ .f32 := constant S_ .f32 0x7F800000#32
  let main_v10 : FVec F S64x7 .f32 := broadcastInDim S64x7 ![] bcast_S_S64x7 main_cst_2
  let main_v11 : IVec S64x7 1 := cmpf .olt main_v9 main_v10
  let main_c_3 : IVec S_ 1 := constantI S_ 1 1#1
  let main_v12 : IVec S_ 1 := (fun x v => Host.reduce IntOp.andi x v reducesTo_S64x7_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg6 main_arg7 main_arg8 main_arg9 main_arg10 main_arg11 main_arg12 main_arg13 main_arg14 main_arg15 main_arg16 main_arg17 main_v13 main_v16
-- ==== Kernel.lean ====
abbrev S200000x7 : Shape := ⟨2, ![200000, 7]⟩
abbrev S100000x5 : Shape := ⟨2, ![100000, 5]⟩
abbrev S1200000 : Shape := ⟨1, ![1200000]⟩
abbrev S64x7 : Shape := ⟨2, ![64, 7]⟩
abbrev S64 : Shape := ⟨1, ![64]⟩
abbrev S64x64 : Shape := ⟨2, ![64, 64]⟩
abbrev S64x5 : Shape := ⟨2, ![64, 5]⟩
abbrev S2x64x64 : Shape := ⟨3, ![2, 64, 64]⟩
abbrev S2x64 : Shape := ⟨2, ![2, 64]⟩
abbrev S1x64 : Shape := ⟨2, ![1, 64]⟩
abbrev S1 : Shape := ⟨1, ![1]⟩
abbrev S7x64 : Shape := ⟨2, ![7, 64]⟩
abbrev S5x64 : Shape := ⟨2, ![5, 64]⟩
abbrev S64x1 : Shape := ⟨2, ![64, 1]⟩
abbrev S100000x64 : Shape := ⟨2, ![100000, 64]⟩
abbrev S10000x5 : Shape := ⟨2, ![10000, 5]⟩
abbrev S10000x64 : Shape := ⟨2, ![10000, 64]⟩
abbrev S1x64x64 : Shape := ⟨3, ![1, 64, 64]⟩
abbrev S200000x64 : Shape := ⟨2, ![200000, 64]⟩
abbrev S10000x7 : Shape := ⟨2, ![10000, 7]⟩
abbrev S_ : Shape := ⟨0, ![]⟩
abbrev S1200000x1 : Shape := ⟨2, ![1200000, 1]⟩
abbrev S1x1 : Shape := ⟨2, ![1, 1]⟩
abbrev S1200000x64 : Shape := ⟨2, ![1200000, 64]⟩
abbrev S5000x64 : Shape := ⟨2, ![5000, 64]⟩
abbrev S200000x1 : Shape := ⟨2, ![200000, 1]⟩
abbrev S5000x1 : Shape := ⟨2, ![5000, 1]⟩
abbrev S200000 : Shape := ⟨1, ![200000]⟩

abbrev nBuf : Space → Nat
  | .hbm => 160
  | .vmem => 58
  | .smem => 0
  | _ => 0

abbrev hbmTy0_0 (i : Nat) : BufTy := match i % 128 with
  | 0 => ⟨S200000x7, .f32⟩
  | 1 => ⟨S100000x5, .f32⟩
  | 2 => ⟨S1200000, .i32⟩
  | 3 => ⟨S1200000, .i32⟩
  | 4 => ⟨S64x7, .f32⟩
  | 5 => ⟨S64, .f32⟩
  | 6 => ⟨S64x64, .f32⟩
  | 7 => ⟨S64, .f32⟩
  | 8 => ⟨S64x5, .f32⟩
  | 9 => ⟨S64, .f32⟩
  | 10 => ⟨S64x64, .f32⟩
  | 11 => ⟨S64, .f32⟩
  | 12 => ⟨S2x64x64, .f32⟩
  | 13 => ⟨S2x64, .f32⟩
  | 14 => ⟨S2x64x64, .f32⟩
  | 15 => ⟨S2x64, .f32⟩
  | 16 => ⟨S1x64, .f32⟩
  | 17 => ⟨S1, .f32⟩
  | 18 => ⟨S7x64, .f32⟩
  | 19 => ⟨S64x64, .f32⟩
  | 20 => ⟨S5x64, .f32⟩
  | 21 => ⟨S64x64, .f32⟩
  | 22 => ⟨S2x64x64, .f32⟩
  | 23 => ⟨S2x64x64, .f32⟩
  | 24 => ⟨S64x1, .f32⟩
  | 25 => ⟨S100000x64, .f32⟩
  | 26 => ⟨S1x64x64, .f32⟩
  | 27 => ⟨S64x64, .f32⟩
  | 28 => ⟨S1x64, .f32⟩
  | 29 => ⟨S64, .f32⟩
  | 30 => ⟨S200000x64, .f32⟩
  | 31 => ⟨S200000x64, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1, .i32⟩
  | 41 => ⟨S_, .i32⟩
  | 42 => ⟨S1200000x1, .i32⟩
  | 43 => ⟨S1200000x1, .i1⟩
  | 44 => ⟨S1x1, .i32⟩
  | 45 => ⟨S1200000x1, .i32⟩
  | 46 => ⟨S1200000x1, .i1⟩
  | 47 => ⟨S1200000x1, .i1⟩
  | 48 => ⟨S_, .i1⟩
  | 49 => ⟨S1200000, .i1⟩
  | 50 => ⟨S1200000x64, .f32⟩
  | 51 => ⟨S1200000x64, .i1⟩
  | 52 => ⟨S_, .f32⟩
  | 53 => ⟨S1200000x64, .f32⟩
  | 54 => ⟨S1200000x64, .f32⟩
  | 55 => ⟨S_, .f32⟩
  | 56 => ⟨S100000x64, .f32⟩
  | 57 => ⟨S1200000x1, .i32⟩
  | 58 => ⟨S100000x64, .f32⟩
  | 59 => ⟨S1x64x64, .f32⟩
  | 60 => ⟨S64x64, .f32⟩
  | 61 => ⟨S1x64, .f32⟩
  | 62 => ⟨S64, .f32⟩
  | 63 => ⟨S100000x64, .f32⟩
  | 64 => ⟨S100000x64, .f32⟩
  | 65 => ⟨S_, .i32⟩
  | 66 => ⟨S1200000, .i32⟩
  | 67 => ⟨S1200000, .i1⟩
  | 68 => ⟨S_, .i32⟩
  | 69 => ⟨S1200000, .i32⟩
  | 70 => ⟨S1200000, .i32⟩
  | 71 => ⟨S1200000, .i32⟩
  | 72 => ⟨S1200000x1, .i32⟩
  | 73 => ⟨S1, .i32⟩
  | 74 => ⟨S_, .i32⟩
  | 75 => ⟨S1200000x1, .i32⟩
  | 76 => ⟨S1200000x1, .i1⟩
  | 77 => ⟨S1x1, .i32⟩
  | 78 => ⟨S1200000x1, .i32⟩
  | 79 => ⟨S1200000x1, .i1⟩
  | 80 => ⟨S1200000x1, .i1⟩
  | 81 => ⟨S_, .i1⟩
  | 82 => ⟨S1200000, .i1⟩
  | 83 => ⟨S1200000x64, .f32⟩
  | 84 => ⟨S1200000x64, .i1⟩
  | 85 => ⟨S_, .f32⟩
  | 86 => ⟨S1200000x64, .f32⟩
  | 87 => ⟨S1200000x64, .f32⟩
  | 88 => ⟨S_, .f32⟩
  | 89 => ⟨S200000x64, .f32⟩
  | 90 => ⟨S1200000x1, .i32⟩
  | 91 => ⟨S200000x64, .f32⟩
  | 92 => ⟨S1x64x64, .f32⟩
  | 93 => ⟨S64x64, .f32⟩
  | 94 => ⟨S1x64, .f32⟩
  | 95 => ⟨S64, .f32⟩
  | 96 => ⟨S200000x64, .f32⟩
  | 97 => ⟨S200000x64, .f32⟩
  | 98 => ⟨S_, .i32⟩
  | 99 => ⟨S1200000, .i32⟩
  | 100 => ⟨S1200000, .i1⟩
  | 101 => ⟨S_, .i32⟩
  | 102 => ⟨S1200000, .i32⟩
  | 103 => ⟨S1200000, .i32⟩
  | 104 => ⟨S1200000, .i32⟩
  | 105 => ⟨S1200000x1, .i32⟩
  | 106 => ⟨S1, .i32⟩
  | 107 => ⟨S_, .i32⟩
  | 108 => ⟨S1200000x1, .i32⟩
  | 109 => ⟨S1200000x1, .i1⟩
  | 110 => ⟨S1x1, .i32⟩
  | 111 => ⟨S1200000x1, .i32⟩
  | 112 => ⟨S1200000x1, .i1⟩
  | 113 => ⟨S1200000x1, .i1⟩
  | 114 => ⟨S_, .i1⟩
  | 115 => ⟨S1200000, .i1⟩
  | 116 => ⟨S1200000x64, .f32⟩
  | 117 => ⟨S1200000x64, .i1⟩
  | 118 => ⟨S_, .f32⟩
  | 119 => ⟨S1200000x64, .f32⟩
  | 120 => ⟨S1200000x64, .f32⟩
  | 121 => ⟨S_, .f32⟩
  | 122 => ⟨S100000x64, .f32⟩
  | 123 => ⟨S1200000x1, .i32⟩
  | 124 => ⟨S100000x64, .f32⟩
  | 125 => ⟨S1x64x64, .f32⟩
  | 126 => ⟨S64x64, .f32⟩
  | 127 => ⟨S1x64, .f32⟩
  | _ => ⟨S200000x7, .f32⟩

abbrev hbmTy0_1 (i : Nat) : BufTy := match i % 128 with
  | 0 => ⟨S64, .f32⟩
  | 1 => ⟨S100000x64, .f32⟩
  | 2 => ⟨S100000x64, .f32⟩
  | 3 => ⟨S_, .i32⟩
  | 4 => ⟨S1200000, .i32⟩
  | 5 => ⟨S1200000, .i1⟩
  | 6 => ⟨S_, .i32⟩
  | 7 => ⟨S1200000, .i32⟩
  | 8 => ⟨S1200000, .i32⟩
  | 9 => ⟨S1200000, .i32⟩
  | 10 => ⟨S1200000x1, .i32⟩
  | 11 => ⟨S1, .i32⟩
  | 12 => ⟨S_, .i32⟩
  | 13 => ⟨S1200000x1, .i32⟩
  | 14 => ⟨S1200000x1, .i1⟩
  | 15 => ⟨S1x1, .i32⟩
  | 16 => ⟨S1200000x1, .i32⟩
  | 17 => ⟨S1200000x1, .i1⟩
  | 18 => ⟨S1200000x1, .i1⟩
  | 19 => ⟨S_, .i1⟩
  | 20 => ⟨S1200000, .i1⟩
  | 21 => ⟨S1200000x64, .f32⟩
  | 22 => ⟨S1200000x64, .i1⟩
  | 23 => ⟨S_, .f32⟩
  | 24 => ⟨S1200000x64, .f32⟩
  | 25 => ⟨S1200000x64, .f32⟩
  | 26 => ⟨S_, .f32⟩
  | 27 => ⟨S200000x64, .f32⟩
  | 28 => ⟨S1200000x1, .i32⟩
  | 29 => ⟨S200000x64, .f32⟩
  | 30 => ⟨S200000x1, .f32⟩
  | 31 => ⟨S200000, .f32⟩
  | _ => ⟨S200000x7, .f32⟩

abbrev hbmTy (i : Nat) : BufTy := match i / 128 with
  | 0 => hbmTy0_0 i
  | 1 => hbmTy0_1 i
  | _ => ⟨S200000x7, .f32⟩

abbrev bufTy : (tb : Table) → Fin (tcTables nBuf tb) → BufTy
  | .hbm, ⟨i, _⟩ => hbmTy i
  | .local _ .vmem, ⟨0, _⟩ => ⟨S10000x5, .f32⟩
  | .local _ .vmem, ⟨1, _⟩ => ⟨S10000x5, .f32⟩
  | .local _ .vmem, ⟨2, _⟩ => ⟨S5x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S10000x64, .f32⟩
  | .local _ .vmem, ⟨7, _⟩ => ⟨S10000x64, .f32⟩
  | .local _ .vmem, ⟨8, _⟩ => ⟨S10000x7, .f32⟩
  | .local _ .vmem, ⟨9, _⟩ => ⟨S10000x7, .f32⟩
  | .local _ .vmem, ⟨10, _⟩ => ⟨S7x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S64x1, .f32⟩
  | .local _ .vmem, ⟨55, _⟩ => ⟨S1, .f32⟩
  | .local _ .vmem, ⟨56, _⟩ => ⟨S5000x1, .f32⟩
  | .local _ .vmem, ⟨57, _⟩ => ⟨S5000x1, .f32⟩
  | _, _ => ⟨S200000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v13 : Ref sig .tc := ⟨.hbm, 54, rfl⟩
abbrev main_cst : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21_0 : Ref sig .tc := ⟨.hbm, 63, rfl⟩
abbrev main_v21_1 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v22 : Ref sig .tc := ⟨.hbm, 87, rfl⟩
abbrev main_cst_0 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30_0 : Ref sig .tc := ⟨.hbm, 96, rfl⟩
abbrev main_v30_1 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v31 : Ref sig .tc := ⟨.hbm, 120, rfl⟩
abbrev main_cst_1 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39_0 : Ref sig .tc := ⟨.hbm, 129, rfl⟩
abbrev main_v39_1 : Ref sig .tc := ⟨.hbm, 130, rfl⟩
abbrev main_call3_c : Ref sig .tc := ⟨.hbm, 131, rfl⟩
abbrev main_call3_v0 : Ref sig .tc := ⟨.hbm, 132, rfl⟩
abbrev main_call3_v1 : Ref sig .tc := ⟨.hbm, 133, rfl⟩
abbrev main_call3_c_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_c_1 : Ref sig .tc := ⟨.hbm, 139, rfl⟩
abbrev main_call3_c_2 : Ref sig .tc := ⟨.hbm, 140, rfl⟩
abbrev main_call3_v6 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_c_3 : Ref sig .tc := ⟨.hbm, 147, rfl⟩
abbrev main_call3_v12 : Ref sig .tc := ⟨.hbm, 148, rfl⟩
abbrev main_call3_v13 : Ref sig .tc := ⟨.hbm, 149, rfl⟩
abbrev main_call3_v14 : Ref sig .tc := ⟨.hbm, 150, rfl⟩
abbrev main_call3_cst : Ref sig .tc := ⟨.hbm, 151, rfl⟩
abbrev main_call3_v15 : Ref sig .tc := ⟨.hbm, 152, rfl⟩
abbrev main_v40 : Ref sig .tc := ⟨.hbm, 153, rfl⟩
abbrev main_cst_2 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg5_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg4_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc4_sem5_0 : DmaSem sig := 48
abbrev cc4_sem5_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem4_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S7x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S10000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  transposes_S64x7_S7x64_1_0 : S64x7.Transposes [1, 0] S7x64
  transposes_S64x64_S64x64_1_0 : S64x64.Transposes [1, 0] S64x64
  transposes_S64x5_S5x64_1_0 : S64x5.Transposes [1, 0] S5x64
  transposes_S2x64x64_S2x64x64_0_2_1 : S2x64x64.Transposes [0, 2, 1] S2x64x64
  transposes_S1x64_S64x1_1_0 : S1x64.Transposes [1, 0] S64x1
  inb_S10000x5_S10000x5_0_0 : ∀ a, (![0, 0] : Fin 2 → Nat) a + S10000x5.size a ≤ S10000x5.size a
  h_S10000x5 : 0 < S10000x5.numel
  inb_S5x64_S5x64_0_0 : ∀ a, (![0, 0] : Fin 2 → Nat) a + S5x64.size a ≤ S5x64.size a
  h_S5x64 : 0 < S5x64.numel
  shapeCasts_S5x64_S5x64 : S5x64.ShapeCasts S5x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x64_S10000x64_0_0 : ∀ a, (![0, 0] : Fin 2 → Nat) a + S10000x64.size a ≤ S10000x64.size a
  h_S10000x64 : 0 < S10000x64.numel
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  inb_S10000x7_S10000x7_0_0 : ∀ a, (![0, 0] : Fin 2 → Nat) a + S10000x7.size a ≤ S10000x7.size a
  h_S10000x7 : 0 < S10000x7.numel
  inb_S7x64_S7x64_0_0 : ∀ a, (![0, 0] : Fin 2 → Nat) a + S7x64.size a ≤ S7x64.size a
  h_S7x64 : 0 < S7x64.numel
  shapeCasts_S7x64_S7x64 : S7x64.ShapeCasts S7x64
  shapeCasts_S64_S64 : S64.ShapeCasts S64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  bcast_S_S200000x64 : S_.BroadcastsInDim S200000x64 (![] : Fin 0 → Fin S200000x64.rank)
  slices_S2x64x64_S1x64x64_1_0_0 : S2x64x64.Slices ![1, 0, 0] S1x64x64
  slices_S2x64_S1x64_1_0 : S2x64.Slices ![1, 0] S1x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  dot_S10000x5_S5x64_S10000x64_1_0_0_1_n_n_wf : DotDims.WF S10000x5 S5x64 S10000x64 [1] [0] [0] [1] [] []
  dot_S10000x64_S64x64_S10000x64_1_0_0_1_n_n_wf : DotDims.WF S10000x64 S64x64 S10000x64 [1] [0] [0] [1] [] []
  dot_S10000x7_S7x64_S10000x64_1_0_0_1_n_n_wf : DotDims.WF S10000x7 S7x64 S10000x64 [1] [0] [0] [1] [] []
  gather_S200000x64_S1200000x1_S1200000x64_1_0_n_n_0_1_164_wf : GatherDims.WF S200000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S200000x64_S1200000x1_S1200000x64_1_0_0_1_wf : ScatterDims.WF S200000x64 S1200000x1 S1200000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .f32 = 32 ∨ (Rect.block (s := S100000x5) S10000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x7.size a ≤ S200000x7.size a
  hwx1_0 : ∀ i : grid1.Coords, EltTy.bits .f32 = 32 ∨ (Rect.block (s := S200000x7) S10000x7.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S7x64.size a ≤ S7x64.size a
  hwx1_1 : ∀ i : grid1.Coords, EltTy.bits .f32 = 32 ∨ (Rect.block (s := S7x64) S7x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S200000x64.size a
  hwx1_7 : ∀ i : grid1.Coords, EltTy.bits .f32 = 32 ∨ (Rect.block (s := S200000x64) S10000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x64.size a ≤ S200000x64.size a
  hwx1_8 : ∀ i : grid1.Coords, EltTy.bits .f32 = 32 ∨ (Rect.block (s := S200000x64) S10000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S200000x64.size a
  hwx3_4 : ∀ i : grid3.Coords, EltTy.bits .f32 = 32 ∨ (Rect.block (s := S200000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S200000x64.size a
  hwx3_5 : ∀ i : grid3.Coords, EltTy.bits .f32 = 32 ∨ (Rect.block (s := S200000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S200000x64.size a
  hwx5_0 : ∀ i : grid5.Coords, EltTy.bits .f32 = 32 ∨ (Rect.block (s := S200000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S200000x64.size a
  hwx5_1 : ∀ i : grid5.Coords, EltTy.bits .f32 = 32 ∨ (Rect.block (s := S200000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x1.size a ≤ S64x1.size a
  hwx5_2 : ∀ i : grid5.Coords, EltTy.bits .f32 = 32 ∨ (Rect.block (s := S64x1) S64x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1.size a ≤ S1.size a
  hwx5_3 : ∀ i : grid5.Coords, EltTy.bits .f32 = 32 ∨ (Rect.block (s := S1) S1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S200000x1.size a
  hwx5_4 : ∀ i : grid5.Coords, EltTy.bits .f32 = 32 ∨ (Rect.block (s := S200000x1) S5000x1.size (cc5_transform_4 i) (hinb5_4 i)).WholeWords (EltTy.packing .f32)

variable [Facts₀]

def dot_S10000x5_S5x64_S10000x64_1_0_0_1_n_n : DotDims S10000x5 S5x64 S10000x64 where
  lhsContracting := [1]
  rhsContracting := [0]
  lhsNonContracting := [0]
  rhsNonContracting := [1]
  lhsBatch := []
  rhsBatch := []
  wf := dot_S10000x5_S5x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x7_S7x64_S10000x64_1_0_0_1_n_n : DotDims S10000x7 S7x64 S10000x64 where
  lhsContracting := [1]
  rhsContracting := [0]
  lhsNonContracting := [0]
  rhsNonContracting := [1]
  lhsBatch := []
  rhsBatch := []
  wf := dot_S10000x7_S7x64_S10000x64_1_0_0_1_n_n_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg1) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S7x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12_0) S10000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v12_1) S10000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v7) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v21_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v12_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30_0) S5000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v30_1) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v21_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v38) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v39_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v39_1) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v30_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v6) S64x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v44) S5000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S200000x7 : Shape := ⟨2, ![200000, 7]⟩
abbrev S100000x5 : Shape := ⟨2, ![100000, 5]⟩
abbrev S1200000 : Shape := ⟨1, ![1200000]⟩
abbrev S64x7 : Shape := ⟨2, ![64, 7]⟩
abbrev S64 : Shape := ⟨1, ![64]⟩
abbrev S64x64 : Shape := ⟨2, ![64, 64]⟩
abbrev S64x5 : Shape := ⟨2, ![64, 5]⟩
abbrev S2x64x64 : Shape := ⟨3, ![2, 64, 64]⟩
abbrev S2x64 : Shape := ⟨2, ![2, 64]⟩
abbrev S1x64 : Shape := ⟨2, ![1, 64]⟩
abbrev S1 : Shape := ⟨1, ![1]⟩
abbrev S7x64 : Shape := ⟨2, ![7, 64]⟩
abbrev S200000x64 : Shape := ⟨2, ![200000, 64]⟩
abbrev S5x64 : Shape := ⟨2, ![5, 64]⟩
abbrev S100000x64 : Shape := ⟨2, ![100000, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x1 : Shape := ⟨2, ![64, 1]⟩
abbrev S200000x1 : Shape := ⟨2, ![200000, 1]⟩
abbrev S1x1 : Shape := ⟨2, ![1, 1]⟩
abbrev S200000 : Shape := ⟨1, ![200000]⟩

abbrev nBuf : Space → Nat
  | .hbm => 142
  | .vmem => 0
  | .smem => 0
  | _ => 0

abbrev hbmTy0_0 (i : Nat) : BufTy := match i % 128 with
  | 0 => ⟨S200000x7, .f32⟩
  | 1 => ⟨S100000x5, .f32⟩
  | 2 => ⟨S1200000, .i32⟩
  | 3 => ⟨S1200000, .i32⟩
  | 4 => ⟨S64x7, .f32⟩
  | 5 => ⟨S64, .f32⟩
  | 6 => ⟨S64x64, .f32⟩
  | 7 => ⟨S64, .f32⟩
  | 8 => ⟨S64x5, .f32⟩
  | 9 => ⟨S64, .f32⟩
  | 10 => ⟨S64x64, .f32⟩
  | 11 => ⟨S64, .f32⟩
  | 12 => ⟨S2x64x64, .f32⟩
  | 13 => ⟨S2x64, .f32⟩
  | 14 => ⟨S2x64x64, .f32⟩
  | 15 => ⟨S2x64, .f32⟩
  | 16 => ⟨S1x64, .f32⟩
  | 17 => ⟨S1, .f32⟩
  | 18 => ⟨S7x64, .f32⟩
  | 19 => ⟨S200000x64, .f32⟩
  | 20 => ⟨S1x64, .f32⟩
  | 21 => ⟨S200000x64, .f32⟩
  | 22 => ⟨S200000x64, .f32⟩
  | 23 => ⟨S200000x64, .f32⟩
  | 24 => ⟨S64x64, .f32⟩
  | 25 => ⟨S200000x64, .f32⟩
  | 26 => ⟨S1x64, .f32⟩
  | 27 => ⟨S200000x64, .f32⟩
  | 28 => ⟨S200000x64, .f32⟩
  | 29 => ⟨S5x64, .f32⟩
  | 30 => ⟨S100000x64, .f32⟩
  | 31 => ⟨S1x64, .f32⟩
  | 32 => ⟨S100000x64, .f32⟩
  | 33 => ⟨S100000x64, .f32⟩
  | 34 => ⟨S100000x64, .f32⟩
  | 35 => ⟨S64x64, .f32⟩
  | 36 => ⟨S100000x64, .f32⟩
  | 37 => ⟨S1x64, .f32⟩
  | 38 => ⟨S100000x64, .f32⟩
  | 39 => ⟨S100000x64, .f32⟩
  | 40 => ⟨S_, .i32⟩
  | 41 => ⟨S1200000, .i32⟩
  | 42 => ⟨S1200000, .i1⟩
  | 43 => ⟨S_, .i32⟩
  | 44 => ⟨S1200000, .i32⟩
  | 45 => ⟨S1200000, .i32⟩
  | 46 => ⟨S1200000, .i32⟩
  | 47 => ⟨S1200000x1, .i32⟩
  | 48 => ⟨S1200000x64, .f32⟩
  | 49 => ⟨S1x64x64, .f32⟩
  | 50 => ⟨S64x64, .f32⟩
  | 51 => ⟨S64x64, .f32⟩
  | 52 => ⟨S1200000x64, .f32⟩
  | 53 => ⟨S1x64, .f32⟩
  | 54 => ⟨S64, .f32⟩
  | 55 => ⟨S1x64, .f32⟩
  | 56 => ⟨S1200000x64, .f32⟩
  | 57 => ⟨S1200000x64, .f32⟩
  | 58 => ⟨S_, .f32⟩
  | 59 => ⟨S100000x64, .f32⟩
  | 60 => ⟨S1200000x1, .i32⟩
  | 61 => ⟨S100000x64, .f32⟩
  | 62 => ⟨S100000x64, .f32⟩
  | 63 => ⟨S100000x64, .f32⟩
  | 64 => ⟨S_, .i32⟩
  | 65 => ⟨S1200000, .i32⟩
  | 66 => ⟨S1200000, .i1⟩
  | 67 => ⟨S_, .i32⟩
  | 68 => ⟨S1200000, .i32⟩
  | 69 => ⟨S1200000, .i32⟩
  | 70 => ⟨S1200000, .i32⟩
  | 71 => ⟨S1200000x1, .i32⟩
  | 72 => ⟨S1200000x64, .f32⟩
  | 73 => ⟨S1x64x64, .f32⟩
  | 74 => ⟨S64x64, .f32⟩
  | 75 => ⟨S64x64, .f32⟩
  | 76 => ⟨S1200000x64, .f32⟩
  | 77 => ⟨S1x64, .f32⟩
  | 78 => ⟨S64, .f32⟩
  | 79 => ⟨S1x64, .f32⟩
  | 80 => ⟨S1200000x64, .f32⟩
  | 81 => ⟨S1200000x64, .f32⟩
  | 82 => ⟨S_, .f32⟩
  | 83 => ⟨S200000x64, .f32⟩
  | 84 => ⟨S1200000x1, .i32⟩
  | 85 => ⟨S200000x64, .f32⟩
  | 86 => ⟨S200000x64, .f32⟩
  | 87 => ⟨S200000x64, .f32⟩
  | 88 => ⟨S_, .i32⟩
  | 89 => ⟨S1200000, .i32⟩
  | 90 => ⟨S1200000, .i1⟩
  | 91 => ⟨S_, .i32⟩
  | 92 => ⟨S1200000, .i32⟩
  | 93 => ⟨S1200000, .i32⟩
  | 94 => ⟨S1200000, .i32⟩
  | 95 => ⟨S1200000x1, .i32⟩
  | 96 => ⟨S1200000x64, .f32⟩
  | 97 => ⟨S1x64x64, .f32⟩
  | 98 => ⟨S64x64, .f32⟩
  | 99 => ⟨S64x64, .f32⟩
  | 100 => ⟨S1200000x64, .f32⟩
  | 101 => ⟨S1x64, .f32⟩
  | 102 => ⟨S64, .f32⟩
  | 103 => ⟨S1x64, .f32⟩
  | 104 => ⟨S1200000x64, .f32⟩
  | 105 => ⟨S1200000x64, .f32⟩
  | 106 => ⟨S_, .f32⟩
  | 107 => ⟨S100000x64, .f32⟩
  | 108 => ⟨S1200000x1, .i32⟩
  | 109 => ⟨S100000x64, .f32⟩
  | 110 => ⟨S100000x64, .f32⟩
  | 111 => ⟨S100000x64, .f32⟩
  | 112 => ⟨S_, .i32⟩
  | 113 => ⟨S1200000, .i32⟩
  | 114 => ⟨S1200000, .i1⟩
  | 115 => ⟨S_, .i32⟩
  | 116 => ⟨S1200000, .i32⟩
  | 117 => ⟨S1200000, .i32⟩
  | 118 => ⟨S1200000, .i32⟩
  | 119 => ⟨S1200000x1, .i32⟩
  | 120 => ⟨S1200000x64, .f32⟩
  | 121 => ⟨S1x64x64, .f32⟩
  | 122 => ⟨S64x64, .f32⟩
  | 123 => ⟨S64x64, .f32⟩
  | 124 => ⟨S1200000x64, .f32⟩
  | 125 => ⟨S1x64, .f32⟩
  | 126 => ⟨S64, .f32⟩
  | 127 => ⟨S1x64, .f32⟩
  | _ => ⟨S200000x7, .f32⟩

abbrev hbmTy0_1 (i : Nat) : BufTy := match i % 128 with
  | 0 => ⟨S1200000x64, .f32⟩
  | 1 => ⟨S1200000x64, .f32⟩
  | 2 => ⟨S_, .f32⟩
  | 3 => ⟨S200000x64, .f32⟩
  | 4 => ⟨S1200000x1, .i32⟩
  | 5 => ⟨S200000x64, .f32⟩
  | 6 => ⟨S200000x64, .f32⟩
  | 7 => ⟨S200000x64, .f32⟩
  | 8 => ⟨S64x1, .f32⟩
  | 9 => ⟨S200000x1, .f32⟩
  | 10 => ⟨S1x1, .f32⟩
  | 11 => ⟨S200000x1, .f32⟩
  | 12 => ⟨S200000x1, .f32⟩
  | 13 => ⟨S200000, .f32⟩
  | _ => ⟨S200000x7, .f32⟩

abbrev hbmTy (i : Nat) : BufTy := match i / 128 with
  | 0 => hbmTy0_0 i
  | 1 => hbmTy0_1 i
  | _ => ⟨S200000x7, .f32⟩

abbrev bufTy : (tb : Table) → Fin (tcTables nBuf tb) → BufTy
  | .hbm, ⟨i, _⟩ => hbmTy i
  | _, _ => ⟨S200000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_1 : Ref sig .tc := ⟨.hbm, 64, rfl⟩
abbrev main_v43 : Ref sig .tc := ⟨.hbm, 65, rfl⟩
abbrev main_v44 : Ref sig .tc := ⟨.hbm, 66, rfl⟩
abbrev main_c_2 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_3 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_4 : Ref sig .tc := ⟨.hbm, 88, rfl⟩
abbrev main_v64 : Ref sig .tc := ⟨.hbm, 89, rfl⟩
abbrev main_v65 : Ref sig .tc := ⟨.hbm, 90, rfl⟩
abbrev main_c_5 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_6 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_7 : Ref sig .tc := ⟨.hbm, 112, rfl⟩
abbrev main_v85 : Ref sig .tc := ⟨.hbm, 113, rfl⟩
abbrev main_v86 : Ref sig .tc := ⟨.hbm, 114, rfl⟩
abbrev main_c_8 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_9 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩

abbrev nD : Nat := 1
abbrev τ : Topo := Topo.v7x

variable {F : FTy → Type} [FloatOps F]

class Facts₀ : Prop where
  transposes_S64x7_S7x64_1_0 : S64x7.Transposes [1, 0] S7x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  transposes_S64x64_S64x64_1_0 : S64x64.Transposes [1, 0] S64x64
  transposes_S64x5_S5x64_1_0 : S64x5.Transposes [1, 0] S5x64
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S1x64_S1200000x64_0_1 : S1x64.BroadcastsInDim S1200000x64 (![0, 1] : Fin 2 → Fin S1200000x64.rank)
  bcast_S_S100000x64 : S_.BroadcastsInDim S100000x64 (![] : Fin 0 → Fin S100000x64.rank)
  bcast_S_S200000x64 : S_.BroadcastsInDim S200000x64 (![] : Fin 0 → Fin S200000x64.rank)
  slices_S2x64x64_S1x64x64_1_0_0 : S2x64x64.Slices ![1, 0, 0] S1x64x64
  slices_S2x64_S1x64_1_0 : S2x64.Slices ![1, 0] S1x64
  transposes_S1x64_S64x1_1_0 : S1x64.Transposes [1, 0] S64x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S200000x7_S7x64_S200000x64_1_0_0_1_n_n_wf : DotDims.WF S200000x7 S7x64 S200000x64 [1] [0] [0] [1] [] []
  dot_S200000x64_S64x64_S200000x64_1_0_0_1_n_n_wf : DotDims.WF S200000x64 S64x64 S200000x64 [1] [0] [0] [1] [] []
  dot_S100000x5_S5x64_S100000x64_1_0_0_1_n_n_wf : DotDims.WF S100000x5 S5x64 S100000x64 [1] [0] [0] [1] [] []
  dot_S100000x64_S64x64_S100000x64_1_0_0_1_n_n_wf : DotDims.WF S100000x64 S64x64 S100000x64 [1] [0] [0] [1] [] []
  gather_S200000x64_S1200000x1_S1200000x64_1_0_n_n_0_1_164_wf : GatherDims.WF S200000x64 S1200000x1 S1200000x64 [1] [0] [] [0] [] 1 ![1, 64]
  dot_S1200000x64_S64x64_S1200000x64_1_0_0_1_n_n_wf : DotDims.WF S1200000x64 S64x64 S1200000x64 [1] [0] [0] [1] [] []
  scatter_S100000x64_S1200000x1_S1200000x64_1_0_0_1_wf : ScatterDims.WF S100000x64 S1200000x1 S1200000x64 [1] [0] [0] 1
  gather_S100000x64_S1200000x1_S1200000x64_1_0_n_n_0_1_164_wf : GatherDims.WF S100000x64 S1200000x1 S1200000x64 [1] [0] [] [0] [] 1 ![1, 64]
  scatter_S200000x64_S1200000x1_S1200000x64_1_0_0_1_wf : ScatterDims.WF S200000x64 S1200000x1 S1200000x64 [1] [0] [0] 1
  dot_S200000x64_S64x1_S200000x1_1_0_0_1_n_n_wf : DotDims.WF S200000x64 S64x1 S200000x1 [1] [0] [0] [1] [] []

variable [Facts₀]

def dot_S200000x7_S7x64_S200000x64_1_0_0_1_n_n : DotDims S200000x7 S7x64 S200000x64 where
  lhsContracting := [1]
  rhsContracting := [0]
  lhsNonContracting := [0]
  rhsNonContracting := [1]
  lhsBatch := []
  rhsBatch := []
  wf := dot_S200000x7_S7x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def dot_S1200000x64_S64x64_S1200000x64_1_0_0_1_n_n : DotDims S1200000x64 S64x64 S1200000x64 where
  lhsContracting := [1]
  rhsContracting := [0]
  lhsNonContracting := [0]
  rhsNonContracting := [1]
  lhsBatch := []
  rhsBatch := []
  wf := dot_S1200000x64_S64x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.Spec.lean ====
/-
  The mathematics both programs compute, stated once over arrays read as functions of an index.

  A node table is a matrix with one row per node. Every layer of the network acts on a table ROW BY ROW:
  an affine layer sends row `h p` to `h p · wt + b` (the weight already transposed), and `tanh` acts entry by entry.
  The encoder is affine, tanh, affine. A message-passing update adds the aggregated messages to the table and
  applies tanh. Selecting rows of a table by a map of row numbers (`rows r`: what an index lookup does once every
  index is in range) commutes with any row-wise layer; `rows_affine` is that fact for the affine layer, and it is
  the one law that joins the two programs: one applies the message layer to the node table and then looks rows up,
  the other looks rows up and then applies the layer.
-/
import Idealize.ShloMosaic.PureOps.Ideal
import Idealize.ShloMosaic.Lib.ValueIdx

noncomputable section

open scoped BigOperators

namespace Cert.Spec

open Idealize.ShloMosaic Idealize.ShloMosaic.ValueIdx

/-- A table of `n` rows and `k` columns of extended reals. -/
abbrev Mat (n k : ℕ) := (⟨2, ![n, k]⟩ : Shape).Idx → EReal
/-- One row of `k` extended reals. -/
abbrev Row (k : ℕ) := (⟨1, ![k]⟩ : Shape).Idx → EReal

/-- The affine layer, row by row: entry `(p, q)` is `∑ₖ h(p, k) · wt(k, q) + b(q)`. -/
def affine {n a o : ℕ} (h : Mat n a) (wt : Mat a o) (b : Row o) : Mat n o :=
  fun i => (∑ k : Fin a, h (ix2 (n0 := n) (n1 := a) (i 0) k) * wt (ix2 (n0 := a) (n1 := o) k (i 1)))
    + b (ix1 (n := o) (i 1))

/-- `tanh` entry by entry (on the extended reals: `-1` at `⊥`, `1` at `⊤`). -/
def tanhM {n a : ℕ} (h : Mat n a) : Mat n a := fun i => Ideal.tanh (h i)

/-- The encoder: affine, tanh, affine. -/
def encode {n f d o : ℕ} (x : Mat n f) (w1 : Mat f d) (b1 : Row d) (w2 : Mat d o) (b2 : Row o) : Mat n o :=
  affine (tanhM (affine x w1 b1)) w2 b2

/-- A message-passing update of a node table: add the aggregated messages, then tanh. -/
def update {n a : ℕ} (dst agg : Mat n a) : Mat n a := tanhM (fun i => dst i + agg i)

/-- The rows of `h` picked by `r`: row `e` of the result is row `r e` of `h`. -/
def rows {E n a : ℕ} (r : Fin E → Fin n) (h : Mat n a) : Mat E a :=
  fun i => h (ix2 (n0 := n) (n1 := a) (r (i 0)) (i 1))

/-- Picking rows commutes with the affine layer: the layer acts on each row by itself. -/
theorem rows_affine {E n a o : ℕ} (r : Fin E → Fin n) (h : Mat n a) (wt : Mat a o) (b : Row o) :
    rows r (affine h wt b) = affine (rows r h) wt b := rfl

/-- Picking rows commutes with `tanh`. -/
theorem rows_tanhM {E n a : ℕ} (r : Fin E → Fin n) (h : Mat n a) : rows r (tanhM h) = tanhM (rows r h) := rfl

end Cert.Spec

end
-- ==== Proof.Model.lean ====
/-
  The whole network as ONE function of its inputs, over the vocabulary of `Spec`.

  Two node tables (variables, constraints) are encoded; then two rounds of message passing: messages flow from the
  variables to the constraints along the edges (each edge carries the message layer's image of its variable's row, and a
  constraint adds up the messages of its edges), the constraint table is updated, and the same the other way round; the
  readout is one more affine layer on the variable table. The edge structure enters only through four maps: which row
  of a table an edge reads (`rv`, `rc`) and how a table of per-edge messages is added up per node (`aggC`, `aggV`).

  `net` applies the message layer AFTER picking the rows (one message per edge); `netTable` applies it to the node table
  FIRST and picks rows of the result. They are the same function because the layer acts row by row (`Spec.rows_affine`).
-/
import proofs.«429049_j82403242541640_4_alg».proof.Proof.Spec

noncomputable section

namespace Cert.Model

open Idealize.ShloMosaic Idealize.ShloMosaic.ValueIdx Cert.Spec

/-- Everything the network is given besides the edge structure: the two feature tables and every layer's transposed
    weight and bias. -/
structure Params where
  xv : Mat 200000 7
  xc : Mat 100000 5
  wv1 : Mat 7 64
  bv1 : Row 64
  wv2 : Mat 64 64
  bv2 : Row 64
  wc1 : Mat 5 64
  bc1 : Row 64
  wc2 : Mat 64 64
  bc2 : Row 64
  wvc0 : Mat 64 64
  bvc0 : Row 64
  wvc1 : Mat 64 64
  bvc1 : Row 64
  wcv0 : Mat 64 64
  bcv0 : Row 64
  wcv1 : Mat 64 64
  bcv1 : Row 64
  wro : Mat 64 1
  bro : Row 1

variable (P : Params) (rv : Fin 1200000 → Fin 200000) (rc : Fin 1200000 → Fin 100000)
  (aggC : Mat 1200000 64 → Mat 100000 64) (aggV : Mat 1200000 64 → Mat 200000 64)

/-- The encoded variable table. -/
def hv0 : Mat 200000 64 := encode P.xv P.wv1 P.bv1 P.wv2 P.bv2
/-- The encoded constraint table. -/
def hc0 : Mat 100000 64 := encode P.xc P.wc1 P.bc1 P.wc2 P.bc2

/-- One message per edge: rows picked, then the message layer. -/
def hc1 : Mat 100000 64 := update (hc0 P) (aggC (affine (rows rv (hv0 P)) P.wvc0 P.bvc0))
def hv1 : Mat 200000 64 := update (hv0 P) (aggV (affine (rows rc (hc1 P rv aggC)) P.wcv0 P.bcv0))
def hc2 : Mat 100000 64 := update (hc1 P rv aggC) (aggC (affine (rows rv (hv1 P rv rc aggC aggV)) P.wvc1 P.bvc1))
def hv2 : Mat 200000 64 := update (hv1 P rv rc aggC aggV) (aggV (affine (rows rc (hc2 P rv rc aggC aggV)) P.wcv1 P.bcv1))
/-- The readout: one score per variable, as a one-column table. -/
def net : Mat 200000 1 := affine (hv2 P rv rc aggC aggV) P.wro P.bro

/-- The same with the message layer applied to the node table first and the rows picked afterwards. -/
def tc1 : Mat 100000 64 := update (hc0 P) (aggC (rows rv (affine (hv0 P) P.wvc0 P.bvc0)))
def tv1 : Mat 200000 64 := update (hv0 P) (aggV (rows rc (affine (tc1 P rv aggC) P.wcv0 P.bcv0)))
def tc2 : Mat 100000 64 := update (tc1 P rv aggC) (aggC (rows rv (affine (tv1 P rv rc aggC aggV) P.wvc1 P.bvc1)))
def tv2 : Mat 200000 64 := update (tv1 P rv rc aggC aggV) (aggV (rows rc (affine (tc2 P rv rc aggC aggV) P.wcv1 P.bcv1)))
def netTable : Mat 200000 1 := affine (tv2 P rv rc aggC aggV) P.wro P.bro

/-- The two orders agree: the message layer acts on each row by itself, so it commutes with picking rows. -/
theorem netTable_eq_net : netTable P rv rc aggC aggV = net P rv rc aggC aggV := rfl

end Cert.Model

end
-- ==== Proof.LibRowMap.lean ====
/-
  Which row of a table an index word reads. Array indexing first wraps a negative index once by the table's length;
  the lookup then reads the word as a signed integer and clamps it into the table. `rowMap` is that row number as a
  function of the edge, so that a lookup of rows is `Cert.Spec.rows (rowMap …)` of the table whatever the table holds.
-/
import Idealize.ShloMosaic.PureOps.Ideal
import Idealize.ShloMosaic.Lib.ValueIdx

noncomputable section

namespace Cert.Lib

open Idealize.ShloMosaic Idealize.ShloMosaic.ValueIdx

/-- An index word with a negative value wrapped once by the table's length `n` (a word). -/
def wrapWord (n w : BitVec 32) : BitVec 32 :=
  Scalar.select (IntOp.cmpi .slt w 0#32) (IntOp.addi w n) w

/-- The row of an `n`-row table that edge `e` reads: its index word wrapped, read signed, clamped into `[0, n - 1]`. -/
def rowMap (n : ℕ) (hn : 0 < n) (nw : BitVec 32) {E : ℕ} (idx : (⟨1, ![E]⟩ : Shape).Idx → BitVec 32) (e : Fin E) : Fin n :=
  ⟨min (wrapWord nw (idx (ix1 e))).toInt.toNat (n - 1), by omega⟩

end Cert.Lib

end
-- ==== Proof.TakeDef.lean ====
/-
  The kernel program's row lookup as ONE function of a table and an edge array: wrap a negative index once by the
  table's length, gather the rows (the start index clamped into the table), and keep a gathered row only where the
  wrapped index lies inside the table; elsewhere the row is filled with a fixed word. `take200` looks rows of a
  200000-row table up, `take100` rows of a 100000-row table.
-/
import proofs.«429049_j82403242541640_4_alg».proof.KernelIdeal
import proofs.«429049_j82403242541640_4_alg».proof.Proof.Gen.KernelIdeal
import Idealize.ShloMosaic.PureOps.Ideal

noncomputable section

namespace Cert.KernelIdeal.Take

open Idealize.ShloMosaic Cert.KernelIdeal Cert.KernelIdeal.Facts₀

/-- The lookup in a table of 200000 rows. -/
def take200 (L : FVec Ideal S200000x64 .f32) (idx : IVec S1200000 32) : FVec Ideal S1200000x64 .f32 :=
  select
    (broadcastInDim S1200000x64 ![0] bcast_S1200000_S1200000x64_0
      (Host.reduce IntOp.andi
        (andi
          (cmpi .sge
            (broadcastInDim S1200000x1 ![0] bcast_S1200000_S1200000x1_0
              (select (cmpi .slt idx (broadcastInDim S1200000 ![] bcast_S_S1200000 (constantI S_ 32 0#32)))
                (addi idx (broadcastInDim S1200000 ![] bcast_S_S1200000 (constantI S_ 32 200000#32))) idx))
            (broadcastInDim S1200000x1 ![] bcast_S_S1200000x1 (constantI S_ 32 0#32)))
          (cmpi .sle
            (broadcastInDim S1200000x1 ![0] bcast_S1200000_S1200000x1_0
              (select (cmpi .slt idx (broadcastInDim S1200000 ![] bcast_S_S1200000 (constantI S_ 32 0#32)))
                (addi idx (broadcastInDim S1200000 ![] bcast_S_S1200000 (constantI S_ 32 200000#32))) idx))
            (broadcastInDim S1200000x1 ![0, 1] bcast_S1x1_S1200000x1_0_1
              (broadcastInDim S1x1 ![1] bcast_S1_S1x1_1 (constantI S1 32 199999#32)))))
        (constantI S_ 1 1#1) reducesTo_S1200000x1_S1200000_d1 h_S_))
    (Host.gather gather_S200000x64_S1200000x1_S1200000x64_1_0_n_n_0_1_164 L
      (broadcastInDim S1200000x1 ![0] bcast_S1200000_S1200000x1_0
        (select (cmpi .slt idx (broadcastInDim S1200000 ![] bcast_S_S1200000 (constantI S_ 32 0#32)))
          (addi idx (broadcastInDim S1200000 ![] bcast_S_S1200000 (constantI S_ 32 200000#32))) idx)))
    (broadcastInDim S1200000x64 ![] bcast_S_S1200000x64 (constant (F := Ideal) S_ .f32 0x7FC00000#32))

/-- The lookup in a table of 100000 rows. -/
def take100 (L : FVec Ideal S100000x64 .f32) (idx : IVec S1200000 32) : FVec Ideal S1200000x64 .f32 :=
  select
    (broadcastInDim S1200000x64 ![0] bcast_S1200000_S1200000x64_0
      (Host.reduce IntOp.andi
        (andi
          (cmpi .sge
            (broadcastInDim S1200000x1 ![0] bcast_S1200000_S1200000x1_0
              (select (cmpi .slt idx (broadcastInDim S1200000 ![] bcast_S_S1200000 (constantI S_ 32 0#32)))
                (addi idx (broadcastInDim S1200000 ![] bcast_S_S1200000 (constantI S_ 32 100000#32))) idx))
            (broadcastInDim S1200000x1 ![] bcast_S_S1200000x1 (constantI S_ 32 0#32)))
          (cmpi .sle
            (broadcastInDim S1200000x1 ![0] bcast_S1200000_S1200000x1_0
              (select (cmpi .slt idx (broadcastInDim S1200000 ![] bcast_S_S1200000 (constantI S_ 32 0#32)))
                (addi idx (broadcastInDim S1200000 ![] bcast_S_S1200000 (constantI S_ 32 100000#32))) idx))
            (broadcastInDim S1200000x1 ![0, 1] bcast_S1x1_S1200000x1_0_1
              (broadcastInDim S1x1 ![1] bcast_S1_S1x1_1 (constantI S1 32 99999#32)))))
        (constantI S_ 1 1#1) reducesTo_S1200000x1_S1200000_d1 h_S_))
    (Host.gather gather_S100000x64_S1200000x1_S1200000x64_1_0_n_n_0_1_164 L
      (broadcastInDim S1200000x1 ![0] bcast_S1200000_S1200000x1_0
        (select (cmpi .slt idx (broadcastInDim S1200000 ![] bcast_S_S1200000 (constantI S_ 32 0#32)))
          (addi idx (broadcastInDim S1200000 ![] bcast_S_S1200000 (constantI S_ 32 100000#32))) idx)))
    (broadcastInDim S1200000x64 ![] bcast_S_S1200000x64 (constant (F := Ideal) S_ .f32 0x7FC00000#32))

end Cert.KernelIdeal.Take

end
-- ==== Proof.Region0.lean ====
/-
  Region 0: the constraint encoder. Every grid point stages a block of 10000 rows of the feature table, multiplies it
  by the first weight, adds the bias row, applies tanh, multiplies by the second weight and adds its bias; the blocks of
  the output tile its 100000 rows, so after the region the output table is the encoder of the whole feature table.
-/
import proofs.«429049_j82403242541640_4_alg».proof.Proof.Gen.KernelIdeal.Frame
import proofs.«429049_j82403242541640_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! The contraction `[10000, 5] · [5, 64]`: operand coordinates at an output index and a contraction index. -/

/-- The left operand's row is the output's row. -/
theorem lhsIn_0 (i : S10000x64.Idx) (r : dot_S10000x5_S5x64_S10000x64_1_0_0_1_n_n.contr.Idx) :
    (dot_S10000x5_S5x64_S10000x64_1_0_0_1_n_n.lhsIdx i r 0).val = (i 0).val := by
  unfold DotDims.lhsIdx
  rw [dif_neg (show ¬(0 : Fin S10000x5.rank) ∈ dot_S10000x5_S5x64_S10000x64_1_0_0_1_n_n.lhsBatch by decide), dif_pos (show (0 : Fin S10000x5.rank) ∈ dot_S10000x5_S5x64_S10000x64_1_0_0_1_n_n.lhsNonContracting by decide)]
  rfl
/-- The left operand's column is the contraction coordinate. -/
theorem lhsIn_1 (i : S10000x64.Idx) (r : dot_S10000x5_S5x64_S10000x64_1_0_0_1_n_n.contr.Idx) :
    (dot_S10000x5_S5x64_S10000x64_1_0_0_1_n_n.lhsIdx i r 1).val = (r ⟨0, by decide⟩).val :=
  dot_S10000x5_S5x64_S10000x64_1_0_0_1_n_n.lhsIdx_val_of_single rfl i r
/-- The right operand's row is the contraction coordinate. -/
theorem rhsIn_0 (i : S10000x64.Idx) (r : dot_S10000x5_S5x64_S10000x64_1_0_0_1_n_n.contr.Idx) :
    (dot_S10000x5_S5x64_S10000x64_1_0_0_1_n_n.rhsIdx i r 0).val = (r ⟨0, by decide⟩).val :=
  dot_S10000x5_S5x64_S10000x64_1_0_0_1_n_n.rhsIdx_val_of_single rfl i r
/-- The right operand's column is the output's column. -/
theorem rhsIn_1 (i : S10000x64.Idx) (r : dot_S10000x5_S5x64_S10000x64_1_0_0_1_n_n.contr.Idx) :
    (dot_S10000x5_S5x64_S10000x64_1_0_0_1_n_n.rhsIdx i r 1).val = (i 1).val := by
  unfold DotDims.rhsIdx
  rw [dif_neg (show ¬(1 : Fin S5x64.rank) ∈ dot_S10000x5_S5x64_S10000x64_1_0_0_1_n_n.rhsBatch by decide), dif_pos (show (1 : Fin S5x64.rank) ∈ dot_S10000x5_S5x64_S10000x64_1_0_0_1_n_n.rhsNonContracting by decide)]
  rfl

/-- The product into the zero accumulator, read at `(p, q)`: `∑ₖ a(p, k) · b(k, q)`. -/
theorem matmulIn_apply (a : FVec Ideal S10000x5 .f32) (b : FVec Ideal S5x64 .f32) (p : Fin 10000) (q : Fin 64) :
    matmul dot_S10000x5_S5x64_S10000x64_1_0_0_1_n_n none a b (constant (F := Ideal) S10000x64 .f32 0x00000000#32) (ix2 p q)
      = ∑ k : Fin 5, a (ix2 p k) * b (ix2 k q) := by
  simp only [matmul]
  rw [Ideal.matmul_constant_zero_apply, ← Equiv.sum_comp (contrEquiv1 dot_S10000x5_S5x64_S10000x64_1_0_0_1_n_n 5 rfl rfl).symm]
  refine Finset.sum_congr rfl fun k _ => ?_
  have hk := contrEquiv1_symm_val dot_S10000x5_S5x64_S10000x64_1_0_0_1_n_n 5 rfl rfl k
  have el : dot_S10000x5_S5x64_S10000x64_1_0_0_1_n_n.lhsIdx (ix2 p q) ((contrEquiv1 dot_S10000x5_S5x64_S10000x64_1_0_0_1_n_n 5 rfl rfl).symm k) = ix2 p k := funext fun ax => Fin.ext (by
    match ax with
    | ⟨0, _⟩ => exact lhsIn_0 _ _
    | ⟨1, _⟩ => exact (lhsIn_1 _ _).trans hk)
  have er : dot_S10000x5_S5x64_S10000x64_1_0_0_1_n_n.rhsIdx (ix2 p q) ((contrEquiv1 dot_S10000x5_S5x64_S10000x64_1_0_0_1_n_n 5 rfl rfl).symm k) = ix2 k q := funext fun ax => Fin.ext (by
    match ax with
    | ⟨0, _⟩ => exact (rhsIn_0 _ _).trans hk
    | ⟨1, _⟩ => exact rhsIn_1 _ _)
  rw [el, er]

/-! The contraction `[10000, 64] · [64, 64]`: operand coordinates at an output index and a contraction index. -/

/-- The left operand's row is the output's row. -/
theorem lhsHid_0 (i : S10000x64.Idx) (r : dot_S10000x64_S64x64_S10000x64_1_0_0_1_n_n.contr.Idx) :
    (dot_S10000x64_S64x64_S10000x64_1_0_0_1_n_n.lhsIdx i r 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column is the contraction coordinate. -/
theorem lhsHid_1 (i : S10000x64.Idx) (r : dot_S10000x64_S64x64_S10000x64_1_0_0_1_n_n.contr.Idx) :
    (dot_S10000x64_S64x64_S10000x64_1_0_0_1_n_n.lhsIdx i r 1).val = (r ⟨0, by decide⟩).val :=
  dot_S10000x64_S64x64_S10000x64_1_0_0_1_n_n.lhsIdx_val_of_single rfl i r
/-- The right operand's row is the contraction coordinate. -/
theorem rhsHid_0 (i : S10000x64.Idx) (r : dot_S10000x64_S64x64_S10000x64_1_0_0_1_n_n.contr.Idx) :
    (dot_S10000x64_S64x64_S10000x64_1_0_0_1_n_n.rhsIdx i r 0).val = (r ⟨0, by decide⟩).val :=
  dot_S10000x64_S64x64_S10000x64_1_0_0_1_n_n.rhsIdx_val_of_single rfl i r
/-- The right operand's column is the output's column. -/
theorem rhsHid_1 (i : S10000x64.Idx) (r : dot_S10000x64_S64x64_S10000x64_1_0_0_1_n_n.contr.Idx) :
    (dot_S10000x64_S64x64_S10000x64_1_0_0_1_n_n.rhsIdx i r 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into the zero accumulator, read at `(p, q)`: `∑ₖ a(p, k) · b(k, q)`. -/
theorem matmulHid_apply (a : FVec Ideal S10000x64 .f32) (b : FVec Ideal S64x64 .f32) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun ax => Fin.ext (by
    match ax with
    | ⟨0, _⟩ => exact lhsHid_0 _ _
    | ⟨1, _⟩ => exact (lhsHid_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun ax => Fin.ext (by
    match ax with
    | ⟨0, _⟩ => exact (rhsHid_0 _ _).trans hk
    | ⟨1, _⟩ => exact rhsHid_1 _ _)
  rw [el, er]

/-- A bias row laid over every row of the block: at `(p, q)` it reads the bias at `q`. -/
theorem biasRow_apply (b : FVec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ _ p q).trans (shapeCast_a_1a_apply b _ 0 q)

/-- The block's payload at `(p, q)`: the two affine layers with `tanh` between, on the block's row `p`. -/
theorem pay_apply (x0 : Vec Ideal S10000x5 .f32) (x1 : Vec Ideal S5x64 .f32) (x2 : Vec Ideal S64 .f32)
    (x3 : Vec Ideal S64x64 .f32) (x4 : Vec Ideal S64 .f32) (p : Fin 10000) (q : Fin 64) :
    k0_pay1 x0 x1 x2 x3 x4 (ix2 p q)
      = (∑ k : Fin 64, Ideal.tanh ((∑ l : Fin 5, x0 (ix2 p l) * x1 (ix2 l k)) + x2 (ix1 k)) * x3 (ix2 k q)) + x4 (ix1 q) := by
  unfold k0_pay1
  rw [addf_apply, biasRow_apply, shapeCast_self, shapeCast_self, matmulHid_apply]
  refine congrArg (· + x4 (ix1 q)) (Finset.sum_congr rfl fun k _ => ?_)
  refine congrArg (· * x3 (ix2 k q)) ?_
  show Ideal.tanh (addf (F := Ideal) (s := S10000x64) (φ := .f32) _ _ (ix2 p k)) = _
  rw [addf_apply, biasRow_apply, matmulIn_apply]

/-- The payload of blocks that hold the tables' entries — the feature block row `e 0` of the feature table, the weights and
    biases whole — is the encoder of the tables at `e`, whose column is `q`. -/
theorem pay_eq_encode (X : Cert.Spec.Mat 100000 5) (W1 : Cert.Spec.Mat 5 64) (B1 : Cert.Spec.Row 64) (W2 : Cert.Spec.Mat 64 64) (B2 : Cert.Spec.Row 64)
    (x0 : Vec Ideal S10000x5 .f32) (x1 : Vec Ideal S5x64 .f32) (x2 : Vec Ideal S64 .f32) (x3 : Vec Ideal S64x64 .f32) (x4 : Vec Ideal S64 .f32)
    (p : Fin 10000) (q : Fin 64) (e : S100000x64.Idx)
    (h0 : ∀ l : Fin 5, x0 (ix2 p l) = X (ix2 (n0 := 100000) (n1 := 5) (e 0) l))
    (h1 : ∀ (l : Fin 5) (k : Fin 64), x1 (ix2 l k) = W1 (ix2 l k))
    (h2 : ∀ k : Fin 64, x2 (ix1 k) = B1 (ix1 k))
    (h3 : ∀ k : Fin 64, x3 (ix2 k q) = W2 (ix2 (n0 := 64) (n1 := 64) k (e 1)))
    (h4 : x4 (ix1 q) = B2 (ix1 (n := 64) (e 1))) :
    k0_pay1 x0 x1 x2 x3 x4 (ix2 p q) = Cert.Spec.encode X W1 B1 W2 B2 e := by
  rw [pay_apply]
  show _ = (∑ k : Fin 64, Ideal.tanh ((∑ l : Fin 5, X (ix2 (n0 := 100000) (n1 := 5) (e 0) l) * W1 (ix2 l k)) + B1 (ix1 k))
      * W2 (ix2 (n0 := 64) (n1 := 64) k (e 1))) + B2 (ix1 (n := 64) (e 1))
  simp only [h0, h1, h2, h3, h4]

/-! From blocks to the table: every point writes back the block of the encoder its rows name, and the blocks tile the table. -/

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the feature block moves with the output block along the rows, the weights and biases
    stay at block 0, and the output's block number is the point's number. -/
theorem index_facts : ∀ t : Fin cfg0.N,
    win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the encoder of the whole feature table. -/
theorem flushed_eq (c : Dev nD) (t : Fin cfg0.N) :
    (dat0 (F := Ideal) V c).flushed 5 t = ((cfg0.win 5).blk t).view.read (Elt Ideal)
      (Cert.Spec.encode (n := 100000) (f := 5) (d := 64) (o := 64) (V c main_arg1) (V c main_v2) (V c main_arg9) (V c main_v3) (V c main_arg11)) := by
  show (cfg0.win 5).cut (grid0.coords t) ((dat0 (F := Ideal) V c).after 5 t) = _
  rw [after0_5]
  unfold out0_5
  rw [View.canon_unit_zero zeros2]
  simp only [View.ld_unit_zero (S := S10000x5) zeros2, View.ld_unit_zero (S := S5x64) zeros2, View.ld_unit_zero (S := S64) zeros1,
    View.ld_unit_zero (S := S64x64) zeros2]
  obtain ⟨e00, e01, e10, e11, e20, e30, e31, e40, e50, e51⟩ := index_facts t
  funext (j : S10000x64.Idx)
  obtain ⟨p, q, rfl⟩ : ∃ (p : Fin 10000) (q : Fin 64), j = ix2 p q := ⟨j 0, j 1, eq_ix2 j⟩
  -- the feature block's row is the output block's row; its column is the column inside the block
  have h0 : ∀ l : Fin 5, ((cfg0.win 0).blk t).view.emb (ix2 p l)
      = ix2 (n0 := 100000) (n1 := 5) ((((cfg0.win 5).blk t).view.emb (ix2 p q)) 0) l := fun l => by
    funext a; apply Fin.ext
    match a with
    | ⟨0, _⟩ => show win0_0.index t (0 : Fin 2) * 10000 + 1 * p.val = win0_5.index t (0 : Fin 2) * 10000 + 1 * p.val; omega
    | ⟨1, _⟩ => show win0_0.index t (1 : Fin 2) * 5 + 1 * l.val = l.val; omega
  -- the weights and biases are staged whole
  have h1 : ∀ (l : Fin 5) (k : Fin 64), ((cfg0.win 1).blk t).view.emb (ix2 l k) = ix2 (n0 := 5) (n1 := 64) l k := fun l k => by
    funext a; apply Fin.ext
    match a with
    | ⟨0, _⟩ => show win0_1.index t (0 : Fin 2) * 5 + 1 * l.val = l.val; omega
    | ⟨1, _⟩ => show win0_1.index t (1 : Fin 2) * 64 + 1 * k.val = k.val; omega
  have h2 : ∀ k : Fin 64, ((cfg0.win 2).blk t).view.emb (ix1 k) = ix1 (n := 64) k := fun k => by
    funext a; apply Fin.ext
    match a with
    | ⟨0, _⟩ => show win0_2.index t (0 : Fin 1) * 64 + 1 * k.val = k.val; omega
  have h3 : ∀ k : Fin 64, ((cfg0.win 3).blk t).view.emb (ix2 k q)
      = ix2 (n0 := 64) (n1 := 64) k ((((cfg0.win 5).blk t).view.emb (ix2 p q)) 1) := fun k => by
    funext a; apply Fin.ext
    match a with
    | ⟨0, _⟩ => show win0_3.index t (0 : Fin 2) * 64 + 1 * k.val = k.val; omega
    | ⟨1, _⟩ => show win0_3.index t (1 : Fin 2) * 64 + 1 * q.val = win0_5.index t (1 : Fin 2) * 64 + 1 * q.val; omega
  have h4 : ((cfg0.win 4).blk t).view.emb (ix1 q) = ix1 (n := 64) ((((cfg0.win 5).blk t).view.emb (ix2 p q)) 1) := by
    funext a; apply Fin.ext
    match a with
    | ⟨0, _⟩ => show win0_4.index t (0 : Fin 1) * 64 + 1 * q.val = win0_5.index t (1 : Fin 2) * 64 + 1 * q.val; omega
  exact pay_eq_encode (V c main_arg1) (V c main_v2) (V c main_arg9) (V c main_v3) (V c main_arg11)
    (iblk0 V c 0 t) (iblk0 V c 1 t) (iblk0 V c 2 t) (iblk0 V c 3 t) (iblk0 V c 4 t) p q (((cfg0.win 5).blk t).view.emb (ix2 p q))
    (fun l => congrArg (V c main_arg1) (h0 l)) (fun l k => congrArg (V c main_v2) (h1 l k)) (fun k => congrArg (V c main_arg9) (h2 k))
    (fun k => congrArg (V c main_v3) (h3 k)) (congrArg (V c main_arg11) h4)

/-- A row and column of the table lie in point `t`'s block iff each lies in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v7).slice (win0_5.rect t)).set ↔ _
  rw [View.set_slice_whole, Rect.mem_set_unit]
  exact Iff.rfl

/-- The blocks tile the table: row `r` is in the block of point `r / 10000`. -/
theorem cover (i : S100000x64.Idx) : ∃ t : Fin cfg0.N, (cfg0.win 5).flush t = true ∧ i ∈ ((cfg0.win 5).blk t).view.set := by
  have hi0 : (i 0).val < 100000 := idx2_lt0 i
  have hi1 : (i 1).val < 64 := idx2_lt1 i
  have hN : grid0.N = 10 := N_0
  have ht : (i 0).val / 10000 < cfg0.N := by show _ < grid0.N; omega
  obtain ⟨-, -, -, -, -, -, -, -, e50, e51⟩ := index_facts ⟨(i 0).val / 10000, ht⟩
  have e50' : win0_5.index ⟨(i 0).val / 10000, ht⟩ (0 : Fin 2) = (i 0).val / 10000 := e50
  refine ⟨⟨(i 0).val / 10000, ht⟩, flush0_5 _, ?_⟩
  rw [mem_blk]
  intro a
  match a with
  | ⟨0, _⟩ =>
    show win0_5.index ⟨(i 0).val / 10000, ht⟩ (0 : Fin 2) * 10000 ≤ (i 0).val ∧ (i 0).val < win0_5.index ⟨(i 0).val / 10000, ht⟩ (0 : Fin 2) * 10000 + 10000
    omega
  | ⟨1, _⟩ =>
    show win0_5.index ⟨(i 0).val / 10000, ht⟩ (1 : Fin 2) * 64 ≤ (i 1).val ∧ (i 1).val < win0_5.index ⟨(i 0).val / 10000, ht⟩ (1 : Fin 2) * 64 + 64
    omega

/-- Region 0 (the constraint encoder): the output table after the region is the encoder of the entry arrays. -/
theorem final (c : Dev nD) :
    (dat0 (F := Ideal) V c).arrAt 5 cfg0.N
      = Cert.Spec.encode (n := 100000) (f := 5) (d := 64) (o := 64) (V c main_arg1) (V c main_v2) (V c main_arg9) (V c main_v3) (V c main_arg11) :=
  (dat0 (F := Ideal) V c).arrAt_eq_of_cover 5 _ (fun t _ => flushed_eq V c t) cover

end Cert.KernelIdeal.Region0

end
-- ==== Proof.Region1.lean ====
/-
  Region 1: the variable encoder together with the first message layer. Every grid point encodes a block of 10000 rows
  and also applies the message layer to the encoded block; the blocks tile the 200000 rows of both outputs.
-/
import proofs.«429049_j82403242541640_4_alg».proof.Proof.Gen.KernelIdeal.Frame
import proofs.«429049_j82403242541640_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! The contraction `[10000, 7] · [7, 64]` of the first layer: operand coordinates at an output index and a contraction index. -/

/-- The feature block's row is the output's row. -/
theorem lhsFeat_0 (i : S10000x64.Idx) (r : dot_S10000x7_S7x64_S10000x64_1_0_0_1_n_n.contr.Idx) :
    (dot_S10000x7_S7x64_S10000x64_1_0_0_1_n_n.lhsIdx i r 0).val = (i 0).val := by
  unfold DotDims.lhsIdx
  rw [dif_neg (show ¬(0 : Fin S10000x7.rank) ∈ dot_S10000x7_S7x64_S10000x64_1_0_0_1_n_n.lhsBatch by decide), dif_pos (show (0 : Fin S10000x7.rank) ∈ dot_S10000x7_S7x64_S10000x64_1_0_0_1_n_n.lhsNonContracting by decide)]
  rfl
/-- The feature block's column is the contraction coordinate. -/
theorem lhsFeat_1 (i : S10000x64.Idx) (r : dot_S10000x7_S7x64_S10000x64_1_0_0_1_n_n.contr.Idx) :
    (dot_S10000x7_S7x64_S10000x64_1_0_0_1_n_n.lhsIdx i r 1).val = (r ⟨0, by decide⟩).val :=
  dot_S10000x7_S7x64_S10000x64_1_0_0_1_n_n.lhsIdx_val_of_single rfl i r
/-- The first weight's row is the contraction coordinate. -/
theorem rhsFeat_0 (i : S10000x64.Idx) (r : dot_S10000x7_S7x64_S10000x64_1_0_0_1_n_n.contr.Idx) :
    (dot_S10000x7_S7x64_S10000x64_1_0_0_1_n_n.rhsIdx i r 0).val = (r ⟨0, by decide⟩).val :=
  dot_S10000x7_S7x64_S10000x64_1_0_0_1_n_n.rhsIdx_val_of_single rfl i r
/-- The first weight's column is the output's column. -/
theorem rhsFeat_1 (i : S10000x64.Idx) (r : dot_S10000x7_S7x64_S10000x64_1_0_0_1_n_n.contr.Idx) :
    (dot_S10000x7_S7x64_S10000x64_1_0_0_1_n_n.rhsIdx i r 1).val = (i 1).val := by
  unfold DotDims.rhsIdx
  rw [dif_neg (show ¬(1 : Fin S7x64.rank) ∈ dot_S10000x7_S7x64_S10000x64_1_0_0_1_n_n.rhsBatch by decide), dif_pos (show (1 : Fin S7x64.rank) ∈ dot_S10000x7_S7x64_S10000x64_1_0_0_1_n_n.rhsNonContracting by decide)]
  rfl

/-- The first layer's product into the zero accumulator, read at `(p, q)`: `∑ₗ x(p, l) · w(l, q)` over the 7 features. -/
theorem matmulFeat_apply (x : FVec Ideal S10000x7 .f32) (w : FVec Ideal S7x64 .f32) (p : Fin 10000) (q : Fin 64) :
    matmul dot_S10000x7_S7x64_S10000x64_1_0_0_1_n_n none x w (constant (F := Ideal) S10000x64 .f32 0x00000000#32) (ix2 p q)
      = ∑ l : Fin 7, x (ix2 p l) * w (ix2 l q) := by
  simp only [matmul]
  rw [Ideal.matmul_constant_zero_apply, ← Equiv.sum_comp (contrEquiv1 dot_S10000x7_S7x64_S10000x64_1_0_0_1_n_n 7 rfl rfl).symm]
  refine Finset.sum_congr rfl fun l _ => ?_
  have hl := contrEquiv1_symm_val dot_S10000x7_S7x64_S10000x64_1_0_0_1_n_n 7 rfl rfl l
  have ex : dot_S10000x7_S7x64_S10000x64_1_0_0_1_n_n.lhsIdx (ix2 p q) ((contrEquiv1 dot_S10000x7_S7x64_S10000x64_1_0_0_1_n_n 7 rfl rfl).symm l) = ix2 p l := funext fun ax => Fin.ext (by
    match ax with
    | ⟨0, _⟩ => exact lhsFeat_0 _ _
    | ⟨1, _⟩ => exact (lhsFeat_1 _ _).trans hl)
  have ew : dot_S10000x7_S7x64_S10000x64_1_0_0_1_n_n.rhsIdx (ix2 p q) ((contrEquiv1 dot_S10000x7_S7x64_S10000x64_1_0_0_1_n_n 7 rfl rfl).symm l) = ix2 l q := funext fun ax => Fin.ext (by
    match ax with
    | ⟨0, _⟩ => exact (rhsFeat_0 _ _).trans hl
    | ⟨1, _⟩ => exact rhsFeat_1 _ _)
  rw [ex, ew]

/-! The contraction `[10000, 64] · [64, 64]` of the second layer and of the message layer. -/

/-- The hidden block's row is the output's row. -/
theorem lhsHid_0 (i : S10000x64.Idx) (r : dot_S10000x64_S64x64_S10000x64_1_0_0_1_n_n.contr.Idx) :
    (dot_S10000x64_S64x64_S10000x64_1_0_0_1_n_n.lhsIdx i r 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The hidden block's column is the contraction coordinate. -/
theorem lhsHid_1 (i : S10000x64.Idx) (r : dot_S10000x64_S64x64_S10000x64_1_0_0_1_n_n.contr.Idx) :
    (dot_S10000x64_S64x64_S10000x64_1_0_0_1_n_n.lhsIdx i r 1).val = (r ⟨0, by decide⟩).val :=
  dot_S10000x64_S64x64_S10000x64_1_0_0_1_n_n.lhsIdx_val_of_single rfl i r
/-- The square weight's row is the contraction coordinate. -/
theorem rhsHid_0 (i : S10000x64.Idx) (r : dot_S10000x64_S64x64_S10000x64_1_0_0_1_n_n.contr.Idx) :
    (dot_S10000x64_S64x64_S10000x64_1_0_0_1_n_n.rhsIdx i r 0).val = (r ⟨0, by decide⟩).val :=
  dot_S10000x64_S64x64_S10000x64_1_0_0_1_n_n.rhsIdx_val_of_single rfl i r
/-- The square weight's column is the output's column. -/
theorem rhsHid_1 (i : S10000x64.Idx) (r : dot_S10000x64_S64x64_S10000x64_1_0_0_1_n_n.contr.Idx) :
    (dot_S10000x64_S64x64_S10000x64_1_0_0_1_n_n.rhsIdx i r 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product by a square weight into the zero accumulator, read at `(p, q)`: `∑ₖ h(p, k) · w(k, q)` over the 64 hidden units. -/
theorem matmulHid_apply (h : FVec Ideal S10000x64 .f32) (w : FVec Ideal S64x64 .f32) (p : Fin 10000) (q : Fin 64) :
    matmul dot_S10000x64_S64x64_S10000x64_1_0_0_1_n_n none h w (constant (F := Ideal) S10000x64 .f32 0x00000000#32) (ix2 p q)
      = ∑ k : Fin 64, h (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have eh : dot_S10000x64_S64x64_S10000x64_1_0_0_1_n_n.lhsIdx (ix2 p q) ((contrEquiv1 dot_S10000x64_S64x64_S10000x64_1_0_0_1_n_n 64 rfl rfl).symm k) = ix2 p k := funext fun ax => Fin.ext (by
    match ax with
    | ⟨0, _⟩ => exact lhsHid_0 _ _
    | ⟨1, _⟩ => exact (lhsHid_1 _ _).trans hk)
  have ew : dot_S10000x64_S64x64_S10000x64_1_0_0_1_n_n.rhsIdx (ix2 p q) ((contrEquiv1 dot_S10000x64_S64x64_S10000x64_1_0_0_1_n_n 64 rfl rfl).symm k) = ix2 k q := funext fun ax => Fin.ext (by
    match ax with
    | ⟨0, _⟩ => exact (rhsHid_0 _ _).trans hk
    | ⟨1, _⟩ => exact rhsHid_1 _ _)
  rw [eh, ew]

/-- A bias row laid over every row of the block: at `(p, q)` it reads the bias at `q`. -/
theorem biasRow_apply (b : FVec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ _ p q).trans (shapeCast_a_1a_apply b _ 0 q)

/-! The two payloads at an entry of the block. -/

/-- The encoded block at `(p, q)`: the two affine layers with `tanh` between, on the block's row `p`. -/
theorem enc_apply (x0 : Vec Ideal S10000x7 .f32) (x1 : Vec Ideal S7x64 .f32) (x2 : Vec Ideal S64 .f32)
    (x3 : Vec Ideal S64x64 .f32) (x4 : Vec Ideal S64 .f32) (p : Fin 10000) (q : Fin 64) :
    k1_pay1 x0 x1 x2 x3 x4 (ix2 p q)
      = (∑ k : Fin 64, Ideal.tanh ((∑ l : Fin 7, x0 (ix2 p l) * x1 (ix2 l k)) + x2 (ix1 k)) * x3 (ix2 k q)) + x4 (ix1 q) := by
  unfold k1_pay1
  rw [addf_apply, biasRow_apply, shapeCast_self, shapeCast_self, matmulHid_apply]
  refine congrArg (· + x4 (ix1 q)) (Finset.sum_congr rfl fun k _ => ?_)
  refine congrArg (· * x3 (ix2 k q)) ?_
  show Ideal.tanh (addf (F := Ideal) (s := S10000x64) (φ := .f32) _ _ (ix2 p k)) = _
  rw [addf_apply, biasRow_apply, matmulFeat_apply]

/-- The message block at `(p, q)`: the message layer on row `p` of the encoded block. -/
theorem msg_apply (x0 : Vec Ideal S10000x7 .f32) (x1 : Vec Ideal S7x64 .f32) (x2 : Vec Ideal S64 .f32)
    (x3 : Vec Ideal S64x64 .f32) (x4 : Vec Ideal S64 .f32) (x5 : Vec Ideal S64x64 .f32) (x6 : Vec Ideal S64 .f32)
    (p : Fin 10000) (q : Fin 64) :
    k1_pay2 x0 x1 x2 x3 x4 x5 x6 (ix2 p q)
      = (∑ k : Fin 64, k1_pay1 x0 x1 x2 x3 x4 (ix2 p k) * x5 (ix2 k q)) + x6 (ix1 q) := by
  unfold k1_pay2
  rw [addf_apply, biasRow_apply, shapeCast_self, shapeCast_self, matmulHid_apply]

/-! The payloads of blocks that hold the tables' entries are the specification's functions of the tables. -/

/-- The encoded block, when the feature block is row `e 0` of the feature table and the weights and biases are whole,
    is the encoder of the tables at `e`, whose column is `q`. -/
theorem enc_eq_encode (X : Cert.Spec.Mat 200000 7) (W1 : Cert.Spec.Mat 7 64) (B1 : Cert.Spec.Row 64) (W2 : Cert.Spec.Mat 64 64) (B2 : Cert.Spec.Row 64)
    (x0 : Vec Ideal S10000x7 .f32) (x1 : Vec Ideal S7x64 .f32) (x2 : Vec Ideal S64 .f32) (x3 : Vec Ideal S64x64 .f32) (x4 : Vec Ideal S64 .f32)
    (p : Fin 10000) (q : Fin 64) (e : S200000x64.Idx)
    (h0 : ∀ l : Fin 7, x0 (ix2 p l) = X (ix2 (n0 := 200000) (n1 := 7) (e 0) l))
    (h1 : ∀ (l : Fin 7) (k : Fin 64), x1 (ix2 l k) = W1 (ix2 l k))
    (h2 : ∀ k : Fin 64, x2 (ix1 k) = B1 (ix1 k))
    (h3 : ∀ k : Fin 64, x3 (ix2 k q) = W2 (ix2 (n0 := 64) (n1 := 64) k (e 1)))
    (h4 : x4 (ix1 q) = B2 (ix1 (n := 64) (e 1))) :
    k1_pay1 x0 x1 x2 x3 x4 (ix2 p q) = Cert.Spec.encode X W1 B1 W2 B2 e := by
  rw [enc_apply]
  show _ = (∑ k : Fin 64, Ideal.tanh ((∑ l : Fin 7, X (ix2 (n0 := 200000) (n1 := 7) (e 0) l) * W1 (ix2 l k)) + B1 (ix1 k))
      * W2 (ix2 (n0 := 64) (n1 := 64) k (e 1))) + B2 (ix1 (n := 64) (e 1))
  simp only [h0, h1, h2, h3, h4]

/-- The message block, under the same reading of the blocks, is the message layer applied to the encoder of the tables:
    the layer sums over the whole encoded row `e 0`, so the second weight and bias are needed at every column. -/
theorem msg_eq_affine (X : Cert.Spec.Mat 200000 7) (W1 : Cert.Spec.Mat 7 64) (B1 : Cert.Spec.Row 64) (W2 : Cert.Spec.Mat 64 64) (B2 : Cert.Spec.Row 64)
    (W3 : Cert.Spec.Mat 64 64) (B3 : Cert.Spec.Row 64)
    (x0 : Vec Ideal S10000x7 .f32) (x1 : Vec Ideal S7x64 .f32) (x2 : Vec Ideal S64 .f32) (x3 : Vec Ideal S64x64 .f32) (x4 : Vec Ideal S64 .f32)
    (x5 : Vec Ideal S64x64 .f32) (x6 : Vec Ideal S64 .f32)
    (p : Fin 10000) (q : Fin 64) (e : S200000x64.Idx)
    (h0 : ∀ l : Fin 7, x0 (ix2 p l) = X (ix2 (n0 := 200000) (n1 := 7) (e 0) l))
    (h1 : ∀ (l : Fin 7) (k : Fin 64), x1 (ix2 l k) = W1 (ix2 l k))
    (h2 : ∀ k : Fin 64, x2 (ix1 k) = B1 (ix1 k))
    (h3 : ∀ k k' : Fin 64, x3 (ix2 k k') = W2 (ix2 k k'))
    (h4 : ∀ k : Fin 64, x4 (ix1 k) = B2 (ix1 k))
    (h5 : ∀ k : Fin 64, x5 (ix2 k q) = W3 (ix2 (n0 := 64) (n1 := 64) k (e 1)))
    (h6 : x6 (ix1 q) = B3 (ix1 (n := 64) (e 1))) :
    k1_pay2 x0 x1 x2 x3 x4 x5 x6 (ix2 p q) = Cert.Spec.affine (Cert.Spec.encode X W1 B1 W2 B2) W3 B3 e := by
  rw [msg_apply]
  show _ = (∑ k : Fin 64, Cert.Spec.encode X W1 B1 W2 B2 (ix2 (n0 := 200000) (n1 := 64) (e 0) k) * W3 (ix2 (n0 := 64) (n1 := 64) k (e 1)))
      + B3 (ix1 (n := 64) (e 1))
  refine congrArg₂ (· + ·) (Finset.sum_congr rfl fun k _ => congrArg₂ (· * ·) ?_ (h5 k)) h6
  exact enc_eq_encode X W1 B1 W2 B2 x0 x1 x2 x3 x4 p k (ix2 (n0 := 200000) (n1 := 64) (e 0) k) h0 h1 h2 (fun k' => h3 k' k) (h4 k)

/-! From blocks to the tables: every point writes back, in each output, the block its rows name, and the blocks tile both tables. -/

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the feature block and both output blocks move together along the rows, block number
    the point's number; the weights and biases stay at block 0. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-! Where each staged block sits in its array, at point `t`. -/

/-- The feature block's entry `(p, l)` is the feature table's entry in row `t · 10000 + p`: the row `e 0` of any table index
    `e` with that row number. -/
theorem feat_at (t : Fin cfg1.N) (p : Fin 10000) (l : Fin 7) (e : S200000x64.Idx) (he : (e 0).val = t.val * 10000 + 1 * p.val) :
    ((cfg1.win 0).blk t).view.emb (ix2 p l) = ix2 (n0 := 200000) (n1 := 7) (e 0) l := by
  obtain ⟨e00, e01, -⟩ := index_facts t
  funext a; apply Fin.ext
  match a with
  | ⟨0, _⟩ => show win1_0.index t (0 : Fin 2) * 10000 + 1 * p.val = (e 0).val; omega
  | ⟨1, _⟩ => show win1_0.index t (1 : Fin 2) * 7 + 1 * l.val = l.val; omega
/-- The first weight is staged whole. -/
theorem w1_at (t : Fin cfg1.N) (l : Fin 7) (k : Fin 64) : ((cfg1.win 1).blk t).view.emb (ix2 l k) = ix2 (n0 := 7) (n1 := 64) l k := by
  obtain ⟨-, -, e10, e11, -⟩ := index_facts t
  funext a; apply Fin.ext
  match a with
  | ⟨0, _⟩ => show win1_1.index t (0 : Fin 2) * 7 + 1 * l.val = l.val; omega
  | ⟨1, _⟩ => show win1_1.index t (1 : Fin 2) * 64 + 1 * k.val = k.val; omega
/-- The first bias is staged whole. -/
theorem b1_at (t : Fin cfg1.N) (k : Fin 64) : ((cfg1.win 2).blk t).view.emb (ix1 k) = ix1 (n := 64) k := by
  obtain ⟨-, -, -, -, e20, -⟩ := index_facts t
  funext a; apply Fin.ext
  match a with
  | ⟨0, _⟩ => show win1_2.index t (0 : Fin 1) * 64 + 1 * k.val = k.val; omega
/-- The second weight is staged whole. -/
theorem w2_at (t : Fin cfg1.N) (k k' : Fin 64) : ((cfg1.win 3).blk t).view.emb (ix2 k k') = ix2 (n0 := 64) (n1 := 64) k k' := by
  obtain ⟨-, -, -, -, -, e30, e31, -⟩ := index_facts t
  funext a; apply Fin.ext
  match a with
  | ⟨0, _⟩ => show win1_3.index t (0 : Fin 2) * 64 + 1 * k.val = k.val; omega
  | ⟨1, _⟩ => show win1_3.index t (1 : Fin 2) * 64 + 1 * k'.val = k'.val; omega
/-- The second bias is staged whole. -/
theorem b2_at (t : Fin cfg1.N) (k : Fin 64) : ((cfg1.win 4).blk t).view.emb (ix1 k) = ix1 (n := 64) k := by
  obtain ⟨-, -, -, -, -, -, -, e40, -⟩ := index_facts t
  funext a; apply Fin.ext
  match a with
  | ⟨0, _⟩ => show win1_4.index t (0 : Fin 1) * 64 + 1 * k.val = k.val; omega
/-- The message weight is staged whole. -/
theorem w3_at (t : Fin cfg1.N) (k k' : Fin 64) : ((cfg1.win 5).blk t).view.emb (ix2 k k') = ix2 (n0 := 64) (n1 := 64) k k' := by
  obtain ⟨-, -, -, -, -, -, -, -, e50, e51, -⟩ := index_facts t
  funext a; apply Fin.ext
  match a with
  | ⟨0, _⟩ => show win1_5.index t (0 : Fin 2) * 64 + 1 * k.val = k.val; omega
  | ⟨1, _⟩ => show win1_5.index t (1 : Fin 2) * 64 + 1 * k'.val = k'.val; omega
/-- The message bias is staged whole. -/
theorem b3_at (t : Fin cfg1.N) (k : Fin 64) : ((cfg1.win 6).blk t).view.emb (ix1 k) = ix1 (n := 64) k := by
  obtain ⟨-, -, -, -, -, -, -, -, -, -, e60, -⟩ := index_facts t
  funext a; apply Fin.ext
  match a with
  | ⟨0, _⟩ => show win1_6.index t (0 : Fin 1) * 64 + 1 * k.val = k.val; omega

/-- Entry `(p, q)` of the encoded table's block at point `t` is the table's entry in row `t · 10000 + p`, column `q`. -/
theorem enc_at (t : Fin cfg1.N) (p : Fin 10000) (q : Fin 64) :
    ((((cfg1.win 7).blk t).view.emb (ix2 p q)) 0).val = t.val * 10000 + 1 * p.val
    ∧ ((((cfg1.win 7).blk t).view.emb (ix2 p q)) 1).val = q.val := by
  obtain ⟨-, -, -, -, -, -, -, -, -, -, -, e70, e71, -⟩ := index_facts t
  constructor
  · show win1_7.index t (0 : Fin 2) * 10000 + 1 * p.val = t.val * 10000 + 1 * p.val; omega
  · show win1_7.index t (1 : Fin 2) * 64 + 1 * q.val = q.val; omega
/-- The same for the message table's block. -/
theorem msg_at (t : Fin cfg1.N) (p : Fin 10000) (q : Fin 64) :
    ((((cfg1.win 8).blk t).view.emb (ix2 p q)) 0).val = t.val * 10000 + 1 * p.val
    ∧ ((((cfg1.win 8).blk t).view.emb (ix2 p q)) 1).val = q.val := by
  obtain ⟨-, -, -, -, -, -, -, -, -, -, -, -, -, e80, e81⟩ := index_facts t
  constructor
  · show win1_8.index t (0 : Fin 2) * 10000 + 1 * p.val = t.val * 10000 + 1 * p.val; omega
  · show win1_8.index t (1 : Fin 2) * 64 + 1 * q.val = q.val; omega

/-- A column index of the table with the value of `q` picks what `q` picks, in a square weight's columns … -/
theorem col_w (k q : Fin 64) (e : S200000x64.Idx) (he : (e 1).val = q.val) :
    ix2 (n0 := 64) (n1 := 64) k q = ix2 (n0 := 64) (n1 := 64) k (e 1) := by
  funext a; apply Fin.ext
  match a with
  | ⟨0, _⟩ => rfl
  | ⟨1, _⟩ => exact he.symm
/-- … and in a bias. -/
theorem col_b (q : Fin 64) (e : S200000x64.Idx) (he : (e 1).val = q.val) : ix1 (n := 64) q = ix1 (n := 64) (e 1) := by
  funext a; apply Fin.ext
  match a with
  | ⟨0, _⟩ => exact he.symm

/-- What point `t` writes back to the encoded table is block `t` of the encoder of the whole feature table. -/
theorem flushed7_eq (c : Dev nD) (t : Fin cfg1.N) :
    (dat1 (F := Ideal) V c).flushed 7 t = ((cfg1.win 7).blk t).view.read (Elt Ideal)
      (Cert.Spec.encode (n := 200000) (f := 7) (d := 64) (o := 64) (V c main_arg0) (V c main_v0) (V c main_arg5) (V c main_v1) (V c main_arg7)) := by
  show (cfg1.win 7).cut (grid1.coords t) ((dat1 (F := Ideal) V c).after 7 t) = _
  rw [after1_7]
  unfold out1_7
  rw [View.canon_unit_zero zeros2]
  simp only [View.ld_unit_zero (S := S10000x7) zeros2, View.ld_unit_zero (S := S7x64) zeros2, View.ld_unit_zero (S := S64) zeros1,
    View.ld_unit_zero (S := S64x64) zeros2]
  funext (j : S10000x64.Idx)
  obtain ⟨p, q, rfl⟩ : ∃ (p : Fin 10000) (q : Fin 64), j = ix2 p q := ⟨j 0, j 1, eq_ix2 j⟩
  obtain ⟨hr, hc⟩ := enc_at t p q
  exact enc_eq_encode (V c main_arg0) (V c main_v0) (V c main_arg5) (V c main_v1) (V c main_arg7)
    (iblk1 V c 0 t) (iblk1 V c 1 t) (iblk1 V c 2 t) (iblk1 V c 3 t) (iblk1 V c 4 t) p q (((cfg1.win 7).blk t).view.emb (ix2 p q))
    (fun l => congrArg (V c main_arg0) (feat_at t p l _ hr)) (fun l k => congrArg (V c main_v0) (w1_at t l k))
    (fun k => congrArg (V c main_arg5) (b1_at t k))
    (fun k => congrArg (V c main_v1) ((w2_at t k q).trans (col_w k q _ hc)))
    (congrArg (V c main_arg7) ((b2_at t q).trans (col_b q _ hc)))

/-- What point `t` writes back to the message table is block `t` of the message layer applied to that encoder. -/
theorem flushed8_eq (c : Dev nD) (t : Fin cfg1.N) :
    (dat1 (F := Ideal) V c).flushed 8 t = ((cfg1.win 8).blk t).view.read (Elt Ideal)
      (Cert.Spec.affine (n := 200000) (a := 64) (o := 64)
        (Cert.Spec.encode (n := 200000) (f := 7) (d := 64) (o := 64) (V c main_arg0) (V c main_v0) (V c main_arg5) (V c main_v1) (V c main_arg7))
        (V c main_v9) (V c main_v11)) := by
  show (cfg1.win 8).cut (grid1.coords t) ((dat1 (F := Ideal) V c).after 8 t) = _
  rw [after1_8]
  unfold out1_8
  rw [View.canon_unit_zero zeros2]
  simp only [View.ld_unit_zero (S := S10000x7) zeros2, View.ld_unit_zero (S := S7x64) zeros2, View.ld_unit_zero (S := S64) zeros1,
    View.ld_unit_zero (S := S64x64) zeros2]
  funext (j : S10000x64.Idx)
  obtain ⟨p, q, rfl⟩ : ∃ (p : Fin 10000) (q : Fin 64), j = ix2 p q := ⟨j 0, j 1, eq_ix2 j⟩
  obtain ⟨hr, hc⟩ := msg_at t p q
  exact msg_eq_affine (V c main_arg0) (V c main_v0) (V c main_arg5) (V c main_v1) (V c main_arg7) (V c main_v9) (V c main_v11)
    (iblk1 V c 0 t) (iblk1 V c 1 t) (iblk1 V c 2 t) (iblk1 V c 3 t) (iblk1 V c 4 t) (iblk1 V c 5 t) (iblk1 V c 6 t)
    p q (((cfg1.win 8).blk t).view.emb (ix2 p q))
    (fun l => congrArg (V c main_arg0) (feat_at t p l _ hr)) (fun l k => congrArg (V c main_v0) (w1_at t l k))
    (fun k => congrArg (V c main_arg5) (b1_at t k))
    (fun k k' => congrArg (V c main_v1) (w2_at t k k'))
    (fun k => congrArg (V c main_arg7) (b2_at t k))
    (fun k => congrArg (V c main_v9) ((w3_at t k q).trans (col_w k q _ hc)))
    (congrArg (V c main_v11) ((b3_at t q).trans (col_b q _ hc)))

/-- An entry of the encoded table lies in point `t`'s block iff each coordinate lies in the block's range on its axis. -/
theorem mem_blk7 (t : Fin cfg1.N) (i : S200000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v12_0).slice (win1_7.rect t)).set ↔ _
  rw [View.set_slice_whole, Rect.mem_set_unit]
  exact Iff.rfl
/-- The same for the message table. -/
theorem mem_blk8 (t : Fin cfg1.N) (i : S200000x64.Idx) :
    i ∈ ((cfg1.win 8).blk t).view.set ↔ ∀ a : Fin 2, win1_8.index t a * S10000x64.size a ≤ (i a).val ∧ (i a).val < win1_8.index t a * S10000x64.size a + S10000x64.size a := by
  show i ∈ ((View.whole main_v12_1).slice (win1_8.rect t)).set ↔ _
  rw [View.set_slice_whole, Rect.mem_set_unit]
  exact Iff.rfl

/-- The point whose blocks hold row `r` of a 200000-row table: `r / 10000`, one of the 20 points. -/
theorem point_lt (i : S200000x64.Idx) : (i 0).val / 10000 < cfg1.N := by
  have hi0 : (i 0).val < 200000 := idx2_lt0 i
  have hN : grid1.N = 20 := N_1
  show _ < grid1.N
  omega

/-- The encoded table's blocks tile it. -/
theorem cover7 (i : S200000x64.Idx) : ∃ t : Fin cfg1.N, (cfg1.win 7).flush t = true ∧ i ∈ ((cfg1.win 7).blk t).view.set := by
  have hi1 : (i 1).val < 64 := idx2_lt1 i
  obtain ⟨-, -, -, -, -, -, -, -, -, -, -, e70, e71, -⟩ := index_facts ⟨(i 0).val / 10000, point_lt i⟩
  have e70' : win1_7.index ⟨(i 0).val / 10000, point_lt i⟩ (0 : Fin 2) = (i 0).val / 10000 := e70
  refine ⟨⟨(i 0).val / 10000, point_lt i⟩, flush1_7 _, ?_⟩
  rw [mem_blk7]
  intro a
  match a with
  | ⟨0, _⟩ =>
    show win1_7.index ⟨(i 0).val / 10000, point_lt i⟩ (0 : Fin 2) * 10000 ≤ (i 0).val ∧ (i 0).val < win1_7.index ⟨(i 0).val / 10000, point_lt i⟩ (0 : Fin 2) * 10000 + 10000
    omega
  | ⟨1, _⟩ =>
    show win1_7.index ⟨(i 0).val / 10000, point_lt i⟩ (1 : Fin 2) * 64 ≤ (i 1).val ∧ (i 1).val < win1_7.index ⟨(i 0).val / 10000, point_lt i⟩ (1 : Fin 2) * 64 + 64
    omega

/-- The message table's blocks tile it. -/
theorem cover8 (i : S200000x64.Idx) : ∃ t : Fin cfg1.N, (cfg1.win 8).flush t = true ∧ i ∈ ((cfg1.win 8).blk t).view.set := by
  have hi1 : (i 1).val < 64 := idx2_lt1 i
  obtain ⟨-, -, -, -, -, -, -, -, -, -, -, -, -, e80, e81⟩ := index_facts ⟨(i 0).val / 10000, point_lt i⟩
  have e80' : win1_8.index ⟨(i 0).val / 10000, point_lt i⟩ (0 : Fin 2) = (i 0).val / 10000 := e80
  refine ⟨⟨(i 0).val / 10000, point_lt i⟩, flush1_8 _, ?_⟩
  rw [mem_blk8]
  intro a
  match a with
  | ⟨0, _⟩ =>
    show win1_8.index ⟨(i 0).val / 10000, point_lt i⟩ (0 : Fin 2) * 10000 ≤ (i 0).val ∧ (i 0).val < win1_8.index ⟨(i 0).val / 10000, point_lt i⟩ (0 : Fin 2) * 10000 + 10000
    omega
  | ⟨1, _⟩ =>
    show win1_8.index ⟨(i 0).val / 10000, point_lt i⟩ (1 : Fin 2) * 64 ≤ (i 1).val ∧ (i 1).val < win1_8.index ⟨(i 0).val / 10000, point_lt i⟩ (1 : Fin 2) * 64 + 64
    omega

/-- Region 1 (the variable encoder with the first message layer): the encoded table … -/
theorem final7 (c : Dev nD) :
    (dat1 (F := Ideal) V c).arrAt 7 cfg1.N
      = Cert.Spec.encode (n := 200000) (f := 7) (d := 64) (o := 64) (V c main_arg0) (V c main_v0) (V c main_arg5) (V c main_v1) (V c main_arg7) :=
  (dat1 (F := Ideal) V c).arrAt_eq_of_cover 7 _ (fun t _ => flushed7_eq V c t) cover7
/-- … and the message layer applied to it. -/
theorem final8 (c : Dev nD) :
    (dat1 (F := Ideal) V c).arrAt 8 cfg1.N
      = Cert.Spec.affine (n := 200000) (a := 64) (o := 64)
          (Cert.Spec.encode (n := 200000) (f := 7) (d := 64) (o := 64) (V c main_arg0) (V c main_v0) (V c main_arg5) (V c main_v1) (V c main_arg7))
          (V c main_v9) (V c main_v11) :=
  (dat1 (F := Ideal) V c).arrAt_eq_of_cover 8 _ (fun t _ => flushed8_eq V c t) cover8

end Cert.KernelIdeal.Region1

end
-- ==== Proof.Region2.lean ====
/-
  Region 2: the first update of the constraint table. Every grid point adds a block of 5000 rows of aggregated
  messages to the same rows of the table, applies tanh, and applies the next message layer to the result.
-/
import proofs.«429049_j82403242541640_4_alg».proof.Proof.Gen.KernelIdeal.Frame
import proofs.«429049_j82403242541640_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's two values, entry by entry -/

/-- The update of a block: tanh of the sum, entry by entry. -/
theorem update_block_apply (x0 x1 : Vec Ideal S5000x64 .f32) (p : Fin 5000) (q : Fin 64) :
    k2_pay1 x0 x1 (ix2 p q) = Ideal.tanh (x0 (ix2 p q) + x1 (ix2 p q)) := by
  unfold k2_pay1
  rw [shapeCast_self, shapeCast_self]
  rfl

/-- The product's left operand is read at the output's row … -/
theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contraction index on its columns; -/
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contraction index on its rows … -/
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times the 64 by 64 weight, into the zero accumulator: entry (p, q) is the sum over k of
    a(p, k) · b(k, q). -/
theorem matmul_block_apply (a : FVec Ideal S5000x64 .f32) (b : FVec Ideal S64x64 .f32) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-- The bias row laid under every row of the block: entry (p, q) is b(q). -/
theorem bias_rows_apply (b : FVec Ideal S64 .f32) (p : Fin 5000) (q : Fin 64) :
    broadcastTo S5000x64 (shapeCast S1x64 (shapeCast S64 b shapeCasts_S64_S64) shapeCasts_S64_S1x64) broadcasts_S1x64_S5000x64 (ix2 p q) = b (ix1 q) := by
  refine (broadcastTo_1b_ab_apply _ broadcasts_S1x64_S5000x64 p q).trans ?_
  refine (shapeCast_a_1a_apply _ shapeCasts_S64_S1x64 (0 : Fin 1) q).trans ?_
  rw [shapeCast_self]

/-- The next message layer on the updated block: entry (p, q) is the sum over k of h(p, k) · wt(k, q), plus b(q). -/
theorem message_block_apply (x0 x1 : Vec Ideal S5000x64 .f32) (w : Vec Ideal S64x64 .f32) (b : Vec Ideal S64 .f32) (p : Fin 5000) (q : Fin 64) :
    k2_pay2 x0 x1 w b (ix2 p q) = (∑ k : Fin 64, k2_pay1 x0 x1 (ix2 p k) * w (ix2 k q)) + b (ix1 q) := by
  unfold k2_pay2
  refine (addf_apply _ _ _).trans ?_
  rw [bias_rows_apply, matmul_block_apply, shapeCast_self]

/-! ## A block against the whole table -/

/-- The block update, read against two whole tables: if row p of each block is row r(p) of its table, the updated
    block's row p is row r(p) of the updated table. -/
theorem update_block_rows (A B : Cert.Spec.Mat 100000 64) (x0 x1 : Vec Ideal S5000x64 .f32) (r : Fin 5000 → Fin 100000)
    (h0 : ∀ p q, x0 (ix2 p q) = A (ix2 (r p) q)) (h1 : ∀ p q, x1 (ix2 p q) = B (ix2 (r p) q)) (p : Fin 5000) (q : Fin 64) :
    k2_pay1 x0 x1 (ix2 p q) = Cert.Spec.update A B (ix2 (r p) q) := by
  rw [update_block_apply, h0, h1]
  rfl

/-- The same for the message layer of the updated block: the layer acts on each row by itself, so row p of the result
    is row r(p) of the layer's image of the updated table. -/
theorem message_block_rows (A B : Cert.Spec.Mat 100000 64) (W : Cert.Spec.Mat 64 64) (bias : Cert.Spec.Row 64)
    (x0 x1 : Vec Ideal S5000x64 .f32) (w : Vec Ideal S64x64 .f32) (b : Vec Ideal S64 .f32) (r : Fin 5000 → Fin 100000)
    (h0 : ∀ p q, x0 (ix2 p q) = A (ix2 (r p) q)) (h1 : ∀ p q, x1 (ix2 p q) = B (ix2 (r p) q))
    (h2 : ∀ k q, w (ix2 k q) = W (ix2 k q)) (h3 : ∀ q, b (ix1 q) = bias (ix1 q)) (p : Fin 5000) (q : Fin 64) :
    k2_pay2 x0 x1 w b (ix2 p q) = Cert.Spec.affine (Cert.Spec.update A B) W bias (ix2 (r p) q) := by
  rw [message_block_apply, h3]
  show _ = (∑ k : Fin 64, Cert.Spec.update A B (ix2 (r p) k) * W (ix2 k q)) + bias (ix1 q)
  congr 1
  refine Finset.sum_congr rfl fun k _ => ?_
  rw [update_block_rows A B x0 x1 r h0 h1, h2]

/-! ## Where a point's blocks lie -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The launch's index maps over its 20 points: the four row-blocked windows are at block t on the rows and block 0 on
    the columns; the weight and the bias are whole. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The table row that row p of point t's block is: 5000 t + p. -/
def row (t : Fin cfg2.N) (p : Fin 5000) : Fin 100000 :=
  ⟨t.val * 5000 + p.val, by have hN : cfg2.N = 20 := N_2; have := t.isLt; have := p.isLt; omega⟩

/-- Entry (p, q) of point t's block of the table sits at (5000 t + p, q): a block's coordinate is its index times its
    size plus the coordinate inside it. -/
theorem dst_block_at (t : Fin cfg2.N) (p : Fin 5000) (q : Fin 64) :
    (((cfg2.win 0).blk t).view.emb (ix2 p q) : S100000x64.Idx) = ix2 (row t p) q := by
  obtain ⟨e00, e01, -⟩ := block_indices t
  funext a; apply Fin.ext
  match a with
  | ⟨0, _⟩ => show win2_0.index t (0 : Fin 2) * 5000 + 1 * p.val = t.val * 5000 + p.val; omega
  | ⟨1, _⟩ => show win2_0.index t (1 : Fin 2) * 64 + 1 * q.val = q.val; omega
/-- The same for the aggregated messages' block. -/
theorem agg_block_at (t : Fin cfg2.N) (p : Fin 5000) (q : Fin 64) :
    (((cfg2.win 1).blk t).view.emb (ix2 p q) : S100000x64.Idx) = ix2 (row t p) q := by
  obtain ⟨-, -, e10, e11, -⟩ := block_indices t
  funext a; apply Fin.ext
  match a with
  | ⟨0, _⟩ => show win2_1.index t (0 : Fin 2) * 5000 + 1 * p.val = t.val * 5000 + p.val; omega
  | ⟨1, _⟩ => show win2_1.index t (1 : Fin 2) * 64 + 1 * q.val = q.val; omega
/-- The weight's one block is the weight. -/
theorem weight_block_at (t : Fin cfg2.N) (k : Fin 64) (q : Fin 64) :
    (((cfg2.win 2).blk t).view.emb (ix2 k q) : S64x64.Idx) = ix2 k q := by
  obtain ⟨-, -, -, -, e20, e21, -⟩ := block_indices t
  funext a; apply Fin.ext
  match a with
  | ⟨0, _⟩ => show win2_2.index t (0 : Fin 2) * 64 + 1 * k.val = k.val; omega
  | ⟨1, _⟩ => show win2_2.index t (1 : Fin 2) * 64 + 1 * q.val = q.val; omega
/-- The bias's one block is the bias. -/
theorem bias_block_at (t : Fin cfg2.N) (q : Fin 64) :
    (((cfg2.win 3).blk t).view.emb (ix1 q) : S64.Idx) = ix1 q := by
  obtain ⟨-, -, -, -, -, -, e30, -⟩ := block_indices t
  funext a; apply Fin.ext
  match a with
  | ⟨0, _⟩ => show win2_3.index t (0 : Fin 1) * 64 + 1 * q.val = q.val; omega
/-- The updated table's block of point t lies on the same rows as the inputs' … -/
theorem update_block_at (t : Fin cfg2.N) (p : Fin 5000) (q : Fin 64) :
    (((cfg2.win 4).blk t).view.emb (ix2 p q) : S100000x64.Idx) = ix2 (row t p) q := by
  obtain ⟨-, -, -, -, -, -, -, e40, e41, -⟩ := block_indices t
  funext a; apply Fin.ext
  match a with
  | ⟨0, _⟩ => show win2_4.index t (0 : Fin 2) * 5000 + 1 * p.val = t.val * 5000 + p.val; omega
  | ⟨1, _⟩ => show win2_4.index t (1 : Fin 2) * 64 + 1 * q.val = q.val; omega
/-- … and so does the message table's. -/
theorem message_block_at (t : Fin cfg2.N) (p : Fin 5000) (q : Fin 64) :
    (((cfg2.win 5).blk t).view.emb (ix2 p q) : S100000x64.Idx) = ix2 (row t p) q := by
  obtain ⟨-, -, -, -, -, -, -, -, -, e50, e51⟩ := block_indices t
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

/-- What the four input blocks of point t hold, against the whole arrays. -/
theorem dst_block_apply (c : Dev nD) (t : Fin cfg2.N) (p : Fin 5000) (q : Fin 64) :
    (iblk2 V c 0 t : Vec Ideal S5000x64 .f32) (ix2 p q) = V c main_v7 (ix2 (row t p) q) :=
  congrArg (V c main_v7) (dst_block_at t p q)
theorem agg_block_apply (c : Dev nD) (t : Fin cfg2.N) (p : Fin 5000) (q : Fin 64) :
    (iblk2 V c 1 t : Vec Ideal S5000x64 .f32) (ix2 p q) = V c main_v16 (ix2 (row t p) q) :=
  congrArg (V c main_v16) (agg_block_at t p q)
theorem weight_block_apply (c : Dev nD) (t : Fin cfg2.N) (k : Fin 64) (q : Fin 64) :
    (iblk2 V c 2 t : Vec Ideal S64x64 .f32) (ix2 k q) = V c main_v18 (ix2 k q) :=
  congrArg (V c main_v18) (weight_block_at t k q)
theorem bias_block_apply (c : Dev nD) (t : Fin cfg2.N) (q : Fin 64) :
    (iblk2 V c 3 t : Vec Ideal S64 .f32) (ix1 q) = V c main_v20 (ix1 q) :=
  congrArg (V c main_v20) (bias_block_at t q)

/-! ## What a point writes back -/

/-- Point t writes back, to the updated table, block t of the update of the two whole tables. -/
theorem flushed_update (c : Dev nD) (t : Fin cfg2.N) :
    (dat2 V c).flushed 4 t = ((cfg2.win 4).blk t).view.read (Elt Ideal)
      (Cert.Spec.update (n := 100000) (a := 64) (V c main_v7) (V c main_v16)) := by
  show (cfg2.win 4).cut (grid2.coords t) ((dat2 V c).after 4 t) = _
  rw [after2_4]
  unfold out2_4
  rw [View.canon_unit_zero zero_offsets2]
  simp only [View.ld_unit_zero (S := S5000x64) zero_offsets2]
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = Cert.Spec.update (n := 100000) (a := 64) (V c main_v7) (V c main_v16) (((cfg2.win 4).blk t).view.emb (ix2 p q))
  refine (update_block_rows (V c main_v7) (V c main_v16) (iblk2 V c 0 t) (iblk2 V c 1 t) (row t)
    (dst_block_apply V c t) (agg_block_apply V c t) p q).trans ?_
  exact congrArg _ (update_block_at t p q).symm

/-- Point t writes back, to the message table, block t of the message layer's image of the updated table. -/
theorem flushed_message (c : Dev nD) (t : Fin cfg2.N) :
    (dat2 V c).flushed 5 t = ((cfg2.win 5).blk t).view.read (Elt Ideal)
      (Cert.Spec.affine (n := 100000) (a := 64) (o := 64)
        (Cert.Spec.update (n := 100000) (a := 64) (V c main_v7) (V c main_v16)) (V c main_v18) (V c main_v20)) := by
  show (cfg2.win 5).cut (grid2.coords t) ((dat2 V c).after 5 t) = _
  rw [after2_5]
  unfold out2_5
  rw [View.canon_unit_zero zero_offsets2]
  simp only [View.ld_unit_zero (S := S5000x64) zero_offsets2, View.ld_unit_zero (S := S64x64) zero_offsets2,
    View.ld_unit_zero (S := S64) zero_offsets1]
  funext j
  obtain ⟨p, q, rfl⟩ : ∃ (p : Fin 5000) (q : Fin 64), j = ix2 p q := ⟨j 0, j 1, eq_ix2 j⟩
  show k2_pay2 (iblk2 V c 0 t) (iblk2 V c 1 t) (iblk2 V c 2 t) (iblk2 V c 3 t) (ix2 p q)
    = Cert.Spec.affine (n := 100000) (a := 64) (o := 64)
        (Cert.Spec.update (n := 100000) (a := 64) (V c main_v7) (V c main_v16)) (V c main_v18) (V c main_v20)
        (((cfg2.win 5).blk t).view.emb (ix2 p q))
  refine (message_block_rows (V c main_v7) (V c main_v16) (V c main_v18) (V c main_v20)
    (iblk2 V c 0 t) (iblk2 V c 1 t) (iblk2 V c 2 t) (iblk2 V c 3 t) (row t)
    (dst_block_apply V c t) (agg_block_apply V c t) (weight_block_apply V c t) (bias_block_apply V c t) p q).trans ?_
  exact congrArg _ (message_block_at t p q).symm

/-! ## The blocks fill the table -/

/-- An index of the table is in point t's block iff each coordinate is in the block's range on its axis. -/
theorem mem_update_block (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v21_0).slice (win2_4.rect t)).set ↔ _
  rw [View.set_slice_whole, Rect.mem_set_unit]
  exact Iff.rfl
theorem mem_message_block (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v21_1).slice (win2_5.rect t)).set ↔ _
  rw [View.set_slice_whole, Rect.mem_set_unit]
  exact Iff.rfl

/-- The point whose block holds table row r: r / 5000. -/
def pointOf (r : Fin 100000) : Fin cfg2.N :=
  ⟨r.val / 5000, by have hN : cfg2.N = 20 := N_2; have := r.isLt; omega⟩

theorem pointOf_val (r : Fin 100000) : (pointOf r).val = r.val / 5000 := rfl

/-- Every index of the updated table is in the block of the point its row names. -/
theorem cover_update (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  refine ⟨pointOf (i 0), flush2_4 _, ?_⟩
  obtain ⟨-, -, -, -, -, -, -, e40, e41, -⟩ := block_indices (pointOf (i 0))
  have hv := pointOf_val (i 0)
  rw [mem_update_block]
  intro a
  match a with
  | ⟨0, _⟩ => show win2_4.index (pointOf (i 0)) (0 : Fin 2) * 5000 ≤ (i 0).val ∧ (i 0).val < win2_4.index (pointOf (i 0)) (0 : Fin 2) * 5000 + 5000; omega
  | ⟨1, _⟩ => show win2_4.index (pointOf (i 0)) (1 : Fin 2) * 64 ≤ (i 1).val ∧ (i 1).val < win2_4.index (pointOf (i 0)) (1 : Fin 2) * 64 + 64; omega

/-- And the same for the message table. -/
theorem cover_message (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  refine ⟨pointOf (i 0), flush2_5 _, ?_⟩
  obtain ⟨-, -, -, -, -, -, -, -, -, e50, e51⟩ := block_indices (pointOf (i 0))
  have hv := pointOf_val (i 0)
  rw [mem_message_block]
  intro a
  match a with
  | ⟨0, _⟩ => show win2_5.index (pointOf (i 0)) (0 : Fin 2) * 5000 ≤ (i 0).val ∧ (i 0).val < win2_5.index (pointOf (i 0)) (0 : Fin 2) * 5000 + 5000; omega
  | ⟨1, _⟩ => show win2_5.index (pointOf (i 0)) (1 : Fin 2) * 64 ≤ (i 1).val ∧ (i 1).val < win2_5.index (pointOf (i 0)) (1 : Fin 2) * 64 + 64; omega

/-! ## The two tables after the launch -/

theorem final4 (c : Dev nD) :
    (dat2 (F := Ideal) V c).arrAt 4 cfg2.N = Cert.Spec.update (n := 100000) (a := 64) (V c main_v7) (V c main_v16) :=
  (dat2 V c).arrAt_eq_of_cover 4 _ (fun t _ => flushed_update V c t) cover_update
theorem final5 (c : Dev nD) :
    (dat2 (F := Ideal) V c).arrAt 5 cfg2.N
      = Cert.Spec.affine (n := 100000) (a := 64) (o := 64) (Cert.Spec.update (n := 100000) (a := 64) (V c main_v7) (V c main_v16)) (V c main_v18) (V c main_v20) :=
  (dat2 V c).arrAt_eq_of_cover 5 _ (fun t _ => flushed_message V c t) cover_message

end Cert.KernelIdeal.Region2

end
-- ==== Proof.Region3.lean ====
/-
  Region 3: the first update of the variable table, block by block of 5000 rows, with the next message layer.
-/
import proofs.«429049_j82403242541640_4_alg».proof.Proof.Gen.KernelIdeal.Frame
import proofs.«429049_j82403242541640_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region3

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's two values, entry by entry -/

/-- The update of a block: tanh of the sum, entry by entry. -/
theorem update_block_apply (x0 x1 : Vec Ideal S5000x64 .f32) (p : Fin 5000) (q : Fin 64) :
    k3_pay1 x0 x1 (ix2 p q) = Ideal.tanh (x0 (ix2 p q) + x1 (ix2 p q)) := by
  unfold k3_pay1
  rw [shapeCast_self, shapeCast_self]
  rfl

/-- The product's left operand is read at the output's row … -/
theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contraction index on its columns; -/
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contraction index on its rows … -/
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times the 64 by 64 weight, into the zero accumulator: entry (p, q) is the sum over k of
    a(p, k) · b(k, q). -/
theorem matmul_block_apply (a : FVec Ideal S5000x64 .f32) (b : FVec Ideal S64x64 .f32) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-- The bias row laid under every row of the block: entry (p, q) is b(q). -/
theorem bias_rows_apply (b : FVec Ideal S64 .f32) (p : Fin 5000) (q : Fin 64) :
    broadcastTo S5000x64 (shapeCast S1x64 (shapeCast S64 b shapeCasts_S64_S64) shapeCasts_S64_S1x64) broadcasts_S1x64_S5000x64 (ix2 p q) = b (ix1 q) := by
  refine (broadcastTo_1b_ab_apply _ broadcasts_S1x64_S5000x64 p q).trans ?_
  refine (shapeCast_a_1a_apply _ shapeCasts_S64_S1x64 (0 : Fin 1) q).trans ?_
  rw [shapeCast_self]

/-- The next message layer on the updated block: entry (p, q) is the sum over k of h(p, k) · wt(k, q), plus b(q). -/
theorem message_block_apply (x0 x1 : Vec Ideal S5000x64 .f32) (w : Vec Ideal S64x64 .f32) (b : Vec Ideal S64 .f32) (p : Fin 5000) (q : Fin 64) :
    k3_pay2 x0 x1 w b (ix2 p q) = (∑ k : Fin 64, k3_pay1 x0 x1 (ix2 p k) * w (ix2 k q)) + b (ix1 q) := by
  unfold k3_pay2
  refine (addf_apply _ _ _).trans ?_
  rw [bias_rows_apply, matmul_block_apply, shapeCast_self]

/-! ## A block against the whole table -/

/-- The block update, read against two whole tables: if row p of each block is row r(p) of its table, the updated
    block's row p is row r(p) of the updated table. -/
theorem update_block_rows (A B : Cert.Spec.Mat 200000 64) (x0 x1 : Vec Ideal S5000x64 .f32) (r : Fin 5000 → Fin 200000)
    (h0 : ∀ p q, x0 (ix2 p q) = A (ix2 (r p) q)) (h1 : ∀ p q, x1 (ix2 p q) = B (ix2 (r p) q)) (p : Fin 5000) (q : Fin 64) :
    k3_pay1 x0 x1 (ix2 p q) = Cert.Spec.update A B (ix2 (r p) q) := by
  rw [update_block_apply, h0, h1]
  rfl

/-- The same for the message layer of the updated block: the layer acts on each row by itself, so row p of the result
    is row r(p) of the layer's image of the updated table. -/
theorem message_block_rows (A B : Cert.Spec.Mat 200000 64) (W : Cert.Spec.Mat 64 64) (bias : Cert.Spec.Row 64)
    (x0 x1 : Vec Ideal S5000x64 .f32) (w : Vec Ideal S64x64 .f32) (b : Vec Ideal S64 .f32) (r : Fin 5000 → Fin 200000)
    (h0 : ∀ p q, x0 (ix2 p q) = A (ix2 (r p) q)) (h1 : ∀ p q, x1 (ix2 p q) = B (ix2 (r p) q))
    (h2 : ∀ k q, w (ix2 k q) = W (ix2 k q)) (h3 : ∀ q, b (ix1 q) = bias (ix1 q)) (p : Fin 5000) (q : Fin 64) :
    k3_pay2 x0 x1 w b (ix2 p q) = Cert.Spec.affine (Cert.Spec.update A B) W bias (ix2 (r p) q) := by
  rw [message_block_apply, h3]
  show _ = (∑ k : Fin 64, Cert.Spec.update A B (ix2 (r p) k) * W (ix2 k q)) + bias (ix1 q)
  congr 1
  refine Finset.sum_congr rfl fun k _ => ?_
  rw [update_block_rows A B x0 x1 r h0 h1, h2]

/-! ## Where a point's blocks lie -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The launch's index maps over its 40 points: the four row-blocked windows are at block t on the rows and block 0 on
    the columns; the weight and the bias are whole. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The table row that row p of point t's block is: 5000 t + p. -/
def row (t : Fin cfg3.N) (p : Fin 5000) : Fin 200000 :=
  ⟨t.val * 5000 + p.val, by have hN : cfg3.N = 40 := N_3; have := t.isLt; have := p.isLt; omega⟩

/-- Entry (p, q) of point t's block of the table sits at (5000 t + p, q): a block's coordinate is its index times its
    size plus the coordinate inside it. -/
theorem dst_block_at (t : Fin cfg3.N) (p : Fin 5000) (q : Fin 64) :
    (((cfg3.win 0).blk t).view.emb (ix2 p q) : S200000x64.Idx) = ix2 (row t p) q := by
  obtain ⟨e00, e01, -⟩ := block_indices t
  funext a; apply Fin.ext
  match a with
  | ⟨0, _⟩ => show win3_0.index t (0 : Fin 2) * 5000 + 1 * p.val = t.val * 5000 + p.val; omega
  | ⟨1, _⟩ => show win3_0.index t (1 : Fin 2) * 64 + 1 * q.val = q.val; omega
/-- The same for the aggregated messages' block. -/
theorem agg_block_at (t : Fin cfg3.N) (p : Fin 5000) (q : Fin 64) :
    (((cfg3.win 1).blk t).view.emb (ix2 p q) : S200000x64.Idx) = ix2 (row t p) q := by
  obtain ⟨-, -, e10, e11, -⟩ := block_indices t
  funext a; apply Fin.ext
  match a with
  | ⟨0, _⟩ => show win3_1.index t (0 : Fin 2) * 5000 + 1 * p.val = t.val * 5000 + p.val; omega
  | ⟨1, _⟩ => show win3_1.index t (1 : Fin 2) * 64 + 1 * q.val = q.val; omega
/-- The weight's one block is the weight. -/
theorem weight_block_at (t : Fin cfg3.N) (k : Fin 64) (q : Fin 64) :
    (((cfg3.win 2).blk t).view.emb (ix2 k q) : S64x64.Idx) = ix2 k q := by
  obtain ⟨-, -, -, -, e20, e21, -⟩ := block_indices t
  funext a; apply Fin.ext
  match a with
  | ⟨0, _⟩ => show win3_2.index t (0 : Fin 2) * 64 + 1 * k.val = k.val; omega
  | ⟨1, _⟩ => show win3_2.index t (1 : Fin 2) * 64 + 1 * q.val = q.val; omega
/-- The bias's one block is the bias. -/
theorem bias_block_at (t : Fin cfg3.N) (q : Fin 64) :
    (((cfg3.win 3).blk t).view.emb (ix1 q) : S64.Idx) = ix1 q := by
  obtain ⟨-, -, -, -, -, -, e30, -⟩ := block_indices t
  funext a; apply Fin.ext
  match a with
  | ⟨0, _⟩ => show win3_3.index t (0 : Fin 1) * 64 + 1 * q.val = q.val; omega
/-- The updated table's block of point t lies on the same rows as the inputs' … -/
theorem update_block_at (t : Fin cfg3.N) (p : Fin 5000) (q : Fin 64) :
    (((cfg3.win 4).blk t).view.emb (ix2 p q) : S200000x64.Idx) = ix2 (row t p) q := by
  obtain ⟨-, -, -, -, -, -, -, e40, e41, -⟩ := block_indices t
  funext a; apply Fin.ext
  match a with
  | ⟨0, _⟩ => show win3_4.index t (0 : Fin 2) * 5000 + 1 * p.val = t.val * 5000 + p.val; omega
  | ⟨1, _⟩ => show win3_4.index t (1 : Fin 2) * 64 + 1 * q.val = q.val; omega
/-- … and so does the message table's. -/
theorem message_block_at (t : Fin cfg3.N) (p : Fin 5000) (q : Fin 64) :
    (((cfg3.win 5).blk t).view.emb (ix2 p q) : S200000x64.Idx) = ix2 (row t p) q := by
  obtain ⟨-, -, -, -, -, -, -, -, -, e50, e51⟩ := block_indices t
  funext a; apply Fin.ext
  match a with
  | ⟨0, _⟩ => show win3_5.index t (0 : Fin 2) * 5000 + 1 * p.val = t.val * 5000 + p.val; omega
  | ⟨1, _⟩ => show win3_5.index t (1 : Fin 2) * 64 + 1 * q.val = q.val; omega

/-- What the four input blocks of point t hold, against the whole arrays. -/
theorem dst_block_apply (c : Dev nD) (t : Fin cfg3.N) (p : Fin 5000) (q : Fin 64) :
    (iblk3 V c 0 t : Vec Ideal S5000x64 .f32) (ix2 p q) = V c main_v12_0 (ix2 (row t p) q) :=
  congrArg (V c main_v12_0) (dst_block_at t p q)
theorem agg_block_apply (c : Dev nD) (t : Fin cfg3.N) (p : Fin 5000) (q : Fin 64) :
    (iblk3 V c 1 t : Vec Ideal S5000x64 .f32) (ix2 p q) = V c main_v25 (ix2 (row t p) q) :=
  congrArg (V c main_v25) (agg_block_at t p q)
theorem weight_block_apply (c : Dev nD) (t : Fin cfg3.N) (k : Fin 64) (q : Fin 64) :
    (iblk3 V c 2 t : Vec Ideal S64x64 .f32) (ix2 k q) = V c main_v27 (ix2 k q) :=
  congrArg (V c main_v27) (weight_block_at t k q)
theorem bias_block_apply (c : Dev nD) (t : Fin cfg3.N) (q : Fin 64) :
    (iblk3 V c 3 t : Vec Ideal S64 .f32) (ix1 q) = V c main_v29 (ix1 q) :=
  congrArg (V c main_v29) (bias_block_at t q)

/-! ## What a point writes back -/

/-- Point t writes back, to the updated table, block t of the update of the two whole tables. -/
theorem flushed_update (c : Dev nD) (t : Fin cfg3.N) :
    (dat3 V c).flushed 4 t = ((cfg3.win 4).blk t).view.read (Elt Ideal)
      (Cert.Spec.update (n := 200000) (a := 64) (V c main_v12_0) (V c main_v25)) := by
  show (cfg3.win 4).cut (grid3.coords t) ((dat3 V c).after 4 t) = _
  rw [after3_4]
  unfold out3_4
  rw [View.canon_unit_zero zero_offsets2]
  simp only [View.ld_unit_zero (S := S5000x64) zero_offsets2]
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
    = Cert.Spec.update (n := 200000) (a := 64) (V c main_v12_0) (V c main_v25) (((cfg3.win 4).blk t).view.emb (ix2 p q))
  refine (update_block_rows (V c main_v12_0) (V c main_v25) (iblk3 V c 0 t) (iblk3 V c 1 t) (row t)
    (dst_block_apply V c t) (agg_block_apply V c t) p q).trans ?_
  exact congrArg _ (update_block_at t p q).symm

/-- Point t writes back, to the message table, block t of the message layer's image of the updated table. -/
theorem flushed_message (c : Dev nD) (t : Fin cfg3.N) :
    (dat3 V c).flushed 5 t = ((cfg3.win 5).blk t).view.read (Elt Ideal)
      (Cert.Spec.affine (n := 200000) (a := 64) (o := 64)
        (Cert.Spec.update (n := 200000) (a := 64) (V c main_v12_0) (V c main_v25)) (V c main_v27) (V c main_v29)) := by
  show (cfg3.win 5).cut (grid3.coords t) ((dat3 V c).after 5 t) = _
  rw [after3_5]
  unfold out3_5
  rw [View.canon_unit_zero zero_offsets2]
  simp only [View.ld_unit_zero (S := S5000x64) zero_offsets2, View.ld_unit_zero (S := S64x64) zero_offsets2,
    View.ld_unit_zero (S := S64) zero_offsets1]
  funext j
  obtain ⟨p, q, rfl⟩ : ∃ (p : Fin 5000) (q : Fin 64), j = ix2 p q := ⟨j 0, j 1, eq_ix2 j⟩
  show k3_pay2 (iblk3 V c 0 t) (iblk3 V c 1 t) (iblk3 V c 2 t) (iblk3 V c 3 t) (ix2 p q)
    = Cert.Spec.affine (n := 200000) (a := 64) (o := 64)
        (Cert.Spec.update (n := 200000) (a := 64) (V c main_v12_0) (V c main_v25)) (V c main_v27) (V c main_v29)
        (((cfg3.win 5).blk t).view.emb (ix2 p q))
  refine (message_block_rows (V c main_v12_0) (V c main_v25) (V c main_v27) (V c main_v29)
    (iblk3 V c 0 t) (iblk3 V c 1 t) (iblk3 V c 2 t) (iblk3 V c 3 t) (row t)
    (dst_block_apply V c t) (agg_block_apply V c t) (weight_block_apply V c t) (bias_block_apply V c t) p q).trans ?_
  exact congrArg _ (message_block_at t p q).symm

/-! ## The blocks fill the table -/

/-- An index of the table is in point t's block iff each coordinate is in the block's range on its axis. -/
theorem mem_update_block (t : Fin cfg3.N) (i : S200000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v30_0).slice (win3_4.rect t)).set ↔ _
  rw [View.set_slice_whole, Rect.mem_set_unit]
  exact Iff.rfl
theorem mem_message_block (t : Fin cfg3.N) (i : S200000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v30_1).slice (win3_5.rect t)).set ↔ _
  rw [View.set_slice_whole, Rect.mem_set_unit]
  exact Iff.rfl

/-- The point whose block holds table row r: r / 5000. -/
def pointOf (r : Fin 200000) : Fin cfg3.N :=
  ⟨r.val / 5000, by have hN : cfg3.N = 40 := N_3; have := r.isLt; omega⟩

theorem pointOf_val (r : Fin 200000) : (pointOf r).val = r.val / 5000 := rfl

/-- Every index of the updated table is in the block of the point its row names. -/
theorem cover_update (i : S200000x64.Idx) :
    ∃ t : Fin cfg3.N, (cfg3.win 4).flush t = true ∧ i ∈ ((cfg3.win 4).blk t).view.set := by
  have hi0 : (i 0).val < 200000 := (i 0).isLt
  have hi1 : (i 1).val < 64 := (i 1).isLt
  refine ⟨pointOf (i 0), flush3_4 _, ?_⟩
  obtain ⟨-, -, -, -, -, -, -, e40, e41, -⟩ := block_indices (pointOf (i 0))
  have hv := pointOf_val (i 0)
  rw [mem_update_block]
  intro a
  match a with
  | ⟨0, _⟩ => show win3_4.index (pointOf (i 0)) (0 : Fin 2) * 5000 ≤ (i 0).val ∧ (i 0).val < win3_4.index (pointOf (i 0)) (0 : Fin 2) * 5000 + 5000; omega
  | ⟨1, _⟩ => show win3_4.index (pointOf (i 0)) (1 : Fin 2) * 64 ≤ (i 1).val ∧ (i 1).val < win3_4.index (pointOf (i 0)) (1 : Fin 2) * 64 + 64; omega

/-- And the same for the message table. -/
theorem cover_message (i : S200000x64.Idx) :
    ∃ t : Fin cfg3.N, (cfg3.win 5).flush t = true ∧ i ∈ ((cfg3.win 5).blk t).view.set := by
  have hi0 : (i 0).val < 200000 := (i 0).isLt
  have hi1 : (i 1).val < 64 := (i 1).isLt
  refine ⟨pointOf (i 0), flush3_5 _, ?_⟩
  obtain ⟨-, -, -, -, -, -, -, -, -, e50, e51⟩ := block_indices (pointOf (i 0))
  have hv := pointOf_val (i 0)
  rw [mem_message_block]
  intro a
  match a with
  | ⟨0, _⟩ => show win3_5.index (pointOf (i 0)) (0 : Fin 2) * 5000 ≤ (i 0).val ∧ (i 0).val < win3_5.index (pointOf (i 0)) (0 : Fin 2) * 5000 + 5000; omega
  | ⟨1, _⟩ => show win3_5.index (pointOf (i 0)) (1 : Fin 2) * 64 ≤ (i 1).val ∧ (i 1).val < win3_5.index (pointOf (i 0)) (1 : Fin 2) * 64 + 64; omega

/-! ## The two tables after the launch -/

theorem final4 (c : Dev nD) :
    (dat3 (F := Ideal) V c).arrAt 4 cfg3.N = Cert.Spec.update (n := 200000) (a := 64) (V c main_v12_0) (V c main_v25) :=
  (dat3 V c).arrAt_eq_of_cover 4 _ (fun t _ => flushed_update V c t) cover_update
theorem final5 (c : Dev nD) :
    (dat3 (F := Ideal) V c).arrAt 5 cfg3.N
      = Cert.Spec.affine (n := 200000) (a := 64) (o := 64) (Cert.Spec.update (n := 200000) (a := 64) (V c main_v12_0) (V c main_v25)) (V c main_v27) (V c main_v29) :=
  (dat3 V c).arrAt_eq_of_cover 5 _ (fun t _ => flushed_message V c t) cover_message

end Cert.KernelIdeal.Region3

end
-- ==== Proof.Region4.lean ====
/-
  Region 4: the second update of the constraint table, block by block of 5000 rows, with the next message layer.
-/
import proofs.«429049_j82403242541640_4_alg».proof.Proof.Gen.KernelIdeal.Frame
import proofs.«429049_j82403242541640_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region4

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's two values, entry by entry -/

/-- The update of a block: tanh of the sum, entry by entry. -/
theorem update_block_apply (x0 x1 : Vec Ideal S5000x64 .f32) (p : Fin 5000) (q : Fin 64) :
    k4_pay1 x0 x1 (ix2 p q) = Ideal.tanh (x0 (ix2 p q) + x1 (ix2 p q)) := by
  unfold k4_pay1
  rw [shapeCast_self, shapeCast_self]
  rfl

/-- The product's left operand is read at the output's row … -/
theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contraction index on its columns; -/
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contraction index on its rows … -/
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of 5000 rows times the 64 by 64 weight, into the zero accumulator: entry (p, q) is the sum over k of
    a(p, k) · b(k, q). -/
theorem matmul_block_apply (a : FVec Ideal S5000x64 .f32) (b : FVec Ideal S64x64 .f32) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-- The bias row laid under every row of the block: entry (p, q) is b(q). -/
theorem bias_rows_apply (b : FVec Ideal S64 .f32) (p : Fin 5000) (q : Fin 64) :
    broadcastTo S5000x64 (shapeCast S1x64 (shapeCast S64 b shapeCasts_S64_S64) shapeCasts_S64_S1x64) broadcasts_S1x64_S5000x64 (ix2 p q) = b (ix1 q) := by
  refine (broadcastTo_1b_ab_apply _ broadcasts_S1x64_S5000x64 p q).trans ?_
  refine (shapeCast_a_1a_apply _ shapeCasts_S64_S1x64 (0 : Fin 1) q).trans ?_
  rw [shapeCast_self]

/-- The next message layer on the updated block: entry (p, q) is the sum over k of h(p, k) · wt(k, q), plus b(q). -/
theorem message_block_apply (x0 x1 : Vec Ideal S5000x64 .f32) (w : Vec Ideal S64x64 .f32) (b : Vec Ideal S64 .f32) (p : Fin 5000) (q : Fin 64) :
    k4_pay2 x0 x1 w b (ix2 p q) = (∑ k : Fin 64, k4_pay1 x0 x1 (ix2 p k) * w (ix2 k q)) + b (ix1 q) := by
  unfold k4_pay2
  refine (addf_apply _ _ _).trans ?_
  rw [bias_rows_apply, matmul_block_apply, shapeCast_self]

/-! ## A block against the whole table -/

/-- The block update, read against two whole tables: if row p of each block is row r(p) of its table, the updated
    block's row p is row r(p) of the updated table. -/
theorem update_block_rows (A B : Cert.Spec.Mat 100000 64) (x0 x1 : Vec Ideal S5000x64 .f32) (r : Fin 5000 → Fin 100000)
    (h0 : ∀ p q, x0 (ix2 p q) = A (ix2 (r p) q)) (h1 : ∀ p q, x1 (ix2 p q) = B (ix2 (r p) q)) (p : Fin 5000) (q : Fin 64) :
    k4_pay1 x0 x1 (ix2 p q) = Cert.Spec.update A B (ix2 (r p) q) := by
  rw [update_block_apply, h0, h1]
  rfl

/-- The same for the message layer of the updated block: the layer acts on each row by itself, so row p of the result
    is row r(p) of the layer's image of the updated table. -/
theorem message_block_rows (A B : Cert.Spec.Mat 100000 64) (W : Cert.Spec.Mat 64 64) (bias : Cert.Spec.Row 64)
    (x0 x1 : Vec Ideal S5000x64 .f32) (w : Vec Ideal S64x64 .f32) (b : Vec Ideal S64 .f32) (r : Fin 5000 → Fin 100000)
    (h0 : ∀ p q, x0 (ix2 p q) = A (ix2 (r p) q)) (h1 : ∀ p q, x1 (ix2 p q) = B (ix2 (r p) q))
    (h2 : ∀ k q, w (ix2 k q) = W (ix2 k q)) (h3 : ∀ q, b (ix1 q) = bias (ix1 q)) (p : Fin 5000) (q : Fin 64) :
    k4_pay2 x0 x1 w b (ix2 p q) = Cert.Spec.affine (Cert.Spec.update A B) W bias (ix2 (r p) q) := by
  rw [message_block_apply, h3]
  show _ = (∑ k : Fin 64, Cert.Spec.update A B (ix2 (r p) k) * W (ix2 k q)) + bias (ix1 q)
  congr 1
  refine Finset.sum_congr rfl fun k _ => ?_
  rw [update_block_rows A B x0 x1 r h0 h1, h2]

/-! ## Where a point's blocks lie -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The launch's index maps over its 20 points: the four row-blocked windows are at block t on the rows and block 0 on
    the columns; the weight and the bias are whole. -/
theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The table row that row p of point t's block is: 5000 t + p. -/
def row (t : Fin cfg4.N) (p : Fin 5000) : Fin 100000 :=
  ⟨t.val * 5000 + p.val, by have hN : cfg4.N = 20 := N_4; have := t.isLt; have := p.isLt; omega⟩

/-- Entry (p, q) of point t's block of the table sits at (5000 t + p, q): a block's coordinate is its index times its
    size plus the coordinate inside it. -/
theorem dst_block_at (t : Fin cfg4.N) (p : Fin 5000) (q : Fin 64) :
    (((cfg4.win 0).blk t).view.emb (ix2 p q) : S100000x64.Idx) = ix2 (row t p) q := by
  obtain ⟨e00, e01, -⟩ := block_indices t
  funext a; apply Fin.ext
  match a with
  | ⟨0, _⟩ => show win4_0.index t (0 : Fin 2) * 5000 + 1 * p.val = t.val * 5000 + p.val; omega
  | ⟨1, _⟩ => show win4_0.index t (1 : Fin 2) * 64 + 1 * q.val = q.val; omega
/-- The same for the aggregated messages' block. -/
theorem agg_block_at (t : Fin cfg4.N) (p : Fin 5000) (q : Fin 64) :
    (((cfg4.win 1).blk t).view.emb (ix2 p q) : S100000x64.Idx) = ix2 (row t p) q := by
  obtain ⟨-, -, e10, e11, -⟩ := block_indices t
  funext a; apply Fin.ext
  match a with
  | ⟨0, _⟩ => show win4_1.index t (0 : Fin 2) * 5000 + 1 * p.val = t.val * 5000 + p.val; omega
  | ⟨1, _⟩ => show win4_1.index t (1 : Fin 2) * 64 + 1 * q.val = q.val; omega
/-- The weight's one block is the weight. -/
theorem weight_block_at (t : Fin cfg4.N) (k : Fin 64) (q : Fin 64) :
    (((cfg4.win 2).blk t).view.emb (ix2 k q) : S64x64.Idx) = ix2 k q := by
  obtain ⟨-, -, -, -, e20, e21, -⟩ := block_indices t
  funext a; apply Fin.ext
  match a with
  | ⟨0, _⟩ => show win4_2.index t (0 : Fin 2) * 64 + 1 * k.val = k.val; omega
  | ⟨1, _⟩ => show win4_2.index t (1 : Fin 2) * 64 + 1 * q.val = q.val; omega
/-- The bias's one block is the bias. -/
theorem bias_block_at (t : Fin cfg4.N) (q : Fin 64) :
    (((cfg4.win 3).blk t).view.emb (ix1 q) : S64.Idx) = ix1 q := by
  obtain ⟨-, -, -, -, -, -, e30, -⟩ := block_indices t
  funext a; apply Fin.ext
  match a with
  | ⟨0, _⟩ => show win4_3.index t (0 : Fin 1) * 64 + 1 * q.val = q.val; omega
/-- The updated table's block of point t lies on the same rows as the inputs' … -/
theorem update_block_at (t : Fin cfg4.N) (p : Fin 5000) (q : Fin 64) :
    (((cfg4.win 4).blk t).view.emb (ix2 p q) : S100000x64.Idx) = ix2 (row t p) q := by
  obtain ⟨-, -, -, -, -, -, -, e40, e41, -⟩ := block_indices t
  funext a; apply Fin.ext
  match a with
  | ⟨0, _⟩ => show win4_4.index t (0 : Fin 2) * 5000 + 1 * p.val = t.val * 5000 + p.val; omega
  | ⟨1, _⟩ => show win4_4.index t (1 : Fin 2) * 64 + 1 * q.val = q.val; omega
/-- … and so does the message table's. -/
theorem message_block_at (t : Fin cfg4.N) (p : Fin 5000) (q : Fin 64) :
    (((cfg4.win 5).blk t).view.emb (ix2 p q) : S100000x64.Idx) = ix2 (row t p) q := by
  obtain ⟨-, -, -, -, -, -, -, -, -, e50, e51⟩ := block_indices t
  funext a; apply Fin.ext
  match a with
  | ⟨0, _⟩ => show win4_5.index t (0 : Fin 2) * 5000 + 1 * p.val = t.val * 5000 + p.val; omega
  | ⟨1, _⟩ => show win4_5.index t (1 : Fin 2) * 64 + 1 * q.val = q.val; omega

/-- What the four input blocks of point t hold, against the whole arrays. -/
theorem dst_block_apply (c : Dev nD) (t : Fin cfg4.N) (p : Fin 5000) (q : Fin 64) :
    (iblk4 V c 0 t : Vec Ideal S5000x64 .f32) (ix2 p q) = V c main_v21_0 (ix2 (row t p) q) :=
  congrArg (V c main_v21_0) (dst_block_at t p q)
theorem agg_block_apply (c : Dev nD) (t : Fin cfg4.N) (p : Fin 5000) (q : Fin 64) :
    (iblk4 V c 1 t : Vec Ideal S5000x64 .f32) (ix2 p q) = V c main_v34 (ix2 (row t p) q) :=
  congrArg (V c main_v34) (agg_block_at t p q)
theorem weight_block_apply (c : Dev nD) (t : Fin cfg4.N) (k : Fin 64) (q : Fin 64) :
    (iblk4 V c 2 t : Vec Ideal S64x64 .f32) (ix2 k q) = V c main_v36 (ix2 k q) :=
  congrArg (V c main_v36) (weight_block_at t k q)
theorem bias_block_apply (c : Dev nD) (t : Fin cfg4.N) (q : Fin 64) :
    (iblk4 V c 3 t : Vec Ideal S64 .f32) (ix1 q) = V c main_v38 (ix1 q) :=
  congrArg (V c main_v38) (bias_block_at t q)

/-! ## What a point writes back -/

/-- Point t writes back, to the updated table, block t of the update of the two whole tables. -/
theorem flushed_update (c : Dev nD) (t : Fin cfg4.N) :
    (dat4 V c).flushed 4 t = ((cfg4.win 4).blk t).view.read (Elt Ideal)
      (Cert.Spec.update (n := 100000) (a := 64) (V c main_v21_0) (V c main_v34)) := by
  show (cfg4.win 4).cut (grid4.coords t) ((dat4 V c).after 4 t) = _
  rw [after4_4]
  unfold out4_4
  rw [View.canon_unit_zero zero_offsets2]
  simp only [View.ld_unit_zero (S := S5000x64) zero_offsets2]
  funext j
  obtain ⟨p, q, rfl⟩ : ∃ (p : Fin 5000) (q : Fin 64), j = ix2 p q := ⟨j 0, j 1, eq_ix2 j⟩
  show k4_pay1 (iblk4 V c 0 t) (iblk4 V c 1 t) (ix2 p q)
    = Cert.Spec.update (n := 100000) (a := 64) (V c main_v21_0) (V c main_v34) (((cfg4.win 4).blk t).view.emb (ix2 p q))
  refine (update_block_rows (V c main_v21_0) (V c main_v34) (iblk4 V c 0 t) (iblk4 V c 1 t) (row t)
    (dst_block_apply V c t) (agg_block_apply V c t) p q).trans ?_
  exact congrArg _ (update_block_at t p q).symm

/-- Point t writes back, to the message table, block t of the message layer's image of the updated table. -/
theorem flushed_message (c : Dev nD) (t : Fin cfg4.N) :
    (dat4 V c).flushed 5 t = ((cfg4.win 5).blk t).view.read (Elt Ideal)
      (Cert.Spec.affine (n := 100000) (a := 64) (o := 64)
        (Cert.Spec.update (n := 100000) (a := 64) (V c main_v21_0) (V c main_v34)) (V c main_v36) (V c main_v38)) := by
  show (cfg4.win 5).cut (grid4.coords t) ((dat4 V c).after 5 t) = _
  rw [after4_5]
  unfold out4_5
  rw [View.canon_unit_zero zero_offsets2]
  simp only [View.ld_unit_zero (S := S5000x64) zero_offsets2, View.ld_unit_zero (S := S64x64) zero_offsets2,
    View.ld_unit_zero (S := S64) zero_offsets1]
  funext j
  obtain ⟨p, q, rfl⟩ : ∃ (p : Fin 5000) (q : Fin 64), j = ix2 p q := ⟨j 0, j 1, eq_ix2 j⟩
  show k4_pay2 (iblk4 V c 0 t) (iblk4 V c 1 t) (iblk4 V c 2 t) (iblk4 V c 3 t) (ix2 p q)
    = Cert.Spec.affine (n := 100000) (a := 64) (o := 64)
        (Cert.Spec.update (n := 100000) (a := 64) (V c main_v21_0) (V c main_v34)) (V c main_v36) (V c main_v38)
        (((cfg4.win 5).blk t).view.emb (ix2 p q))
  refine (message_block_rows (V c main_v21_0) (V c main_v34) (V c main_v36) (V c main_v38)
    (iblk4 V c 0 t) (iblk4 V c 1 t) (iblk4 V c 2 t) (iblk4 V c 3 t) (row t)
    (dst_block_apply V c t) (agg_block_apply V c t) (weight_block_apply V c t) (bias_block_apply V c t) p q).trans ?_
  exact congrArg _ (message_block_at t p q).symm

/-! ## The blocks fill the table -/

/-- An index of the table is in point t's block iff each coordinate is in the block's range on its axis. -/
theorem mem_update_block (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v39_0).slice (win4_4.rect t)).set ↔ _
  rw [View.set_slice_whole, Rect.mem_set_unit]
  exact Iff.rfl
theorem mem_message_block (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v39_1).slice (win4_5.rect t)).set ↔ _
  rw [View.set_slice_whole, Rect.mem_set_unit]
  exact Iff.rfl

/-- The point whose block holds table row r: r / 5000. -/
def pointOf (r : Fin 100000) : Fin cfg4.N :=
  ⟨r.val / 5000, by have hN : cfg4.N = 20 := N_4; have := r.isLt; omega⟩

theorem pointOf_val (r : Fin 100000) : (pointOf r).val = r.val / 5000 := rfl

/-- Every index of the updated table is in the block of the point its row names. -/
theorem cover_update (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  refine ⟨pointOf (i 0), flush4_4 _, ?_⟩
  obtain ⟨-, -, -, -, -, -, -, e40, e41, -⟩ := block_indices (pointOf (i 0))
  have hv := pointOf_val (i 0)
  rw [mem_update_block]
  intro a
  match a with
  | ⟨0, _⟩ => show win4_4.index (pointOf (i 0)) (0 : Fin 2) * 5000 ≤ (i 0).val ∧ (i 0).val < win4_4.index (pointOf (i 0)) (0 : Fin 2) * 5000 + 5000; omega
  | ⟨1, _⟩ => show win4_4.index (pointOf (i 0)) (1 : Fin 2) * 64 ≤ (i 1).val ∧ (i 1).val < win4_4.index (pointOf (i 0)) (1 : Fin 2) * 64 + 64; omega

/-- And the same for the message table. -/
theorem cover_message (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  refine ⟨pointOf (i 0), flush4_5 _, ?_⟩
  obtain ⟨-, -, -, -, -, -, -, -, -, e50, e51⟩ := block_indices (pointOf (i 0))
  have hv := pointOf_val (i 0)
  rw [mem_message_block]
  intro a
  match a with
  | ⟨0, _⟩ => show win4_5.index (pointOf (i 0)) (0 : Fin 2) * 5000 ≤ (i 0).val ∧ (i 0).val < win4_5.index (pointOf (i 0)) (0 : Fin 2) * 5000 + 5000; omega
  | ⟨1, _⟩ => show win4_5.index (pointOf (i 0)) (1 : Fin 2) * 64 ≤ (i 1).val ∧ (i 1).val < win4_5.index (pointOf (i 0)) (1 : Fin 2) * 64 + 64; omega

/-! ## The two tables after the launch -/

theorem final4 (c : Dev nD) :
    (dat4 (F := Ideal) V c).arrAt 4 cfg4.N = Cert.Spec.update (n := 100000) (a := 64) (V c main_v21_0) (V c main_v34) :=
  (dat4 V c).arrAt_eq_of_cover 4 _ (fun t _ => flushed_update V c t) cover_update
theorem final5 (c : Dev nD) :
    (dat4 (F := Ideal) V c).arrAt 5 cfg4.N
      = Cert.Spec.affine (n := 100000) (a := 64) (o := 64) (Cert.Spec.update (n := 100000) (a := 64) (V c main_v21_0) (V c main_v34)) (V c main_v36) (V c main_v38) :=
  (dat4 V c).arrAt_eq_of_cover 5 _ (fun t _ => flushed_message V c t) cover_message

end Cert.KernelIdeal.Region4

end
-- ==== Proof.Region5.lean ====
/-
  Region 5: the last update of the variable table with the readout: each block of 5000 rows is updated and multiplied
  by the readout column, plus its bias; the result is a one-column table of scores.
-/
import proofs.«429049_j82403242541640_4_alg».proof.Proof.Gen.KernelIdeal.Frame
import proofs.«429049_j82403242541640_4_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region5

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The block product at an index -/

theorem lhs_dot_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs_dot_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhs_dot_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs_dot_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- A block of 5000 rows times the column, into the zero splat: entry `(p, q)` is `∑ₖ a(p, k) · b(k, q)`. -/
theorem matmul_block_apply (a : FVec Ideal S5000x64 .f32) (b : FVec Ideal S64x1 .f32) (p : Fin 5000) (q : Fin 1) :
    matmul dot_S5000x64_S64x1_S5000x1_1_0_0_1_n_n none a b (constant (F := Ideal) S5000x1 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p q) ((ValueIdx.contrEquiv1 dot_S5000x64_S64x1_S5000x1_1_0_0_1_n_n 64 rfl rfl).symm k) = ix2 p k := funext fun ax => Fin.ext (by
    match ax with
    | ⟨0, _⟩ => exact lhs_dot_0 _ _
    | ⟨1, _⟩ => exact (lhs_dot_1 _ _).trans hk)
  have er : dot_S5000x64_S64x1_S5000x1_1_0_0_1_n_n.rhsIdx (ix2 p q) ((ValueIdx.contrEquiv1 dot_S5000x64_S64x1_S5000x1_1_0_0_1_n_n 64 rfl rfl).symm k) = ix2 k q := funext fun ax => Fin.ext (by
    match ax with
    | ⟨0, _⟩ => exact (rhs_dot_0 _ _).trans hk
    | ⟨1, _⟩ => exact rhs_dot_1 _ _)
  rw [el, er]

/-- The bias, cast to one row of one entry and repeated down the block, is the bias at every row. -/
theorem bias_block_apply (v : Vec Ideal S1 .f32) (p : Fin 5000) (q : Fin 1) :
    broadcastTo S5000x1 (shapeCast S1x1 v shapeCasts_S1_S1x1) broadcasts_S1x1_S5000x1 (ix2 p q) = v (ix1 q) :=
  (broadcastTo_1b_ab_apply (a := 5000) (b := 1) (shapeCast S1x1 v shapeCasts_S1_S1x1) broadcasts_S1x1_S5000x1 p q).trans
    (shapeCast_a_1a_apply (a := 1) v shapeCasts_S1_S1x1 (0 : Fin 1) q)

/-- The body's payload at `(p, q)`: the updated row `p` times the column, plus the bias. -/
theorem pay_apply (x0 x1 : Vec Ideal S5000x64 .f32) (x2 : Vec Ideal S64x1 .f32) (x3 : Vec Ideal S1 .f32) (p : Fin 5000) (q : Fin 1) :
    k5_pay1 x0 x1 x2 x3 (ix2 p q)
      = (∑ k : Fin 64, Ideal.tanh (x0 (ix2 p k) + x1 (ix2 p k)) * x2 (ix2 k q)) + x3 (ix1 q) := by
  unfold k5_pay1
  rw [addf_apply]
  refine congrArg₂ (· + ·) ?_ (bias_block_apply x3 p q)
  rw [shapeCast_self, shapeCast_self, shapeCast_self]
  exact matmul_block_apply _ _ p q

/-! ## The windows' blocks, read where the output's block says -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 40 points: the two tables and the result move by blocks of rows with the
    point; the column and the bias stay at their one block. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- Row `p` of the first table's block at point `t` is row `5000 t + p` of the table. -/
theorem iblk0_apply (c : Dev nD) (t : Fin cfg5.N) (p : Fin 5000) (k : Fin 64) (r : Fin 200000)
    (hr : r.val = t.val * 5000 + p.val) :
    (iblk5 V c 0 t : Vec Ideal S5000x64 .f32) (ix2 p k) = (V c main_v30_0 : S200000x64.Idx → Elt Ideal .f32) (ix2 r k) := by
  obtain ⟨e0, e1, -⟩ := idx_facts t
  show V c main_v30_0 (((cfg5.win 0).blk t).view.emb (ix2 p k)) = V c main_v30_0 (ix2 r k)
  congr 1
  funext a
  apply Fin.ext
  match a with
  | ⟨0, _⟩ => show win5_0.index t (0 : Fin 2) * 5000 + 1 * p.val = r.val; rw [e0, hr]; omega
  | ⟨1, _⟩ => show win5_0.index t (1 : Fin 2) * 64 + 1 * k.val = k.val; rw [e1]; omega

/-- The same for the table of aggregated messages. -/
theorem iblk1_apply (c : Dev nD) (t : Fin cfg5.N) (p : Fin 5000) (k : Fin 64) (r : Fin 200000)
    (hr : r.val = t.val * 5000 + p.val) :
    (iblk5 V c 1 t : Vec Ideal S5000x64 .f32) (ix2 p k) = (V c main_v43 : S200000x64.Idx → Elt Ideal .f32) (ix2 r k) := by
  obtain ⟨-, -, e0, e1, -⟩ := idx_facts t
  show V c main_v43 (((cfg5.win 1).blk t).view.emb (ix2 p k)) = V c main_v43 (ix2 r k)
  congr 1
  funext a
  apply Fin.ext
  match a with
  | ⟨0, _⟩ => show win5_1.index t (0 : Fin 2) * 5000 + 1 * p.val = r.val; rw [e0, hr]; omega
  | ⟨1, _⟩ => show win5_1.index t (1 : Fin 2) * 64 + 1 * k.val = k.val; rw [e1]; omega

/-- The column's block is the whole column at every point. -/
theorem iblk2_apply (c : Dev nD) (t : Fin cfg5.N) (k : Fin 64) (q : Fin 1) :
    (iblk5 V c 2 t : Vec Ideal S64x1 .f32) (ix2 k q) = (V c main_v6 : S64x1.Idx → Elt Ideal .f32) (ix2 k q) := by
  obtain ⟨-, -, -, -, e0, e1, -⟩ := idx_facts t
  show V c main_v6 (((cfg5.win 2).blk t).view.emb (ix2 k q)) = V c main_v6 (ix2 k q)
  congr 1
  funext a
  apply Fin.ext
  match a with
  | ⟨0, _⟩ => show win5_2.index t (0 : Fin 2) * 64 + 1 * k.val = k.val; rw [e0]; omega
  | ⟨1, _⟩ => show win5_2.index t (1 : Fin 2) * 1 + 1 * q.val = q.val; rw [e1]; omega

/-- The bias's block is the whole bias at every point. -/
theorem iblk3_apply (c : Dev nD) (t : Fin cfg5.N) (q : Fin 1) :
    (iblk5 V c 3 t : Vec Ideal S1 .f32) (ix1 q) = (V c main_arg17 : S1.Idx → Elt Ideal .f32) (ix1 q) := by
  obtain ⟨-, -, -, -, -, -, e0, -⟩ := idx_facts t
  show V c main_arg17 (((cfg5.win 3).blk t).view.emb (ix1 q)) = V c main_arg17 (ix1 q)
  congr 1
  funext a
  apply Fin.ext
  match a with
  | ⟨0, _⟩ => show win5_3.index t (0 : Fin 1) * 1 + 1 * q.val = q.val; rw [e0]; omega

/-! ## What a point writes back, and the whole table of scores -/

/-- The payload at row `p` of blocks that hold rows of two tables, the column and the bias (`e0` … `e3`: block row `p` is
    table row `r`) is the readout of the updated row `r`. -/
theorem pay_eq_readout (x0 x1 : Vec Ideal S5000x64 .f32) (x2 : Vec Ideal S64x1 .f32) (x3 : Vec Ideal S1 .f32)
    (h agg : Cert.Spec.Mat 200000 64) (w : Cert.Spec.Mat 64 1) (b : Cert.Spec.Row 1) (p : Fin 5000) (q : Fin 1) (r : Fin 200000)
    (e0 : ∀ k : Fin 64, x0 (ix2 p k) = h (ix2 r k)) (e1 : ∀ k : Fin 64, x1 (ix2 p k) = agg (ix2 r k))
    (e2 : ∀ k : Fin 64, x2 (ix2 k q) = w (ix2 k q)) (e3 : x3 (ix1 q) = b (ix1 q)) :
    k5_pay1 x0 x1 x2 x3 (ix2 p q) = Cert.Spec.affine (Cert.Spec.update h agg) w b (ix2 r q) := by
  refine (pay_apply x0 x1 x2 x3 p q).trans ?_
  show _ = (∑ k : Fin 64, Ideal.tanh (h (ix2 r k) + agg (ix2 r k)) * w (ix2 k q)) + b (ix1 q)
  rw [e3]
  refine congrArg₂ (· + ·) (Finset.sum_congr rfl fun k _ => ?_) rfl
  rw [e0 k, e1 k, e2 k]

/-- The payload of the blocks at point `t`, at row `p` of the block, is the readout of the updated row `5000 t + p`. -/
theorem pay_block (c : Dev nD) (t : Fin cfg5.N) (j : S5000x1.Idx) (i : S200000x1.Idx)
    (h0 : (i 0).val = t.val * 5000 + (j 0).val) (h1 : (i 1).val = (j 1).val) :
    k5_pay1 (iblk5 V c 0 t) (iblk5 V c 1 t) (iblk5 V c 2 t) (iblk5 V c 3 t) j
      = Cert.Spec.affine (n := 200000) (a := 64) (o := 1) (Cert.Spec.update (n := 200000) (a := 64) (V c main_v30_0) (V c main_v43)) (V c main_v6) (V c main_arg17) i := by
  obtain ⟨p, q, rfl⟩ : ∃ (p : Fin 5000) (q : Fin 1), j = ix2 p q := ⟨j 0, j 1, eq_ix2 j⟩
  obtain ⟨r, q', rfl⟩ : ∃ (r : Fin 200000) (q' : Fin 1), i = ix2 r q' := ⟨i 0, i 1, eq_ix2 i⟩
  have hr : r.val = t.val * 5000 + p.val := h0
  obtain rfl : q = q' := Fin.ext h1.symm
  exact pay_eq_readout (iblk5 V c 0 t) (iblk5 V c 1 t) (iblk5 V c 2 t) (iblk5 V c 3 t)
    (V c main_v30_0) (V c main_v43) (V c main_v6) (V c main_arg17) p q r
    (fun k => iblk0_apply V c t p k r hr) (fun k => iblk1_apply V c t p k r hr) (fun k => iblk2_apply V c t k q) (iblk3_apply V c t q)

/-- WHAT POINT `t` WRITES BACK is block `t` of the readout of the updated table. -/
theorem flushed_eq (c : Dev nD) (t : Fin cfg5.N) :
    (dat5 (F := Ideal) V c).flushed 4 t = ((cfg5.win 4).blk t).view.read (Elt Ideal)
      (Cert.Spec.affine (n := 200000) (a := 64) (o := 1) (Cert.Spec.update (n := 200000) (a := 64) (V c main_v30_0) (V c main_v43)) (V c main_v6) (V c main_arg17)) := by
  show (cfg5.win 4).cut (grid5.coords t) ((dat5 V c).after 4 t) = _
  rw [after5_4]
  unfold out5_4
  rw [View.canon_unit_zero hz2]
  simp only [View.ld_unit_zero (S := S5000x64) hz2, View.ld_unit_zero (S := S64x1) hz2, View.ld_unit_zero (S := S1) hz1]
  obtain ⟨-, -, -, -, -, -, -, e0, e1⟩ := idx_facts t
  funext j
  refine pay_block V c t j (((cfg5.win 4).blk t).view.emb j) ?_ ?_
  · show win5_4.index t (0 : Fin 2) * 5000 + 1 * (j 0).val = t.val * 5000 + (j 0).val
    rw [e0]; omega
  · show win5_4.index t (1 : Fin 2) * 1 + 1 * (j 1).val = (j 1).val
    rw [e1]; omega

/-- An index of the table of scores is in point `t`'s block iff each coordinate is in the block's range on its axis. -/
theorem mem_blk (t : Fin cfg5.N) (i : S200000x1.Idx) :
    i ∈ ((cfg5.win 4).blk t).view.set ↔ ∀ a : Fin 2, win5_4.index t a * S5000x1.size a ≤ (i a).val ∧ (i a).val < win5_4.index t a * S5000x1.size a + S5000x1.size a := by
  show i ∈ ((View.whole main_v44).slice (win5_4.rect t)).set ↔ _
  rw [View.set_slice_whole, Rect.mem_set_unit]
  exact Iff.rfl

/-- Every row of the table of scores is in some point's block: row `r` in that of point `r / 5000`. -/
theorem cover (i : S200000x1.Idx) :
    ∃ t : Fin cfg5.N, (cfg5.win 4).flush t = true ∧ i ∈ ((cfg5.win 4).blk t).view.set := by
  have hN : cfg5.N = 40 := N_5
  have hi0 : (i 0).val < 200000 := (i 0).isLt
  have hi1 : (i 1).val < 1 := (i 1).isLt
  have ht : (i 0).val / 5000 < cfg5.N := by rw [hN]; omega
  obtain ⟨-, -, -, -, -, -, -, e0, e1⟩ := idx_facts ⟨(i 0).val / 5000, ht⟩
  refine ⟨⟨(i 0).val / 5000, ht⟩, flush5_4 _, ?_⟩
  rw [mem_blk]
  intro a
  match a with
  | ⟨0, _⟩ =>
    show win5_4.index ⟨(i 0).val / 5000, ht⟩ (0 : Fin 2) * 5000 ≤ (i 0).val ∧ (i 0).val < win5_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_4.index ⟨(i 0).val / 5000, ht⟩ (1 : Fin 2) * 1 ≤ (i 1).val ∧ (i 1).val < win5_4.index ⟨(i 0).val / 5000, ht⟩ (1 : Fin 2) * 1 + 1
    rw [e1]; omega

/-- THE TABLE OF SCORES after the region: the readout (the column and the bias) of the updated variable table. -/
theorem final (c : Dev nD) :
    (dat5 (F := Ideal) V c).arrAt 4 cfg5.N
      = Cert.Spec.affine (n := 200000) (a := 64) (o := 1) (Cert.Spec.update (n := 200000) (a := 64) (V c main_v30_0) (V c main_v43)) (V c main_v6) (V c main_arg17) :=
  (dat5 (F := Ideal) V c).arrAt_eq_of_cover 4 _ (fun t _ => flushed_eq V c t) cover

end Cert.KernelIdeal.Region5

end
-- ==== Proof.KFold.lean ====
/-
  The idealized kernel program's result, read back through its run.

  The run is a chain of host stretches and six pipelined regions; the contents of the buffers at each boundary are a
  fold from the launch memory. Reading that fold at the buffers that matter gives, boundary by boundary, the tables of
  `Model`: the two encoded tables after regions 0 and 1 (with the first message layer already applied to the variable
  table), then after each later region the updated table together with the next message layer applied to it — the
  kernel program applies each message layer to the NODE table and looks rows up afterwards (`Model.netTable`).
  The per-edge sums are the host's scatter-add, kept opaque; the lookups are `Take.take200` / `take100`, which are row
  selections once every edge index is in range (the two hypotheses `hv`, `hc`).
-/
import proofs.«429049_j82403242541640_4_alg».proof.Proof.Gen.KernelIdeal.Frame
import proofs.«429049_j82403242541640_4_alg».proof.Proof.Model
import proofs.«429049_j82403242541640_4_alg».proof.Proof.LibRowMap
import proofs.«429049_j82403242541640_4_alg».proof.Proof.TakeDef
import proofs.«429049_j82403242541640_4_alg».proof.Proof.Region0
import proofs.«429049_j82403242541640_4_alg».proof.Proof.Region1
import proofs.«429049_j82403242541640_4_alg».proof.Proof.Region2
import proofs.«429049_j82403242541640_4_alg».proof.Proof.Region3
import proofs.«429049_j82403242541640_4_alg».proof.Proof.Region4
import proofs.«429049_j82403242541640_4_alg».proof.Proof.Region5
import Idealize.ShloMosaic.Lib.StableHlo.Run
import Idealize.ShloMosaic.PureOps.Ideal

set_option maxRecDepth 16384
set_option maxHeartbeats 4000000

noncomputable section

namespace Cert.KernelIdeal.Fold

open Idealize.ShloMosaic Idealize.ShloMosaic.TcCoe Idealize.ShloMosaic.ValueIdx Idealize.ShloMosaic.StableHlo
open Cert.KernelIdeal Cert.KernelIdeal.Gen Cert.KernelIdeal.Take Cert.Spec Cert.Model

variable (m : (ℓ : Loc nD τ sig) → Buf (Elt Ideal) ℓ) (ρ : Dev nD → PrngReg)

/-- One step of reading a host stretch: the result of an operation at its own buffer, or at another buffer. -/
macro "host_step" : tactic => `(tactic| (first
  | rw [nullary_result] | rw [unary_result] | rw [binary_result] | rw [ternary_result] | rw [reshape_result]
  | (rw [nullary_result_ne]; rotate_left; decide) | (rw [unary_result_ne]; rotate_left; decide)
  | (rw [binary_result_ne]; rotate_left; decide) | (rw [ternary_result_ne]; rotate_left; decide)
  | (rw [reshape_result_ne]; rotate_left; decide)))

/-- Reads ONE host stretch at a buffer, leaving its operands at the boundary before the stretch. -/
macro "stretch_read" : tactic => `(tactic| (simp only [after_cons, after_nil]; repeat host_step))

/-- Reads a buffer back through the fold: a host stretch's result at its own buffer is its function of the operands,
    at any other buffer what was there; a region's exit leaves every buffer that is not one of its arrays as entered. -/
macro "fold_read" : tactic => `(tactic| repeat (first
  | unfold W17 | unfold W15 | unfold W14 | unfold W12 | unfold W11 | unfold W9 | unfold W8 | unfold W6 | unfold W5
  | unfold W3 | unfold W1
  | simp only [after_cons, after_nil]
  | rw [nullary_result] | rw [unary_result] | rw [binary_result] | rw [ternary_result] | rw [reshape_result]
  | (rw [nullary_result_ne]; rotate_left; decide) | (rw [unary_result_ne]; rotate_left; decide)
  | (rw [binary_result_ne]; rotate_left; decide) | (rw [ternary_result_ne]; rotate_left; decide)
  | (rw [reshape_result_ne]; rotate_left; decide)
  | (rw [W16_of_ne]; rotate_left; decide) | (rw [W13_of_ne]; rotate_left; decide) | (rw [W10_of_ne]; rotate_left; decide)
  | (rw [W7_of_ne]; rotate_left; decide) | (rw [W4_of_ne]; rotate_left; decide) | (rw [W2_of_ne]; rotate_left; decide)))

/-- The network's parameters as the kernel program prepares them from the launch memory: each weight transposed once
    on the host (the stacked message weights transposed as a stack, then cut by round). -/
def PK (c : Dev nD) : Params where
  xv := (m ((c : Thread nD τ).loc main_arg0))
  xc := (m ((c : Thread nD τ).loc main_arg1))
  wv1 := transpose S7x64 [1, 0] (m ((c : Thread nD τ).loc main_arg4)) transposes_S64x7_S7x64_1_0
  bv1 := (m ((c : Thread nD τ).loc main_arg5))
  wv2 := transpose S64x64 [1, 0] (m ((c : Thread nD τ).loc main_arg6)) transposes_S64x64_S64x64_1_0
  bv2 := (m ((c : Thread nD τ).loc main_arg7))
  wc1 := transpose S5x64 [1, 0] (m ((c : Thread nD τ).loc main_arg8)) transposes_S64x5_S5x64_1_0
  bc1 := (m ((c : Thread nD τ).loc main_arg9))
  wc2 := transpose S64x64 [1, 0] (m ((c : Thread nD τ).loc main_arg10)) transposes_S64x64_S64x64_1_0
  bc2 := (m ((c : Thread nD τ).loc main_arg11))
  wvc0 := fun i => shapeCast S64x64 (extractStridedSlice S1x64x64 ![0, 0, 0] (transpose S2x64x64 [0, 2, 1] (m ((c : Thread nD τ).loc main_arg12)) transposes_S2x64x64_S2x64x64_0_2_1) slices_S2x64x64_S1x64x64_0_0_0) shapeCasts_S1x64x64_S64x64 i
  bvc0 := fun i => shapeCast S64 (extractStridedSlice S1x64 ![0, 0] (m ((c : Thread nD τ).loc main_arg13)) slices_S2x64_S1x64_0_0) shapeCasts_S1x64_S64 i
  wvc1 := fun i => shapeCast S64x64 (extractStridedSlice S1x64x64 ![1, 0, 0] (transpose S2x64x64 [0, 2, 1] (m ((c : Thread nD τ).loc main_arg12)) transposes_S2x64x64_S2x64x64_0_2_1) slices_S2x64x64_S1x64x64_1_0_0) shapeCasts_S1x64x64_S64x64 i
  bvc1 := fun i => shapeCast S64 (extractStridedSlice S1x64 ![1, 0] (m ((c : Thread nD τ).loc main_arg13)) slices_S2x64_S1x64_1_0) shapeCasts_S1x64_S64 i
  wcv0 := fun i => shapeCast S64x64 (extractStridedSlice S1x64x64 ![0, 0, 0] (transpose S2x64x64 [0, 2, 1] (m ((c : Thread nD τ).loc main_arg14)) transposes_S2x64x64_S2x64x64_0_2_1) slices_S2x64x64_S1x64x64_0_0_0) shapeCasts_S1x64x64_S64x64 i
  bcv0 := fun i => shapeCast S64 (extractStridedSlice S1x64 ![0, 0] (m ((c : Thread nD τ).loc main_arg15)) slices_S2x64_S1x64_0_0) shapeCasts_S1x64_S64 i
  wcv1 := fun i => shapeCast S64x64 (extractStridedSlice S1x64x64 ![1, 0, 0] (transpose S2x64x64 [0, 2, 1] (m ((c : Thread nD τ).loc main_arg14)) transposes_S2x64x64_S2x64x64_0_2_1) slices_S2x64x64_S1x64x64_1_0_0) shapeCasts_S1x64x64_S64x64 i
  bcv1 := fun i => shapeCast S64 (extractStridedSlice S1x64 ![1, 0] (m ((c : Thread nD τ).loc main_arg15)) slices_S2x64_S1x64_1_0) shapeCasts_S1x64_S64 i
  wro := transpose S64x1 [1, 0] (m ((c : Thread nD τ).loc main_arg16)) transposes_S1x64_S64x1_1_0
  bro := (m ((c : Thread nD τ).loc main_arg17))

/-- The row of the variable table each edge reads. -/
def rvK (c : Dev nD) : Fin 1200000 → Fin 200000 := Cert.Lib.rowMap 200000 (by decide) 200000#32 (m ((c : Thread nD τ).loc main_arg2))
/-- The row of the constraint table each edge reads. -/
def rcK (c : Dev nD) : Fin 1200000 → Fin 100000 := Cert.Lib.rowMap 100000 (by decide) 100000#32 (m ((c : Thread nD τ).loc main_arg3))
/-- Per-edge messages added up per constraint: the host's scatter-add into a zero table at the edges' constraints. -/
def aggCK (c : Dev nD) : Mat 1200000 64 → Mat 100000 64 := fun u =>
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 (m ((c : Thread nD τ).loc main_arg3))) u
/-- Per-edge messages added up per variable. -/
def aggVK (c : Dev nD) : Mat 1200000 64 → Mat 200000 64 := fun u =>
  Host.scatterAdd (F := Ideal) scatter_S200000x64_S1200000x1_S1200000x64_1_0_0_1
    (broadcastInDim S200000x64 ![] bcast_S_S200000x64 (constant (F := Ideal) S_ .f32 0x00000000#32))
    (broadcastInDim S1200000x1 ![0] bcast_S1200000_S1200000x1_0 (m ((c : Thread nD τ).loc main_arg2))) u

/-! ## Regions 0 and 1: the encoders -/

/-- After region 0 its output array is the encoded constraint table. -/
theorem hc0_at_W2 (c : Dev nD) : W2 m ρ c (Proc.devRef .tc main_v7) = hc0 (PK m c) := by
  refine (W2_arr m ρ c 5).trans ((Cert.KernelIdeal.Region0.final (V1 m ρ) c).trans ?_)
  have e0 : V1 m ρ c main_arg1 = (PK m c).xc := by unfold V1; fold_read <;> rfl
  have e1 : V1 m ρ c main_v2 = (PK m c).wc1 := by unfold V1; fold_read <;> rfl
  have e2 : V1 m ρ c main_arg9 = (PK m c).bc1 := by unfold V1; fold_read <;> rfl
  have e3 : V1 m ρ c main_v3 = (PK m c).wc2 := by unfold V1; fold_read <;> rfl
  have e4 : V1 m ρ c main_arg11 = (PK m c).bc2 := by unfold V1; fold_read <;> rfl
  rw [e0, e1, e2, e3, e4]; rfl

/-- After region 1 its first output is the encoded variable table … -/
theorem hv0_at_W4 (c : Dev nD) : W4 m ρ c (Proc.devRef .tc main_v12_0) = hv0 (PK m c) := by
  refine (W4_arr m ρ c 7).trans ((Cert.KernelIdeal.Region1.final7 (V3 m ρ) c).trans ?_)
  have e0 : V3 m ρ c main_arg0 = (PK m c).xv := by unfold V3; fold_read <;> rfl
  have e1 : V3 m ρ c main_v0 = (PK m c).wv1 := by unfold V3; fold_read <;> rfl
  have e2 : V3 m ρ c main_arg5 = (PK m c).bv1 := by unfold V3; fold_read <;> rfl
  have e3 : V3 m ρ c main_v1 = (PK m c).wv2 := by unfold V3; fold_read <;> rfl
  have e4 : V3 m ρ c main_arg7 = (PK m c).bv2 := by unfold V3; fold_read <;> rfl
  rw [e0, e1, e2, e3, e4]; rfl

/-- … and its second output the first message layer applied to it. -/
theorem lv0_at_W4 (c : Dev nD) : W4 m ρ c (Proc.devRef .tc main_v12_1) = affine (hv0 (PK m c)) (PK m c).wvc0 (PK m c).bvc0 := by
  refine (W4_arr m ρ c 8).trans ((Cert.KernelIdeal.Region1.final8 (V3 m ρ) c).trans ?_)
  have e0 : V3 m ρ c main_arg0 = (PK m c).xv := by unfold V3; fold_read <;> rfl
  have e1 : V3 m ρ c main_v0 = (PK m c).wv1 := by unfold V3; fold_read <;> rfl
  have e2 : V3 m ρ c main_arg5 = (PK m c).bv1 := by unfold V3; fold_read <;> rfl
  have e3 : V3 m ρ c main_v1 = (PK m c).wv2 := by unfold V3; fold_read <;> rfl
  have e4 : V3 m ρ c main_arg7 = (PK m c).bv2 := by unfold V3; fold_read <;> rfl
  have e5 : V3 m ρ c main_v9 = (PK m c).wvc0 := by unfold V3; fold_read <;> rfl
  have e6 : V3 m ρ c main_v11 = (PK m c).bvc0 := by unfold V3; fold_read <;> rfl
  rw [e0, e1, e2, e3, e4, e5, e6]; rfl

/-! ## The edge arrays are never written: at every region's exit they are as launched -/

theorem arg2_at_W4 (c : Dev nD) : W4 m ρ c (Proc.devRef .tc main_arg2) = (m ((c : Thread nD τ).loc main_arg2)) := by
  rw [W4_of_ne m ρ c main_arg2 (by decide)]
  fold_read <;> rfl
theorem arg3_at_W4 (c : Dev nD) : W4 m ρ c (Proc.devRef .tc main_arg3) = (m ((c : Thread nD τ).loc main_arg3)) := by
  rw [W4_of_ne m ρ c main_arg3 (by decide)]
  fold_read <;> rfl

theorem arg2_at_W7 (c : Dev nD) : W7 m ρ c (Proc.devRef .tc main_arg2) = (m ((c : Thread nD τ).loc main_arg2)) := by
  rw [W7_of_ne m ρ c main_arg2 (by decide)]
  fold_read <;> first | rfl | exact arg2_at_W4 m ρ c | exact arg3_at_W4 m ρ c
theorem arg3_at_W7 (c : Dev nD) : W7 m ρ c (Proc.devRef .tc main_arg3) = (m ((c : Thread nD τ).loc main_arg3)) := by
  rw [W7_of_ne m ρ c main_arg3 (by decide)]
  fold_read <;> first | rfl | exact arg2_at_W4 m ρ c | exact arg3_at_W4 m ρ c

theorem arg2_at_W10 (c : Dev nD) : W10 m ρ c (Proc.devRef .tc main_arg2) = (m ((c : Thread nD τ).loc main_arg2)) := by
  rw [W10_of_ne m ρ c main_arg2 (by decide)]
  fold_read <;> first | rfl | exact arg2_at_W7 m ρ c | exact arg3_at_W7 m ρ c
theorem arg3_at_W10 (c : Dev nD) : W10 m ρ c (Proc.devRef .tc main_arg3) = (m ((c : Thread nD τ).loc main_arg3)) := by
  rw [W10_of_ne m ρ c main_arg3 (by decide)]
  fold_read <;> first | rfl | exact arg2_at_W7 m ρ c | exact arg3_at_W7 m ρ c

theorem arg2_at_W13 (c : Dev nD) : W13 m ρ c (Proc.devRef .tc main_arg2) = (m ((c : Thread nD τ).loc main_arg2)) := by
  rw [W13_of_ne m ρ c main_arg2 (by decide)]
  fold_read <;> first | rfl | exact arg2_at_W10 m ρ c | exact arg3_at_W10 m ρ c
theorem arg3_at_W13 (c : Dev nD) : W13 m ρ c (Proc.devRef .tc main_arg3) = (m ((c : Thread nD τ).loc main_arg3)) := by
  rw [W13_of_ne m ρ c main_arg3 (by decide)]
  fold_read <;> first | rfl | exact arg2_at_W10 m ρ c | exact arg3_at_W10 m ρ c

/-! ## The four lookup stretches: each leaves the lookup of the table the region before it wrote -/

/-- Contents carried to a buffer's type and back are the contents. -/
theorem ofBuf_toBuf {sig' : RefSig} {T : BufTy} {Val : EltTy → Type} (x : StableHlo.TRef sig' T) (v : T.Contents Val) :
    x.ofBuf (x.toBuf v) = v := by
  obtain ⟨r, h, a, b⟩ := x
  subst h
  rfl

/-! At a literal buffer the carrying is the identity (the buffer's type IS the value's type). -/
theorem toBuf_main_v13 (w : FVec Ideal S1200000x64 .f32) :
    (TRef.of main_v13 : TRef sig ⟨S1200000x64, .f32⟩).toBuf (Val := Elt Ideal) w = w := rfl
theorem toBuf_main_v22 (w : FVec Ideal S1200000x64 .f32) :
    (TRef.of main_v22 : TRef sig ⟨S1200000x64, .f32⟩).toBuf (Val := Elt Ideal) w = w := rfl
theorem toBuf_main_v31 (w : FVec Ideal S1200000x64 .f32) :
    (TRef.of main_v31 : TRef sig ⟨S1200000x64, .f32⟩).toBuf (Val := Elt Ideal) w = w := rfl
theorem toBuf_main_v40 (w : FVec Ideal S1200000x64 .f32) :
    (TRef.of main_v40 : TRef sig ⟨S1200000x64, .f32⟩).toBuf (Val := Elt Ideal) w = w := rfl
theorem ofBuf_main_v12_1 (w : FVec Ideal S200000x64 .f32) :
    (TRef.of main_v12_1 : TRef sig ⟨S200000x64, .f32⟩).ofBuf (Val := Elt Ideal) w = w := rfl
theorem ofBuf_main_v21_1 (w : FVec Ideal S100000x64 .f32) :
    (TRef.of main_v21_1 : TRef sig ⟨S100000x64, .f32⟩).ofBuf (Val := Elt Ideal) w = w := rfl
theorem ofBuf_main_v30_1 (w : FVec Ideal S200000x64 .f32) :
    (TRef.of main_v30_1 : TRef sig ⟨S200000x64, .f32⟩).ofBuf (Val := Elt Ideal) w = w := rfl
theorem ofBuf_main_v39_1 (w : FVec Ideal S100000x64 .f32) :
    (TRef.of main_v39_1 : TRef sig ⟨S100000x64, .f32⟩).ofBuf (Val := Elt Ideal) w = w := rfl
theorem ofBuf_main_arg2 (w : IVec S1200000 32) :
    (TRef.of main_arg2 : TRef sig ⟨S1200000, .i32⟩).ofBuf (Val := Elt Ideal) w = w := rfl
theorem ofBuf_main_arg3 (w : IVec S1200000 32) :
    (TRef.of main_arg3 : TRef sig ⟨S1200000, .i32⟩).ofBuf (Val := Elt Ideal) w = w := rfl

set_option maxHeartbeats 4000000 in
/-- The stretch read operation by operation (contents carried to each buffer's own type and back). -/
theorem take_at_W5_cast (c : Dev nD) : W5 m ρ c (Proc.devRef .tc main_v13)
    = (TRef.of main_v13 : TRef sig ⟨S1200000x64, .f32⟩).toBuf (take200
        ((TRef.of main_v12_1 : TRef sig ⟨S200000x64, .f32⟩).ofBuf (W4 m ρ c (Proc.devRef .tc main_v12_1)))
        ((TRef.of main_arg2 : TRef sig ⟨S1200000, .i32⟩).ofBuf (W4 m ρ c (Proc.devRef .tc main_arg2)))) := by
  unfold W5
  simp only [after_cons, after_nil]
  repeat host_step
  simp only [ofBuf_toBuf]
  unfold take200
  rfl
theorem take_at_W5 (c : Dev nD) : W5 m ρ c (Proc.devRef .tc main_v13)
    = take200 (W4 m ρ c (Proc.devRef .tc main_v12_1)) (W4 m ρ c (Proc.devRef .tc main_arg2)) :=
  (take_at_W5_cast m ρ c).trans ((toBuf_main_v13 _).trans
    (congrArg₂ take200 (ofBuf_main_v12_1 (W4 m ρ c (Proc.devRef .tc main_v12_1))) (ofBuf_main_arg2 (W4 m ρ c (Proc.devRef .tc main_arg2)))))

set_option maxHeartbeats 4000000 in
/-- The stretch read operation by operation (contents carried to each buffer's own type and back). -/
theorem take_at_W8_cast (c : Dev nD) : W8 m ρ c (Proc.devRef .tc main_v22)
    = (TRef.of main_v22 : TRef sig ⟨S1200000x64, .f32⟩).toBuf (take100
        ((TRef.of main_v21_1 : TRef sig ⟨S100000x64, .f32⟩).ofBuf (W7 m ρ c (Proc.devRef .tc main_v21_1)))
        ((TRef.of main_arg3 : TRef sig ⟨S1200000, .i32⟩).ofBuf (W7 m ρ c (Proc.devRef .tc main_arg3)))) := by
  unfold W8
  simp only [after_cons, after_nil]
  repeat host_step
  simp only [ofBuf_toBuf]
  unfold take100
  rfl
theorem take_at_W8 (c : Dev nD) : W8 m ρ c (Proc.devRef .tc main_v22)
    = take100 (W7 m ρ c (Proc.devRef .tc main_v21_1)) (W7 m ρ c (Proc.devRef .tc main_arg3)) :=
  (take_at_W8_cast m ρ c).trans ((toBuf_main_v22 _).trans
    (congrArg₂ take100 (ofBuf_main_v21_1 (W7 m ρ c (Proc.devRef .tc main_v21_1))) (ofBuf_main_arg3 (W7 m ρ c (Proc.devRef .tc main_arg3)))))

set_option maxHeartbeats 4000000 in
/-- The stretch read operation by operation (contents carried to each buffer's own type and back). -/
theorem take_at_W11_cast (c : Dev nD) : W11 m ρ c (Proc.devRef .tc main_v31)
    = (TRef.of main_v31 : TRef sig ⟨S1200000x64, .f32⟩).toBuf (take200
        ((TRef.of main_v30_1 : TRef sig ⟨S200000x64, .f32⟩).ofBuf (W10 m ρ c (Proc.devRef .tc main_v30_1)))
        ((TRef.of main_arg2 : TRef sig ⟨S1200000, .i32⟩).ofBuf (W10 m ρ c (Proc.devRef .tc main_arg2)))) := by
  unfold W11
  simp only [after_cons, after_nil]
  repeat host_step
  simp only [ofBuf_toBuf]
  unfold take200
  rfl
theorem take_at_W11 (c : Dev nD) : W11 m ρ c (Proc.devRef .tc main_v31)
    = take200 (W10 m ρ c (Proc.devRef .tc main_v30_1)) (W10 m ρ c (Proc.devRef .tc main_arg2)) :=
  (take_at_W11_cast m ρ c).trans ((toBuf_main_v31 _).trans
    (congrArg₂ take200 (ofBuf_main_v30_1 (W10 m ρ c (Proc.devRef .tc main_v30_1))) (ofBuf_main_arg2 (W10 m ρ c (Proc.devRef .tc main_arg2)))))

set_option maxHeartbeats 4000000 in
/-- The stretch read operation by operation (contents carried to each buffer's own type and back). -/
theorem take_at_W14_cast (c : Dev nD) : W14 m ρ c (Proc.devRef .tc main_v40)
    = (TRef.of main_v40 : TRef sig ⟨S1200000x64, .f32⟩).toBuf (take100
        ((TRef.of main_v39_1 : TRef sig ⟨S100000x64, .f32⟩).ofBuf (W13 m ρ c (Proc.devRef .tc main_v39_1)))
        ((TRef.of main_arg3 : TRef sig ⟨S1200000, .i32⟩).ofBuf (W13 m ρ c (Proc.devRef .tc main_arg3)))) := by
  unfold W14
  simp only [after_cons, after_nil]
  repeat host_step
  simp only [ofBuf_toBuf]
  unfold take100
  rfl
theorem take_at_W14 (c : Dev nD) : W14 m ρ c (Proc.devRef .tc main_v40)
    = take100 (W13 m ρ c (Proc.devRef .tc main_v39_1)) (W13 m ρ c (Proc.devRef .tc main_arg3)) :=
  (take_at_W14_cast m ρ c).trans ((toBuf_main_v40 _).trans
    (congrArg₂ take100 (ofBuf_main_v39_1 (W13 m ρ c (Proc.devRef .tc main_v39_1))) (ofBuf_main_arg3 (W13 m ρ c (Proc.devRef .tc main_arg3)))))

/-! ## The message-passing rounds

Under the two hypotheses that the lookups pick the rows the row maps name (true once every edge index is in range). -/

section Rounds

variable (hv : ∀ (c : Dev nD) (L : FVec Ideal S200000x64 .f32), take200 L (m ((c : Thread nD τ).loc main_arg2)) = rows (rvK m c) L)
variable (hc : ∀ (c : Dev nD) (L : FVec Ideal S100000x64 .f32), take100 L (m ((c : Thread nD τ).loc main_arg3)) = rows (rcK m c) L)

include hv in
/-- Region 2 is entered with the per-constraint sums of the first messages. -/
theorem agg_at_V6 (c : Dev nD) : V6 m ρ c main_v16
    = aggCK m c (rows (rvK m c) (affine (hv0 (PK m c)) (PK m c).wvc0 (PK m c).bvc0)) := by
  have h13 : W5 m ρ c (Proc.devRef .tc main_v13) = rows (rvK m c) (affine (hv0 (PK m c)) (PK m c).wvc0 (PK m c).bvc0) := by
    rw [take_at_W5 m ρ c, lv0_at_W4 m ρ c, arg2_at_W4 m ρ c]; exact hv c _
  have h3 : W5 m ρ c (Proc.devRef .tc main_arg3) = (m ((c : Thread nD τ).loc main_arg3)) := by
    unfold W5; fold_read <;> first | rfl | exact arg3_at_W4 m ρ c
  unfold V6 W6
  generalize W5 m ρ c = U at h13 h3 ⊢
  stretch_read
  rw [h13, h3]; rfl

include hv in
/-- After region 2: the constraint table updated once … -/
theorem tc1_at_W7 (c : Dev nD) : W7 m ρ c (Proc.devRef .tc main_v21_0) = tc1 (PK m c) (rvK m c) (aggCK m c) := by
  refine (W7_arr m ρ c 4).trans ((Cert.KernelIdeal.Region2.final4 (V6 m ρ) c).trans ?_)
  have e0 : V6 m ρ c main_v7 = hc0 (PK m c) := by unfold V6; fold_read <;> first | rfl | exact hc0_at_W2 m ρ c
  rw [e0, agg_at_V6 m ρ hv c]; rfl

include hv in
/-- … and the next message layer applied to it. -/
theorem lc0_at_W7 (c : Dev nD) : W7 m ρ c (Proc.devRef .tc main_v21_1)
    = affine (tc1 (PK m c) (rvK m c) (aggCK m c)) (PK m c).wcv0 (PK m c).bcv0 := by
  refine (W7_arr m ρ c 5).trans ((Cert.KernelIdeal.Region2.final5 (V6 m ρ) c).trans ?_)
  have e0 : V6 m ρ c main_v7 = hc0 (PK m c) := by unfold V6; fold_read <;> first | rfl | exact hc0_at_W2 m ρ c
  have e2 : V6 m ρ c main_v18 = (PK m c).wcv0 := by unfold V6; fold_read <;> rfl
  have e3 : V6 m ρ c main_v20 = (PK m c).bcv0 := by unfold V6; fold_read <;> rfl
  rw [e0, agg_at_V6 m ρ hv c, e2, e3]; rfl

include hv hc in
/-- Region 3 is entered with the per-variable sums of the constraints' messages. -/
theorem agg_at_V9 (c : Dev nD) : V9 m ρ c main_v25
    = aggVK m c (rows (rcK m c) (affine (tc1 (PK m c) (rvK m c) (aggCK m c)) (PK m c).wcv0 (PK m c).bcv0)) := by
  have h22 : W8 m ρ c (Proc.devRef .tc main_v22)
      = rows (rcK m c) (affine (tc1 (PK m c) (rvK m c) (aggCK m c)) (PK m c).wcv0 (PK m c).bcv0) := by
    rw [take_at_W8 m ρ c, lc0_at_W7 m ρ hv c, arg3_at_W7 m ρ c]; exact hc c _
  have h2 : W8 m ρ c (Proc.devRef .tc main_arg2) = (m ((c : Thread nD τ).loc main_arg2)) := by
    unfold W8; fold_read <;> first | rfl | exact arg2_at_W7 m ρ c
  unfold V9 W9
  generalize W8 m ρ c = U at h22 h2 ⊢
  stretch_read
  rw [h22, h2]; rfl

include hv hc in
theorem tv1_at_W10 (c : Dev nD) : W10 m ρ c (Proc.devRef .tc main_v30_0)
    = tv1 (PK m c) (rvK m c) (rcK m c) (aggCK m c) (aggVK m c) := by
  refine (W10_arr m ρ c 4).trans ((Cert.KernelIdeal.Region3.final4 (V9 m ρ) c).trans ?_)
  have e0 : V9 m ρ c main_v12_0 = hv0 (PK m c) := by unfold V9; fold_read <;> first | rfl | exact hv0_at_W4 m ρ c
  rw [e0, agg_at_V9 m ρ hv hc c]; rfl

include hv hc in
theorem lv1_at_W10 (c : Dev nD) : W10 m ρ c (Proc.devRef .tc main_v30_1)
    = affine (tv1 (PK m c) (rvK m c) (rcK m c) (aggCK m c) (aggVK m c)) (PK m c).wvc1 (PK m c).bvc1 := by
  refine (W10_arr m ρ c 5).trans ((Cert.KernelIdeal.Region3.final5 (V9 m ρ) c).trans ?_)
  have e0 : V9 m ρ c main_v12_0 = hv0 (PK m c) := by unfold V9; fold_read <;> first | rfl | exact hv0_at_W4 m ρ c
  have e2 : V9 m ρ c main_v27 = (PK m c).wvc1 := by unfold V9; fold_read <;> rfl
  have e3 : V9 m ρ c main_v29 = (PK m c).bvc1 := by unfold V9; fold_read <;> rfl
  rw [e0, agg_at_V9 m ρ hv hc c, e2, e3]; rfl

include hv hc in
theorem agg_at_V12 (c : Dev nD) : V12 m ρ c main_v34
    = aggCK m c (rows (rvK m c) (affine (tv1 (PK m c) (rvK m c) (rcK m c) (aggCK m c) (aggVK m c)) (PK m c).wvc1 (PK m c).bvc1)) := by
  have h31 : W11 m ρ c (Proc.devRef .tc main_v31)
      = rows (rvK m c) (affine (tv1 (PK m c) (rvK m c) (rcK m c) (aggCK m c) (aggVK m c)) (PK m c).wvc1 (PK m c).bvc1) := by
    rw [take_at_W11 m ρ c, lv1_at_W10 m ρ hv hc c, arg2_at_W10 m ρ c]; exact hv c _
  have h3 : W11 m ρ c (Proc.devRef .tc main_arg3) = (m ((c : Thread nD τ).loc main_arg3)) := by
    unfold W11; fold_read <;> first | rfl | exact arg3_at_W10 m ρ c
  unfold V12 W12
  generalize W11 m ρ c = U at h31 h3 ⊢
  stretch_read
  rw [h31, h3]; rfl

include hv hc in
theorem tc2_at_W13 (c : Dev nD) : W13 m ρ c (Proc.devRef .tc main_v39_0)
    = tc2 (PK m c) (rvK m c) (rcK m c) (aggCK m c) (aggVK m c) := by
  refine (W13_arr m ρ c 4).trans ((Cert.KernelIdeal.Region4.final4 (V12 m ρ) c).trans ?_)
  have e0 : V12 m ρ c main_v21_0 = tc1 (PK m c) (rvK m c) (aggCK m c) := by unfold V12; fold_read <;> first | rfl | exact tc1_at_W7 m ρ hv c
  rw [e0, agg_at_V12 m ρ hv hc c]; rfl

include hv hc in
theorem lc1_at_W13 (c : Dev nD) : W13 m ρ c (Proc.devRef .tc main_v39_1)
    = affine (tc2 (PK m c) (rvK m c) (rcK m c) (aggCK m c) (aggVK m c)) (PK m c).wcv1 (PK m c).bcv1 := by
  refine (W13_arr m ρ c 5).trans ((Cert.KernelIdeal.Region4.final5 (V12 m ρ) c).trans ?_)
  have e0 : V12 m ρ c main_v21_0 = tc1 (PK m c) (rvK m c) (aggCK m c) := by unfold V12; fold_read <;> first | rfl | exact tc1_at_W7 m ρ hv c
  have e2 : V12 m ρ c main_v36 = (PK m c).wcv1 := by unfold V12; fold_read <;> rfl
  have e3 : V12 m ρ c main_v38 = (PK m c).bcv1 := by unfold V12; fold_read <;> rfl
  rw [e0, agg_at_V12 m ρ hv hc c, e2, e3]; rfl

include hv hc in
theorem agg_at_V15 (c : Dev nD) : V15 m ρ c main_v43
    = aggVK m c (rows (rcK m c) (affine (tc2 (PK m c) (rvK m c) (rcK m c) (aggCK m c) (aggVK m c)) (PK m c).wcv1 (PK m c).bcv1)) := by
  have h40 : W14 m ρ c (Proc.devRef .tc main_v40)
      = rows (rcK m c) (affine (tc2 (PK m c) (rvK m c) (rcK m c) (aggCK m c) (aggVK m c)) (PK m c).wcv1 (PK m c).bcv1) := by
    rw [take_at_W14 m ρ c, lc1_at_W13 m ρ hv hc c, arg3_at_W13 m ρ c]; exact hc c _
  have h2 : W14 m ρ c (Proc.devRef .tc main_arg2) = (m ((c : Thread nD τ).loc main_arg2)) := by
    unfold W14; fold_read <;> first | rfl | exact arg2_at_W13 m ρ c
  unfold V15 W15
  generalize W14 m ρ c = U at h40 h2 ⊢
  stretch_read
  rw [h40, h2]; rfl

include hv hc in
/-- After region 5: the scores, as a one-column table. -/
theorem net_at_W16 (c : Dev nD) : W16 m ρ c (Proc.devRef .tc main_v44)
    = netTable (PK m c) (rvK m c) (rcK m c) (aggCK m c) (aggVK m c) := by
  refine (W16_arr m ρ c 4).trans ((Cert.KernelIdeal.Region5.final (V15 m ρ) c).trans ?_)
  have e0 : V15 m ρ c main_v30_0 = tv1 (PK m c) (rvK m c) (rcK m c) (aggCK m c) (aggVK m c) := by
    unfold V15; fold_read <;> first | rfl | exact tv1_at_W10 m ρ hv hc c
  have e2 : V15 m ρ c main_v6 = (PK m c).wro := by unfold V15; fold_read <;> rfl
  have e3 : V15 m ρ c main_arg17 = (PK m c).bro := by unfold V15; fold_read <;> rfl
  rw [e0, agg_at_V15 m ρ hv hc c, e2, e3]; rfl

/-- The kernel program's result as a function of the launch memory: the scores with the unit column dropped. -/
def outK (c : Dev nD) : S200000.Idx → EReal := fun i =>
  shapeCast S200000 (netTable (PK m c) (rvK m c) (rcK m c) (aggCK m c) (aggVK m c)) shapeCasts_S200000x1_S200000 i

include hv hc in
/-- THE RESULT at the last boundary. -/
theorem result (c : Dev nD) : W17 m ρ c (Proc.devRef .tc main_v45) = outK m c := by
  unfold W17
  stretch_read
  rw [net_at_W16 m ρ hv hc c]; rfl

end Rounds

end Cert.KernelIdeal.Fold

end
-- ==== Proof.LibGatherRows.lean ====
/-
  A table of rows looked up by an array of start indices, read one entry at a time.

  Indexing a table `x : [n, k]` by an integer array `idx : [E]` gathers whole rows: the start indices are the
  column `[E, 1]`, the table's row axis is collapsed and is the one axis a start index names, its column axis is the
  result's offset axis, and a slice is one row (`[1, k]`). Entry `(e, q)` of the result is the table at row
  "start index of `e`, read as a signed integer and clamped into `[0, n - 1]`" and column `q`
  (`gather_rowDims_apply`). When the start indices are an index array wrapped once by the table's length and laid
  out as a column, that row is `rowMap` of the index array, so the whole lookup is `Cert.Spec.rows (rowMap …)` of
  the table (`gather_wrapped_rows`).
-/
import proofs.«429049_j82403242541640_4_alg».proof.Proof.LibRowMap
import proofs.«429049_j82403242541640_4_alg».proof.Proof.Spec
import Idealize.ShloMosaic.PureOps.Ideal
import Idealize.ShloMosaic.Lib.ValueIdx

noncomputable section

namespace Cert.Lib

open Idealize.ShloMosaic Idealize.ShloMosaic.ValueIdx

/-- The dimension numbers of a row lookup: operand `[n, k]`, start indices `[E, 1]`, result `[E, k]`; the result's
    axis 1 is the offset axis, the operand's axis 0 is collapsed and is the axis the start index names, the index
    vector lies along axis 1 of the start indices, and a slice is `[1, k]`. Their conditions `wf` are decided on a
    program's literal shapes. -/
abbrev rowDims (n E k : ℕ)
    (wf : GatherDims.WF ⟨2, ![n, k]⟩ ⟨2, ![E, 1]⟩ ⟨2, ![E, k]⟩ [1] [0] [] [0] [] 1 ![1, k]) :
    GatherDims ⟨2, ![n, k]⟩ ⟨2, ![E, 1]⟩ ⟨2, ![E, k]⟩ where
  offsetDims := [1]
  collapsedSliceDims := [0]
  operandBatchingDims := []
  startIndicesBatchingDims := []
  startIndexMap := [0]
  indexVectorDim := 1
  sliceSizes := ![1, k]
  wf := wf

/-- On the table's row axis the operand index of result entry `(e, q)` is edge `e`'s start index, read signed and
    clamped into `[0, n - 1]`: the axis is collapsed (no offset coordinate) and is no batching axis. -/
theorem rowDims_operand_row {n E k w : ℕ}
    (wf : GatherDims.WF ⟨2, ![n, k]⟩ ⟨2, ![E, 1]⟩ ⟨2, ![E, k]⟩ [1] [0] [] [0] [] 1 ![1, k])
    (idx : IVec ⟨2, ![E, 1]⟩ w) (e : Fin E) (q : Fin k) :
    (rowDims n E k wf).start (ix2 e q) idx (0 : Fin 2) + (rowDims n E k wf).batchCoord (ix2 e q) (0 : Fin 2)
      + (rowDims n E k wf).offCoord (ix2 e q) (0 : Fin 2) = min (idx (ix2 e (0 : Fin 1))).toInt.toNat (n - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims n E k wf).startIndexMap from List.mem_singleton.mpr rfl)]
  have hsi : (rowDims n E k wf).siIdx (ix2 e q) ⟨List.idxOf (0 : Fin 2) (rowDims n E k wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the table's column axis the operand index of result entry `(e, q)` is `q`: no start index names the axis, it
    is no batching axis, and it is the one kept axis, read by the result's offset axis. -/
theorem rowDims_operand_col {n E k w : ℕ}
    (wf : GatherDims.WF ⟨2, ![n, k]⟩ ⟨2, ![E, 1]⟩ ⟨2, ![E, k]⟩ [1] [0] [] [0] [] 1 ![1, k])
    (idx : IVec ⟨2, ![E, 1]⟩ w) (e : Fin E) (q : Fin k) :
    (rowDims n E k wf).start (ix2 e q) idx (1 : Fin 2) + (rowDims n E k wf).batchCoord (ix2 e q) (1 : Fin 2)
      + (rowDims n E k wf).offCoord (ix2 e q) (1 : Fin 2) = q.val := by
  have hstart : (rowDims n E k wf).start (ix2 e q) idx (1 : Fin 2) = 0 := by
    unfold GatherDims.start
    rw [dif_neg (show (1 : Fin 2) ∉ [(0 : Fin 2)] from by decide)]
  have hk : (1 : Fin 2) ∈ (rowDims n E k wf).sKept :=
    (GatherDims.mem_sKept _ _).mpr ⟨(show (1 : Fin 2) ∉ [(0 : Fin 2)] from by decide), List.not_mem_nil⟩
  rw [GatherDims.batchCoord_eq_zero _ _ _ List.not_mem_nil, Nat.add_zero, hstart, Nat.zero_add]
  unfold GatherDims.offCoord
  rw [dif_pos hk]
  rfl

/-- THE ROW LOOKUP READ AT `(e, q)`: the table at the row that edge `e`'s start index (held at `[e, 0]`) names —
    read signed, clamped into `[0, n - 1]` — and at column `q`. -/
theorem gather_rowDims_apply {α : Type} {n E k w : ℕ} (hn : 0 < n)
    (wf : GatherDims.WF ⟨2, ![n, k]⟩ ⟨2, ![E, 1]⟩ ⟨2, ![E, k]⟩ [1] [0] [] [0] [] 1 ![1, k])
    (x : (⟨2, ![n, k]⟩ : Shape).Idx → α) (idx : IVec ⟨2, ![E, 1]⟩ w) (e : Fin E) (q : Fin k) :
    Host.gather (rowDims n E k wf) x idx (ix2 e q)
      = x (ix2 ⟨min (idx (ix2 e (0 : Fin 1))).toInt.toNat (n - 1), by omega⟩ q) := by
  unfold Host.gather
  congr 1
  funext a
  refine Fin.ext ?_
  match a with
  | ⟨0, _⟩ => exact rowDims_operand_row wf idx e q
  | ⟨1, _⟩ => exact rowDims_operand_col wf idx e q

/-- An array `v : [E]` laid out as the column `[E, 1]` reads, at `[e, 0]`, the array at `e`. -/
theorem column_apply {α : Type} {E : ℕ} (hb : (⟨1, ![E]⟩ : Shape).BroadcastsInDim ⟨2, ![E, 1]⟩ ![0])
    (v : (⟨1, ![E]⟩ : Shape).Idx → α) (e : Fin E) :
    broadcastInDim ⟨2, ![E, 1]⟩ ![0] hb v (ix2 e (0 : Fin 1)) = v (ix1 e) := by
  unfold broadcastInDim
  congr 1
  funext a
  obtain rfl : a = 0 := Subsingleton.elim _ _
  refine Fin.ext ?_
  have he := e.isLt
  split
  · next h1 => change E = 1 at h1; show (0 : ℕ) = e.val; omega
  · rfl

/-- THE WRAPPED LOOKUP IS A SELECTION OF ROWS. A gather `d` with the row lookup's dimension numbers, its start
    indices the index array `idx` wrapped once by the table's length (the word `nw`) and laid out as a column, is
    the table's rows picked by `rowMap`. (A program's printed record is `rowDims …` of its own conditions by `rfl`,
    and its wrapped index array — a select on "negative" between the index plus the length and the index — is
    `fun i => wrapWord nw (idx i)` by `rfl`.) -/
theorem gather_wrapped_rows {n E k : ℕ} (hn : 0 < n) (nw : BitVec 32)
    (d : GatherDims ⟨2, ![n, k]⟩ ⟨2, ![E, 1]⟩ ⟨2, ![E, k]⟩)
    (wf : GatherDims.WF ⟨2, ![n, k]⟩ ⟨2, ![E, 1]⟩ ⟨2, ![E, k]⟩ [1] [0] [] [0] [] 1 ![1, k])
    (hd : d = rowDims n E k wf)
    (x : Cert.Spec.Mat n k) (idx : (⟨1, ![E]⟩ : Shape).Idx → BitVec 32)
    (hb : (⟨1, ![E]⟩ : Shape).BroadcastsInDim ⟨2, ![E, 1]⟩ ![0]) :
    Host.gather d x (broadcastInDim ⟨2, ![E, 1]⟩ ![0] hb (fun i => wrapWord nw (idx i)))
      = Cert.Spec.rows (rowMap n hn nw idx) x := by
  subst hd
  funext y
  obtain ⟨e, q, rfl⟩ : ∃ (e : Fin E) (q : Fin k), y = ix2 e q := ⟨y 0, y 1, eq_ix2 y⟩
  have hrow : (⟨min ((broadcastInDim ⟨2, ![E, 1]⟩ ![0] hb (fun i => wrapWord nw (idx i)))
      (ix2 e (0 : Fin 1))).toInt.toNat (n - 1), by omega⟩ : Fin n) = rowMap n hn nw idx e := by
    refine Fin.ext ?_
    show min _ (n - 1) = min (wrapWord nw (idx (ix1 e))).toInt.toNat (n - 1)
    rw [column_apply]
  refine (gather_rowDims_apply hn wf x _ e q).trans ?_
  exact congrArg (fun r => x (ix2 r q)) hrow

end Cert.Lib

end
-- ==== Proof.KTake.lean ====
/-
  The kernel program's row lookup, under the index-range hypothesis, is a selection of rows.

  The lookup wraps a negative index word once by the table's length, gathers rows at the wrapped words (each start
  index clamped into the table), and keeps a gathered row only where an in-bounds mask is 1: per edge, the
  and-reduction, along a one-element axis, of "wrapped ≥ 0 and wrapped ≤ last row", both signed. Where every index
  word's signed value lies in [0, n) for the table's n rows, no word is wrapped, both tests hold at every edge, an
  and-reduction of ones from 1 is 1, so the select returns the gathered rows everywhere and the fill nowhere
  (`take200_eq_gather`, `take100_eq_gather`). The gather at the wrapped words laid out as a column is the table's rows
  picked by `rowMap`, whatever the words are; so the whole lookup is `Cert.Spec.rows (rowMap …)` of the table
  (`take200_eq`, `take100_eq`).
-/
import proofs.«429049_j82403242541640_4_alg».proof.Proof.TakeDef
import proofs.«429049_j82403242541640_4_alg».proof.Proof.LibRowMap
import proofs.«429049_j82403242541640_4_alg».proof.Proof.LibGatherRows
import proofs.«429049_j82403242541640_4_alg».proof.Proof.Spec
import Idealize.ShloMosaic.Lib.ValueIdx
import Idealize.ShloMosaic.Lib.StableHlo.Predicate
import Idealize.ShloMosaic.Lib.Affine
import Idealize.ShloMosaic.Lib.Pipeline.Value
import Idealize.ShloMosaic.PureOps.Reduce
import Idealize.ShloMosaic.PureOps.Ideal

noncomputable section

namespace Cert.KernelIdeal.Take

open Idealize.ShloMosaic Idealize.ShloMosaic.ValueIdx Cert.KernelIdeal Cert.KernelIdeal.Facts₀

/-- A left fold by the and of bits, from 1, over words that are all 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_one f l fun n hn => h n (List.mem_cons_of_mem _ hn)

/-- A reduction by and, from an initial 1, of an array of bits that are all 1 is 1 at every result index. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ fun n _ => hx n

/-- A word whose signed value is not negative is not wrapped. -/
theorem wrapWord_of_nonneg (n w : BitVec 32) (h : 0 ≤ w.toInt) : Cert.Lib.wrapWord n w = w := by
  have hc : IntOp.cmpi .slt w 0#32 = 0#1 := eq_zero_of_ne_one fun hc => by
    have := IntOp.cmpi_slt.1 hc
    rw [show (0#32 : BitVec 32).toInt = 0 from by decide] at this
    omega
  unfold Cert.Lib.wrapWord
  rw [hc, select_zero]

/-- The two range tests of a word whose signed value lies in [0, m]: both bits are 1, and so is their and. -/
theorem inside_word (w m : BitVec 32) (h0 : 0 ≤ w.toInt) (hm : w.toInt ≤ m.toInt) :
    IntOp.andi (IntOp.cmpi .sge w 0#32) (IntOp.cmpi .sle w m) = 1#1 :=
  IntOp.andi_eq_one.2 ⟨IntOp.cmpi_sge.2 (by rw [show (0#32 : BitVec 32).toInt = 0 from by decide]; exact h0), IntOp.cmpi_sle.2 hm⟩

variable [Facts₀]

/-- The edge array with each negative word wrapped once by the table's length `n`, as the program spells it. -/
def wrapped (idx : IVec S1200000 32) (n : BitVec 32) : IVec S1200000 32 :=
  select (cmpi .slt idx (broadcastInDim S1200000 ![] bcast_S_S1200000 (constantI S_ 32 0#32)))
    (addi idx (broadcastInDim S1200000 ![] bcast_S_S1200000 (constantI S_ 32 n))) idx

/-- At an edge the wrapped array holds the wrapped word. -/
theorem wrapped_apply (idx : IVec S1200000 32) (n : BitVec 32) (j : S1200000.Idx) :
    wrapped idx n j = Cert.Lib.wrapWord n (idx j) := rfl

/-- An edge array laid out as a column reads, at [e, 0], the array at e. -/
theorem col_apply {α : Type} (v : S1200000.Idx → α) (j : S1200000x1.Idx) :
    broadcastInDim S1200000x1 ![0] bcast_S1200000_S1200000x1_0 v j = v (ix1 (j 0)) :=
  broadcastInDim_apply _ _ _ j (ix1 (j 0)) fun a => match a with | ⟨0, _⟩ => rfl

/-- An edge array copied along the 64 columns reads, at [e, q], the array at e. -/
theorem along_apply {α : Type} (v : S1200000.Idx → α) (y : S1200000x64.Idx) :
    broadcastInDim S1200000x64 ![0] bcast_S1200000_S1200000x64_0 v y = v (ix1 (y 0)) :=
  broadcastInDim_apply _ _ _ y (ix1 (y 0)) fun a => match a with | ⟨0, _⟩ => rfl

/-- The in-bounds mask of the lookup, as the program spells it: per edge, the and-reduction along the one-element axis
    of "wrapped ≥ 0 and wrapped ≤ m", `m` the last row's number. -/
def inb (idx : IVec S1200000 32) (n m : BitVec 32) : IVec S1200000 1 :=
  Host.reduce IntOp.andi
    (andi
      (cmpi .sge (broadcastInDim S1200000x1 ![0] bcast_S1200000_S1200000x1_0 (wrapped idx n))
        (broadcastInDim S1200000x1 ![] bcast_S_S1200000x1 (constantI S_ 32 0#32)))
      (cmpi .sle (broadcastInDim S1200000x1 ![0] bcast_S1200000_S1200000x1_0 (wrapped idx n))
        (broadcastInDim S1200000x1 ![0, 1] bcast_S1x1_S1200000x1_0_1
          (broadcastInDim S1x1 ![1] bcast_S1_S1x1_1 (constantI S1 32 m)))))
    (constantI S_ 1 1#1) reducesTo_S1200000x1_S1200000_d1 h_S_

/-- Where every index word's signed value lies in [0, m], the mask is 1 at every edge: no word is wrapped, so each
    tested word is the index word itself, both of its tests hold, and an and-reduction of ones from 1 is 1. -/
theorem inb_eq_one (idx : IVec S1200000 32) (n m : BitVec 32)
    (h : ∀ e : Fin 1200000, 0 ≤ (idx (ix1 e)).toInt ∧ (idx (ix1 e)).toInt ≤ m.toInt) (j : S1200000.Idx) :
    inb idx n m j = 1#1 := by
  refine reduce_andi_one _ _ _ _ j rfl fun i => ?_
  show IntOp.andi
    (IntOp.cmpi .sge (broadcastInDim S1200000x1 ![0] bcast_S1200000_S1200000x1_0 (wrapped idx n) i) 0#32)
    (IntOp.cmpi .sle (broadcastInDim S1200000x1 ![0] bcast_S1200000_S1200000x1_0 (wrapped idx n) i) m) = 1#1
  rw [col_apply, wrapped_apply, wrapWord_of_nonneg _ _ (h (i 0)).1]
  exact inside_word _ _ (h (i 0)).1 (h (i 0)).2

/-- The mask copied along the 64 columns is 1 at every entry under the same hypothesis. -/
theorem mask_one (idx : IVec S1200000 32) (n m : BitVec 32)
    (h : ∀ e : Fin 1200000, 0 ≤ (idx (ix1 e)).toInt ∧ (idx (ix1 e)).toInt ≤ m.toInt) (y : S1200000x64.Idx) :
    broadcastInDim S1200000x64 ![0] bcast_S1200000_S1200000x64_0 (inb idx n m) y = 1#1 := by
  rw [along_apply]
  exact inb_eq_one idx n m h _

/-- Under the range hypothesis the lookup in the 200000-row table keeps every gathered row: its mask is 1 at every entry,
    so the select returns the gathered rows and never the fill. -/
theorem take200_eq_gather (L : FVec Ideal S200000x64 .f32) (idx : IVec S1200000 32)
    (h : ∀ e : Fin 1200000, 0 ≤ (idx (ix1 e)).toInt ∧ (idx (ix1 e)).toInt < 200000) :
    take200 L idx = Host.gather gather_S200000x64_S1200000x1_S1200000x64_1_0_n_n_0_1_164 L
      (broadcastInDim S1200000x1 ![0] bcast_S1200000_S1200000x1_0
        (select (cmpi .slt idx (broadcastInDim S1200000 ![] bcast_S_S1200000 (constantI S_ 32 0#32)))
          (addi idx (broadcastInDim S1200000 ![] bcast_S_S1200000 (constantI S_ 32 200000#32))) idx)) := by
  funext y
  have hm := mask_one idx 200000#32 199999#32 (fun e => ⟨(h e).1, by
    rw [show (199999#32 : BitVec 32).toInt = 199999 from by decide]
    have := (h e).2
    omega⟩) y
  unfold inb wrapped at hm
  unfold take200
  rw [select_apply, hm, select_one]

/-- Under the range hypothesis the lookup in the 100000-row table keeps every gathered row: its mask is 1 at every entry,
    so the select returns the gathered rows and never the fill. -/
theorem take100_eq_gather (L : FVec Ideal S100000x64 .f32) (idx : IVec S1200000 32)
    (h : ∀ e : Fin 1200000, 0 ≤ (idx (ix1 e)).toInt ∧ (idx (ix1 e)).toInt < 100000) :
    take100 L idx = Host.gather gather_S100000x64_S1200000x1_S1200000x64_1_0_n_n_0_1_164 L
      (broadcastInDim S1200000x1 ![0] bcast_S1200000_S1200000x1_0
        (select (cmpi .slt idx (broadcastInDim S1200000 ![] bcast_S_S1200000 (constantI S_ 32 0#32)))
          (addi idx (broadcastInDim S1200000 ![] bcast_S_S1200000 (constantI S_ 32 100000#32))) idx)) := by
  funext y
  have hm := mask_one idx 100000#32 99999#32 (fun e => ⟨(h e).1, by
    rw [show (99999#32 : BitVec 32).toInt = 99999 from by decide]
    have := (h e).2
    omega⟩) y
  unfold inb wrapped at hm
  unfold take100
  rw [select_apply, hm, select_one]

/-- THE LOOKUP IN THE 200000-ROW TABLE IS A SELECTION OF ROWS: with every index word in [0, 200000) the mask keeps every
    gathered row, and the gather at the wrapped words is the table's rows picked by `rowMap`. -/
theorem take200_eq (L : FVec Ideal S200000x64 .f32) (idx : IVec S1200000 32)
    (h : ∀ e : Fin 1200000, 0 ≤ (idx (ix1 e)).toInt ∧ (idx (ix1 e)).toInt < 200000) :
    take200 L idx = Cert.Spec.rows (E := 1200000) (n := 200000) (a := 64)
      (Cert.Lib.rowMap 200000 (by decide) 200000#32 idx) L := by
  rw [take200_eq_gather L idx h]
  exact Cert.Lib.gather_wrapped_rows (by decide) 200000#32 gather_S200000x64_S1200000x1_S1200000x64_1_0_n_n_0_1_164
    gather_S200000x64_S1200000x1_S1200000x64_1_0_n_n_0_1_164_wf rfl L idx bcast_S1200000_S1200000x1_0

/-- THE LOOKUP IN THE 100000-ROW TABLE IS A SELECTION OF ROWS: with every index word in [0, 100000) the mask keeps every
    gathered row, and the gather at the wrapped words is the table's rows picked by `rowMap`. -/
theorem take100_eq (L : FVec Ideal S100000x64 .f32) (idx : IVec S1200000 32)
    (h : ∀ e : Fin 1200000, 0 ≤ (idx (ix1 e)).toInt ∧ (idx (ix1 e)).toInt < 100000) :
    take100 L idx = Cert.Spec.rows (E := 1200000) (n := 100000) (a := 64)
      (Cert.Lib.rowMap 100000 (by decide) 100000#32 idx) L := by
  rw [take100_eq_gather L idx h]
  exact Cert.Lib.gather_wrapped_rows (by decide) 100000#32 gather_S100000x64_S1200000x1_S1200000x64_1_0_n_n_0_1_164
    gather_S100000x64_S1200000x1_S1200000x64_1_0_n_n_0_1_164_wf rfl L idx bcast_S1200000_S1200000x1_0

end Cert.KernelIdeal.Take

end
-- ==== Proof.PreIdx.lean ====
/-
  The precondition's two index-range conjuncts, read back. The printed predicate is a conjunction, by the and of bits, of
  and-reductions to one bit; its last two conjuncts test the two edge-index arrays of 1200000 signed 32-bit words,
  elementwise, against [0, 200000) and [0, 100000). When the predicate is the bit 1, each and in the chain gives both its
  sides, each reduction by and that is 1 had a 1 at every element, and a signed comparison word that is 1 is the
  comparison of the two words' signed values.
-/
import proofs.«429049_j82403242541640_4_alg».proof.Pre_finite_inputs
import Idealize.ShloMosaic.Lib.ReduceAll
import Idealize.ShloMosaic.Lib.StableHlo.Predicate
import Idealize.ShloMosaic.Lib.ValueIdx
import Idealize.ShloMosaic.Lib.Affine
import Idealize.ShloMosaic.PureOps.Ideal

noncomputable section

namespace Cert.PreIdx

open Idealize.ShloMosaic Idealize.ShloMosaic.ValueIdx Cert.Pre_finite_inputs Cert.Pre_finite_inputs.Facts

/-- The rank-0 shape has one index. -/
instance : Subsingleton S_.Idx := ⟨fun a b => funext fun d => d.elim0⟩

variable [Facts]

/-- The range test as it is printed: the elementwise and of "a ≥ 0" and "a < n", both signed, each bound a scalar
    constant broadcast along the array. -/
def rangeMask (a : IVec S1200000 32) (n : BitVec 32) : IVec S1200000 1 :=
  andi (cmpi .sge a (broadcastInDim S1200000 ![] bcast_S_S1200000 (constantI S_ 32 0#32)))
    (cmpi .slt a (broadcastInDim S1200000 ![] bcast_S_S1200000 (constantI S_ 32 n)))

/-- One element of the range test: the mask's bit at e is 1 exactly when both comparisons' are, and those are the
    comparisons of the signed value of a[e] with 0 and with the bound's. -/
theorem rangeMask_elem (a : IVec S1200000 32) (n : BitVec 32) (e : Fin 1200000) (h : rangeMask a n (ix1 e) = 1#1) :
    0 ≤ (a (ix1 e)).toInt ∧ (a (ix1 e)).toInt < n.toInt := by
  obtain ⟨h0, hn⟩ := IntOp.andi_eq_one.1 (show IntOp.andi (IntOp.cmpi .sge (a (ix1 e)) 0#32) (IntOp.cmpi .slt (a (ix1 e)) n) = 1#1 from h)
  exact ⟨by simpa using IntOp.cmpi_sge.1 h0, IntOp.cmpi_slt.1 hn⟩

/-- The all-reduction of the range test is 1: every element is in range. -/
theorem all_rangeMask (a : IVec S1200000 32) (n : BitVec 32)
    (h : Host.reduce IntOp.andi (rangeMask a n) (constantI S_ 1 1#1) reducesTo_S1200000_S_d0 h_S_ ix0 = 1#1) (e : Fin 1200000) :
    0 ≤ (a (ix1 e)).toInt ∧ (a (ix1 e)).toInt < n.toInt :=
  rangeMask_elem a n e (Host.reduce_andi_all _ _ _ _ ix0 h (ix1 e))

/-- THE PRECONDITION DECODED: where the printed predicate of the eighteen arguments is the bit 1, every word of the first
    edge-index array has signed value in [0, 200000) and every word of the second in [0, 100000). Only the last two
    ands of the chain are opened; what the earlier conjuncts say of the float arguments is not used. -/
theorem idx_ranges (a0 : FVec Ideal S200000x7 .f32) (a1 : FVec Ideal S100000x5 .f32) (a2 a3 : IVec S1200000 32)
    (a4 : FVec Ideal S64x7 .f32) (a5 : FVec Ideal S64 .f32) (a6 : FVec Ideal S64x64 .f32) (a7 : FVec Ideal S64 .f32)
    (a8 : FVec Ideal S64x5 .f32) (a9 : FVec Ideal S64 .f32) (a10 : FVec Ideal S64x64 .f32) (a11 : FVec Ideal S64 .f32)
    (a12 : FVec Ideal S2x64x64 .f32) (a13 : FVec Ideal S2x64 .f32) (a14 : FVec Ideal S2x64x64 .f32) (a15 : FVec Ideal S2x64 .f32)
    (a16 : FVec Ideal S1x64 .f32) (a17 : FVec Ideal S1 .f32)
    (h : Cert.Pre_finite_inputs.fn (F := Ideal) a0 a1 a2 a3 a4 a5 a6 a7 a8 a9 a10 a11 a12 a13 a14 a15 a16 a17 = fun _ => 1#1) :
    (∀ e : Fin 1200000, 0 ≤ (a2 (ix1 e)).toInt ∧ (a2 (ix1 e)).toInt < 200000)
      ∧ (∀ e : Fin 1200000, 0 ≤ (a3 (ix1 e)).toInt ∧ (a3 (ix1 e)).toInt < 100000) := by
  have e := congrFun h ix0
  -- the last and: everything before it, and the all-reduction of the second array's test
  obtain ⟨e12, e3⟩ := IntOp.andi_eq_one.1
    (show IntOp.andi (_ : BitVec 1)
      (Host.reduce IntOp.andi (rangeMask a3 100000#32) (constantI S_ 1 1#1) reducesTo_S1200000_S_d0 h_S_ ix0) = 1#1 from e)
  -- the and before it: the float conjuncts, and the all-reduction of the first array's test
  obtain ⟨-, e2⟩ := IntOp.andi_eq_one.1
    (show IntOp.andi (_ : BitVec 1)
      (Host.reduce IntOp.andi (rangeMask a2 200000#32) (constantI S_ 1 1#1) reducesTo_S1200000_S_d0 h_S_ ix0) = 1#1 from e12)
  -- the two bounds' signed values
  have k2 : (200000#32 : BitVec 32).toInt = 200000 := by decide
  have k3 : (100000#32 : BitVec 32).toInt = 100000 := by decide
  exact ⟨fun i => k2 ▸ all_rangeMask a2 200000#32 e2 i, fun i => k3 ▸ all_rangeMask a3 100000#32 e3 i⟩

end Cert.PreIdx

end
-- ==== Proof.RGather.lean ====
/-
  The reference's row lookups: the gather of a table at the wrapped edge indices, laid out as a column of start
  indices, picks the rows the row map names. The index array is wrapped once by the table's length (a select on
  "negative" between the index plus the length and the index: `wrapWord` at every edge), and the gather's record is
  the row lookup's dimension numbers, so each lookup is `Cert.Lib.gather_wrapped_rows` at its table.
-/
import proofs.«429049_j82403242541640_4_alg».proof.ReferenceIdeal
import proofs.«429049_j82403242541640_4_alg».proof.Proof.Gen.ReferenceIdeal
import proofs.«429049_j82403242541640_4_alg».proof.Proof.LibRowMap
import proofs.«429049_j82403242541640_4_alg».proof.Proof.Spec
import proofs.«429049_j82403242541640_4_alg».proof.Proof.LibGatherRows

noncomputable section

namespace Cert.ReferenceIdeal.Gather

open Idealize.ShloMosaic Idealize.ShloMosaic.ValueIdx Cert.ReferenceIdeal Cert.ReferenceIdeal.Facts₀

/-- The lookup in the 200000-row table: the rows `rowMap` names. -/
theorem gather200_eq (X : FVec Ideal S200000x64 .f32) (idx : IVec S1200000 32) :
    Host.gather gather_S200000x64_S1200000x1_S1200000x64_1_0_n_n_0_1_164 X
        (broadcastInDim S1200000x1 ![0] bcast_S1200000_S1200000x1_0
          (select (cmpi .slt idx (broadcastInDim S1200000 ![] bcast_S_S1200000 (constantI S_ 32 0#32)))
            (addi idx (broadcastInDim S1200000 ![] bcast_S_S1200000 (constantI S_ 32 200000#32))) idx))
      = Cert.Spec.rows (E := 1200000) (n := 200000) (a := 64) (Cert.Lib.rowMap 200000 (by decide) 200000#32 idx) X :=
  Cert.Lib.gather_wrapped_rows (n := 200000) (E := 1200000) (k := 64) (by decide) 200000#32
    gather_S200000x64_S1200000x1_S1200000x64_1_0_n_n_0_1_164
    gather_S200000x64_S1200000x1_S1200000x64_1_0_n_n_0_1_164_wf rfl X idx bcast_S1200000_S1200000x1_0

/-- The lookup in the 100000-row table: the rows `rowMap` names. -/
theorem gather100_eq (X : FVec Ideal S100000x64 .f32) (idx : IVec S1200000 32) :
    Host.gather gather_S100000x64_S1200000x1_S1200000x64_1_0_n_n_0_1_164 X
        (broadcastInDim S1200000x1 ![0] bcast_S1200000_S1200000x1_0
          (select (cmpi .slt idx (broadcastInDim S1200000 ![] bcast_S_S1200000 (constantI S_ 32 0#32)))
            (addi idx (broadcastInDim S1200000 ![] bcast_S_S1200000 (constantI S_ 32 100000#32))) idx))
      = Cert.Spec.rows (E := 1200000) (n := 100000) (a := 64) (Cert.Lib.rowMap 100000 (by decide) 100000#32 idx) X :=
  Cert.Lib.gather_wrapped_rows (n := 100000) (E := 1200000) (k := 64) (by decide) 100000#32
    gather_S100000x64_S1200000x1_S1200000x64_1_0_n_n_0_1_164
    gather_S100000x64_S1200000x1_S1200000x64_1_0_n_n_0_1_164_wf rfl X idx bcast_S1200000_S1200000x1_0

end Cert.ReferenceIdeal.Gather

end
-- ==== Proof.RefValue.lean ====
/-
  What the reference program computes, read off its run: the network of `Model` at the reference's own parameters.

  The reference is a chain of host operations. Read stage by stage it is: two encoders (product with a transposed weight,
  bias, tanh, again); then, twice over and in both directions, a lookup of table rows by an edge's index word, the message
  layer on the rows looked up, the messages added up per node into a zero table, and the sum of that with the node table
  under tanh; then one more affine layer, and its one column read as a vector. Each product-plus-bias stage is the affine
  layer of `Spec` (entry by entry a sum over the contracted axis plus the bias entry); each lookup is `Spec.rows` at the row
  map of its index array; the adding-up is kept as the one function both programs share. Composed in program order the
  stages are `Model.net`.
-/
import proofs.«429049_j82403242541640_4_alg».proof.Proof.Gen.ReferenceIdeal.Run
import proofs.«429049_j82403242541640_4_alg».proof.Proof.Gen.ReferenceIdeal.Read
import proofs.«429049_j82403242541640_4_alg».proof.Proof.Model
import proofs.«429049_j82403242541640_4_alg».proof.Proof.RGather

noncomputable section

namespace Cert.ReferenceIdeal.RefValue

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read Cert.Spec
open scoped BigOperators

/-! ## The network's inputs, as the reference makes them from its arguments -/

/-- The reference's parameters: the two feature tables as given; every weight transposed as the reference transposes it
    before its product (the two message layers' weights first cut out of their stack of two, round by round); every bias
    as given, the message layers' cut out of their stack likewise. -/
def params (a0 : FVec Ideal S200000x7 .f32) (a1 : FVec Ideal S100000x5 .f32)
    (a4 : FVec Ideal S64x7 .f32) (a5 : FVec Ideal S64 .f32) (a6 : FVec Ideal S64x64 .f32) (a7 : FVec Ideal S64 .f32)
    (a8 : FVec Ideal S64x5 .f32) (a9 : FVec Ideal S64 .f32) (a10 : FVec Ideal S64x64 .f32) (a11 : FVec Ideal S64 .f32)
    (a12 : FVec Ideal S2x64x64 .f32) (a13 : FVec Ideal S2x64 .f32) (a14 : FVec Ideal S2x64x64 .f32) (a15 : FVec Ideal S2x64 .f32)
    (a16 : FVec Ideal S1x64 .f32) (a17 : FVec Ideal S1 .f32) : Cert.Model.Params where
  xv := a0
  xc := a1
  wv1 := transpose S7x64 [1, 0] a4 transposes_S64x7_S7x64_1_0
  bv1 := a5
  wv2 := transpose S64x64 [1, 0] a6 transposes_S64x64_S64x64_1_0
  bv2 := a7
  wc1 := transpose S5x64 [1, 0] a8 transposes_S64x5_S5x64_1_0
  bc1 := a9
  wc2 := transpose S64x64 [1, 0] a10 transposes_S64x64_S64x64_1_0
  bc2 := a11
  wvc0 := transpose S64x64 [1, 0] (shapeCast S64x64 (extractStridedSlice S1x64x64 ![0, 0, 0] a12 slices_S2x64x64_S1x64x64_0_0_0) shapeCasts_S1x64x64_S64x64) transposes_S64x64_S64x64_1_0
  bvc0 := shapeCast S64 (extractStridedSlice S1x64 ![0, 0] a13 slices_S2x64_S1x64_0_0) shapeCasts_S1x64_S64
  wvc1 := transpose S64x64 [1, 0] (shapeCast S64x64 (extractStridedSlice S1x64x64 ![1, 0, 0] a12 slices_S2x64x64_S1x64x64_1_0_0) shapeCasts_S1x64x64_S64x64) transposes_S64x64_S64x64_1_0
  bvc1 := shapeCast S64 (extractStridedSlice S1x64 ![1, 0] a13 slices_S2x64_S1x64_1_0) shapeCasts_S1x64_S64
  wcv0 := transpose S64x64 [1, 0] (shapeCast S64x64 (extractStridedSlice S1x64x64 ![0, 0, 0] a14 slices_S2x64x64_S1x64x64_0_0_0) shapeCasts_S1x64x64_S64x64) transposes_S64x64_S64x64_1_0
  bcv0 := shapeCast S64 (extractStridedSlice S1x64 ![0, 0] a15 slices_S2x64_S1x64_0_0) shapeCasts_S1x64_S64
  wcv1 := transpose S64x64 [1, 0] (shapeCast S64x64 (extractStridedSlice S1x64x64 ![1, 0, 0] a14 slices_S2x64x64_S1x64x64_1_0_0) shapeCasts_S1x64x64_S64x64) transposes_S64x64_S64x64_1_0
  bcv1 := shapeCast S64 (extractStridedSlice S1x64 ![1, 0] a15 slices_S2x64_S1x64_1_0) shapeCasts_S1x64_S64
  wro := transpose S64x1 [1, 0] a16 transposes_S1x64_S64x1_1_0
  bro := a17

/-- Which row of the variable table an edge reads: its first index word, wrapped once and clamped. -/
def rv (a2 : IVec S1200000 32) : Fin 1200000 → Fin 200000 := Cert.Lib.rowMap 200000 (by decide) 200000#32 a2
/-- Which row of the constraint table an edge reads: its second index word, wrapped once and clamped. -/
def rc (a3 : IVec S1200000 32) : Fin 1200000 → Fin 100000 := Cert.Lib.rowMap 100000 (by decide) 100000#32 a3

/-- The messages of the edges added up per constraint: the reference's own accumulation into a zero table at the
    second index array. It is never opened: both programs apply this one function to equal tables of messages. -/
def aggC (a3 : IVec S1200000 32) : Mat 1200000 64 → Mat 100000 64 := fun u =>
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 a3) u
/-- The messages of the edges added up per variable: the same accumulation at the first index array. -/
def aggV (a2 : IVec S1200000 32) : Mat 1200000 64 → Mat 200000 64 := fun u =>
  Host.scatterAdd (F := Ideal) scatter_S200000x64_S1200000x1_S1200000x64_1_0_0_1
    (broadcastInDim S200000x64 ![] bcast_S_S200000x64 (constant (F := Ideal) S_ .f32 0x00000000#32))
    (broadcastInDim S1200000x1 ![0] bcast_S1200000_S1200000x1_0 a2) u

/-- The reference's result: the network's one-column table of scores read as a vector. -/
def out (a0 : FVec Ideal S200000x7 .f32) (a1 : FVec Ideal S100000x5 .f32) (a2 a3 : IVec S1200000 32)
    (a4 : FVec Ideal S64x7 .f32) (a5 : FVec Ideal S64 .f32) (a6 : FVec Ideal S64x64 .f32) (a7 : FVec Ideal S64 .f32)
    (a8 : FVec Ideal S64x5 .f32) (a9 : FVec Ideal S64 .f32) (a10 : FVec Ideal S64x64 .f32) (a11 : FVec Ideal S64 .f32)
    (a12 : FVec Ideal S2x64x64 .f32) (a13 : FVec Ideal S2x64 .f32) (a14 : FVec Ideal S2x64x64 .f32) (a15 : FVec Ideal S2x64 .f32)
    (a16 : FVec Ideal S1x64 .f32) (a17 : FVec Ideal S1 .f32) : FVec Ideal S200000 .f32 :=
  shapeCast S200000 (Cert.Model.net (params a0 a1 a4 a5 a6 a7 a8 a9 a10 a11 a12 a13 a14 a15 a16 a17) (rv a2) (rc a3) (aggC a3) (aggV a2))
    shapeCasts_S200000x1_S200000

/-! ## Three laws every stage uses -/

/-- A table whose entry `(p, q)` is the sum over `k` of `h` at `(p, k)` times `wt` at `(k, q)`, plus `b` at `q`, is the
    affine layer of `h` — by whatever names the three index maps go, once each is the evident one. -/
theorem affine_of {n a o : ℕ} (y : Mat n o) (h : Mat n a) (wt : Mat a o) (b : Row o)
    (li : (⟨2, ![n, o]⟩ : Shape).Idx → Fin a → (⟨2, ![n, a]⟩ : Shape).Idx)
    (ri : (⟨2, ![n, o]⟩ : Shape).Idx → Fin a → (⟨2, ![a, o]⟩ : Shape).Idx)
    (bi : (⟨2, ![n, o]⟩ : Shape).Idx → (⟨1, ![o]⟩ : Shape).Idx)
    (hl : ∀ i k, li i k = ix2 (n0 := n) (n1 := a) (i 0) k)
    (hr : ∀ i k, ri i k = ix2 (n0 := a) (n1 := o) k (i 1))
    (hb : ∀ i, bi i = ix1 (n := o) (i 1))
    (hy : ∀ i, y i = (∑ k : Fin a, h (li i k) * wt (ri i k)) + b (bi i)) : y = affine h wt b := by
  funext i
  rw [hy i, hb i]
  unfold affine
  exact congrArg (· + b (ix1 (n := o) (i 1))) (Finset.sum_congr rfl fun k _ => by rw [hl i k, hr i k])

/-- `tanh` of a table, entry by entry. -/
theorem tanh_eq {n a : ℕ} (x : Mat n a) : Host.tanh (F := Ideal) (φ := .f32) x = tanhM x := rfl

/-- The sum of a table and the aggregated messages, then `tanh`: the message-passing update. -/
theorem update_eq {n a : ℕ} (d g : Mat n a) :
    Host.tanh (F := Ideal) (φ := .f32) (addf (F := Ideal) (φ := .f32) d g) = update d g := rfl

/-! ## The stages, in program order

  Every argument array is a variable; `P` is the record of parameters made from them. -/

variable (a0 : FVec Ideal S200000x7 .f32) (a1 : FVec Ideal S100000x5 .f32) (a2 a3 : IVec S1200000 32)
  (a4 : FVec Ideal S64x7 .f32) (a5 : FVec Ideal S64 .f32) (a6 : FVec Ideal S64x64 .f32) (a7 : FVec Ideal S64 .f32)
  (a8 : FVec Ideal S64x5 .f32) (a9 : FVec Ideal S64 .f32) (a10 : FVec Ideal S64x64 .f32) (a11 : FVec Ideal S64 .f32)
  (a12 : FVec Ideal S2x64x64 .f32) (a13 : FVec Ideal S2x64 .f32) (a14 : FVec Ideal S2x64x64 .f32) (a15 : FVec Ideal S2x64 .f32)
  (a16 : FVec Ideal S1x64 .f32) (a17 : FVec Ideal S1 .f32)

local notation "P" => params a0 a1 a4 a5 a6 a7 a8 a9 a10 a11 a12 a13 a14 a15 a16 a17

/-! In each product-plus-bias stage below the three index maps are read off coordinate by coordinate: the left factor is
    taken at row `i 0` and the contracted position, the right factor at the contracted position and column `i 1`, the bias
    (a vector first laid along one row, then along every row) at column `i 1`. -/

/-! ### The two encoders -/

/-- The variable encoder's first layer: the features times the transposed weight, plus the bias along every row. -/
theorem aff_v4 : val_main_v4 (F := Ideal) a0 a4 a5 = affine a0 (val_main_v0 (F := Ideal) a4) a5 :=
  affine_of _ _ _ _ lidx_main_v1 ridx_main_v1 (fun i => idx_main_v2 (idx_main_v3 i))
    (fun i k => funext fun d => Fin.ext (by match d with | ⟨0, _⟩ => rfl | ⟨1, _⟩ => rfl))
    (fun i k => funext fun d => Fin.ext (by match d with | ⟨0, _⟩ => rfl | ⟨1, _⟩ => rfl))
    (fun i => funext fun d => Fin.ext (by match d with | ⟨0, _⟩ => rfl))
    (fun i => by rw [val_main_v4_apply, Ideal.addf_def, val_main_v1_apply, val_main_v3_apply, val_main_v2_apply])

/-- Its second layer, on the first layer's `tanh`. -/
theorem aff_v10 : val_main_v10 (F := Ideal) a0 a4 a5 a6 a7
    = affine (val_main_v5 (F := Ideal) a0 a4 a5) (val_main_v6 (F := Ideal) a6) a7 :=
  affine_of _ _ _ _ lidx_main_v7 ridx_main_v7 (fun i => idx_main_v8 (idx_main_v9 i))
    (fun i k => funext fun d => Fin.ext (by match d with | ⟨0, _⟩ => rfl | ⟨1, _⟩ => rfl))
    (fun i k => funext fun d => Fin.ext (by match d with | ⟨0, _⟩ => rfl | ⟨1, _⟩ => rfl))
    (fun i => funext fun d => Fin.ext (by match d with | ⟨0, _⟩ => rfl))
    (fun i => by rw [val_main_v10_apply, Ideal.addf_def, val_main_v7_apply, val_main_v9_apply, val_main_v8_apply])

/-- The encoded variable table. -/
theorem hv0_eq : val_main_v10 (F := Ideal) a0 a4 a5 a6 a7 = Cert.Model.hv0 P := by
  rw [aff_v10, show val_main_v5 (F := Ideal) a0 a4 a5 = tanhM (val_main_v4 (F := Ideal) a0 a4 a5) from rfl, aff_v4]
  rfl

/-- The constraint encoder's first layer. -/
theorem aff_v15 : val_main_v15 (F := Ideal) a1 a8 a9 = affine a1 (val_main_v11 (F := Ideal) a8) a9 :=
  affine_of _ _ _ _ lidx_main_v12 ridx_main_v12 (fun i => idx_main_v13 (idx_main_v14 i))
    (fun i k => funext fun d => Fin.ext (by match d with | ⟨0, _⟩ => rfl | ⟨1, _⟩ => rfl))
    (fun i k => funext fun d => Fin.ext (by match d with | ⟨0, _⟩ => rfl | ⟨1, _⟩ => rfl))
    (fun i => funext fun d => Fin.ext (by match d with | ⟨0, _⟩ => rfl))
    (fun i => by rw [val_main_v15_apply, Ideal.addf_def, val_main_v12_apply, val_main_v14_apply, val_main_v13_apply])

/-- Its second layer. -/
theorem aff_v21 : val_main_v21 (F := Ideal) a1 a8 a9 a10 a11
    = affine (val_main_v16 (F := Ideal) a1 a8 a9) (val_main_v17 (F := Ideal) a10) a11 :=
  affine_of _ _ _ _ lidx_main_v18 ridx_main_v18 (fun i => idx_main_v19 (idx_main_v20 i))
    (fun i k => funext fun d => Fin.ext (by match d with | ⟨0, _⟩ => rfl | ⟨1, _⟩ => rfl))
    (fun i k => funext fun d => Fin.ext (by match d with | ⟨0, _⟩ => rfl | ⟨1, _⟩ => rfl))
    (fun i => funext fun d => Fin.ext (by match d with | ⟨0, _⟩ => rfl))
    (fun i => by rw [val_main_v21_apply, Ideal.addf_def, val_main_v18_apply, val_main_v20_apply, val_main_v19_apply])

/-- The encoded constraint table. -/
theorem hc0_eq : val_main_v21 (F := Ideal) a1 a8 a9 a10 a11 = Cert.Model.hc0 P := by
  rw [aff_v21, show val_main_v16 (F := Ideal) a1 a8 a9 = tanhM (val_main_v15 (F := Ideal) a1 a8 a9) from rfl, aff_v15]
  rfl

/-! ### Round one, variables to constraints -/

/-- The rows of the variable table the edges read. -/
theorem gat_v28 : val_main_v28 (F := Ideal) a0 a2 a4 a5 a6 a7
    = rows (rv a2) (val_main_v10 (F := Ideal) a0 a4 a5 a6 a7) := by
  unfold val_main_v28 val_main_v27 val_main_v26 val_main_v25 val_main_v24 val_main_v23 val_main_v22 val_main_c val_main_c_0
  exact Cert.ReferenceIdeal.Gather.gather200_eq _ _

/-- The message layer on those rows. -/
theorem aff_v37 : val_main_v37 (F := Ideal) a0 a2 a4 a5 a6 a7 a12 a13
    = affine (val_main_v28 (F := Ideal) a0 a2 a4 a5 a6 a7) (val_main_v31 (F := Ideal) a12) (val_main_v34 (F := Ideal) a13) :=
  affine_of _ _ _ _ lidx_main_v32 ridx_main_v32 (fun i => idx_main_v35 (idx_main_v36 i))
    (fun i k => funext fun d => Fin.ext (by match d with | ⟨0, _⟩ => rfl | ⟨1, _⟩ => rfl))
    (fun i k => funext fun d => Fin.ext (by match d with | ⟨0, _⟩ => rfl | ⟨1, _⟩ => rfl))
    (fun i => funext fun d => Fin.ext (by match d with | ⟨0, _⟩ => rfl))
    (fun i => by rw [val_main_v37_apply, Ideal.addf_def, val_main_v32_apply, val_main_v36_apply, val_main_v35_apply])

/-- The constraint table after round one. -/
theorem hc1_eq : val_main_v42 (F := Ideal) a0 a1 a2 a3 a4 a5 a6 a7 a8 a9 a10 a11 a12 a13 = Cert.Model.hc1 P (rv a2) (aggC a3) := by
  unfold val_main_v42 val_main_v41 val_main_v40
  rw [aff_v37, gat_v28, hv0_eq a0 a1 a4 a5 a6 a7 a8 a9 a10 a11 a12 a13 a14 a15 a16 a17, hc0_eq a0 a1 a4 a5 a6 a7 a8 a9 a10 a11 a12 a13 a14 a15 a16 a17, update_eq]
  rfl

/-! ### Round one, constraints to variables -/

/-- The rows of the updated constraint table the edges read. -/
theorem gat_v49 : val_main_v49 (F := Ideal) a0 a1 a2 a3 a4 a5 a6 a7 a8 a9 a10 a11 a12 a13
    = rows (rc a3) (val_main_v42 (F := Ideal) a0 a1 a2 a3 a4 a5 a6 a7 a8 a9 a10 a11 a12 a13) := by
  unfold val_main_v49 val_main_v48 val_main_v47 val_main_v46 val_main_v45 val_main_v44 val_main_v43 val_main_c_1 val_main_c_2
  exact Cert.ReferenceIdeal.Gather.gather100_eq _ _

/-- The message layer on those rows. -/
theorem aff_v58 : val_main_v58 (F := Ideal) a0 a1 a2 a3 a4 a5 a6 a7 a8 a9 a10 a11 a12 a13 a14 a15
    = affine (val_main_v49 (F := Ideal) a0 a1 a2 a3 a4 a5 a6 a7 a8 a9 a10 a11 a12 a13) (val_main_v52 (F := Ideal) a14) (val_main_v55 (F := Ideal) a15) :=
  affine_of _ _ _ _ lidx_main_v53 ridx_main_v53 (fun i => idx_main_v56 (idx_main_v57 i))
    (fun i k => funext fun d => Fin.ext (by match d with | ⟨0, _⟩ => rfl | ⟨1, _⟩ => rfl))
    (fun i k => funext fun d => Fin.ext (by match d with | ⟨0, _⟩ => rfl | ⟨1, _⟩ => rfl))
    (fun i => funext fun d => Fin.ext (by match d with | ⟨0, _⟩ => rfl))
    (fun i => by rw [val_main_v58_apply, Ideal.addf_def, val_main_v53_apply, val_main_v57_apply, val_main_v56_apply])

/-- The variable table after round one. -/
theorem hv1_eq : val_main_v63 (F := Ideal) a0 a1 a2 a3 a4 a5 a6 a7 a8 a9 a10 a11 a12 a13 a14 a15 = Cert.Model.hv1 P (rv a2) (rc a3) (aggC a3) (aggV a2) := by
  unfold val_main_v63 val_main_v62 val_main_v61
  rw [aff_v58, gat_v49, hc1_eq a0 a1 a2 a3 a4 a5 a6 a7 a8 a9 a10 a11 a12 a13 a14 a15 a16 a17, hv0_eq a0 a1 a4 a5 a6 a7 a8 a9 a10 a11 a12 a13 a14 a15 a16 a17, update_eq]
  rfl

/-! ### Round two, variables to constraints -/

/-- The rows of the variable table after round one that the edges read. -/
theorem gat_v70 : val_main_v70 (F := Ideal) a0 a1 a2 a3 a4 a5 a6 a7 a8 a9 a10 a11 a12 a13 a14 a15
    = rows (rv a2) (val_main_v63 (F := Ideal) a0 a1 a2 a3 a4 a5 a6 a7 a8 a9 a10 a11 a12 a13 a14 a15) := by
  unfold val_main_v70 val_main_v69 val_main_v68 val_main_v67 val_main_v66 val_main_v65 val_main_v64 val_main_c_4 val_main_c_5
  exact Cert.ReferenceIdeal.Gather.gather200_eq _ _

/-- The second round's message layer on those rows. -/
theorem aff_v79 : val_main_v79 (F := Ideal) a0 a1 a2 a3 a4 a5 a6 a7 a8 a9 a10 a11 a12 a13 a14 a15
    = affine (val_main_v70 (F := Ideal) a0 a1 a2 a3 a4 a5 a6 a7 a8 a9 a10 a11 a12 a13 a14 a15) (val_main_v73 (F := Ideal) a12) (val_main_v76 (F := Ideal) a13) :=
  affine_of _ _ _ _ lidx_main_v74 ridx_main_v74 (fun i => idx_main_v77 (idx_main_v78 i))
    (fun i k => funext fun d => Fin.ext (by match d with | ⟨0, _⟩ => rfl | ⟨1, _⟩ => rfl))
    (fun i k => funext fun d => Fin.ext (by match d with | ⟨0, _⟩ => rfl | ⟨1, _⟩ => rfl))
    (fun i => funext fun d => Fin.ext (by match d with | ⟨0, _⟩ => rfl))
    (fun i => by rw [val_main_v79_apply, Ideal.addf_def, val_main_v74_apply, val_main_v78_apply, val_main_v77_apply])

/-- The constraint table after round two. -/
theorem hc2_eq : val_main_v84 (F := Ideal) a0 a1 a2 a3 a4 a5 a6 a7 a8 a9 a10 a11 a12 a13 a14 a15 = Cert.Model.hc2 P (rv a2) (rc a3) (aggC a3) (aggV a2) := by
  unfold val_main_v84 val_main_v83 val_main_v82
  rw [aff_v79, gat_v70, hv1_eq a0 a1 a2 a3 a4 a5 a6 a7 a8 a9 a10 a11 a12 a13 a14 a15 a16 a17, hc1_eq a0 a1 a2 a3 a4 a5 a6 a7 a8 a9 a10 a11 a12 a13 a14 a15 a16 a17, update_eq]
  rfl

/-! ### Round two, constraints to variables -/

/-- The rows of the constraint table after round two that the edges read. -/
theorem gat_v91 : val_main_v91 (F := Ideal) a0 a1 a2 a3 a4 a5 a6 a7 a8 a9 a10 a11 a12 a13 a14 a15
    = rows (rc a3) (val_main_v84 (F := Ideal) a0 a1 a2 a3 a4 a5 a6 a7 a8 a9 a10 a11 a12 a13 a14 a15) := by
  unfold val_main_v91 val_main_v90 val_main_v89 val_main_v88 val_main_v87 val_main_v86 val_main_v85 val_main_c_7 val_main_c_8
  exact Cert.ReferenceIdeal.Gather.gather100_eq _ _

/-- The second round's message layer on those rows. -/
theorem aff_v100 : val_main_v100 (F := Ideal) a0 a1 a2 a3 a4 a5 a6 a7 a8 a9 a10 a11 a12 a13 a14 a15
    = affine (val_main_v91 (F := Ideal) a0 a1 a2 a3 a4 a5 a6 a7 a8 a9 a10 a11 a12 a13 a14 a15) (val_main_v94 (F := Ideal) a14) (val_main_v97 (F := Ideal) a15) :=
  affine_of _ _ _ _ lidx_main_v95 ridx_main_v95 (fun i => idx_main_v98 (idx_main_v99 i))
    (fun i k => funext fun d => Fin.ext (by match d with | ⟨0, _⟩ => rfl | ⟨1, _⟩ => rfl))
    (fun i k => funext fun d => Fin.ext (by match d with | ⟨0, _⟩ => rfl | ⟨1, _⟩ => rfl))
    (fun i => funext fun d => Fin.ext (by match d with | ⟨0, _⟩ => rfl))
    (fun i => by rw [val_main_v100_apply, Ideal.addf_def, val_main_v95_apply, val_main_v99_apply, val_main_v98_apply])

/-- The variable table after round two. -/
theorem hv2_eq : val_main_v105 (F := Ideal) a0 a1 a2 a3 a4 a5 a6 a7 a8 a9 a10 a11 a12 a13 a14 a15 = Cert.Model.hv2 P (rv a2) (rc a3) (aggC a3) (aggV a2) := by
  unfold val_main_v105 val_main_v104 val_main_v103
  rw [aff_v100, gat_v91, hc2_eq a0 a1 a2 a3 a4 a5 a6 a7 a8 a9 a10 a11 a12 a13 a14 a15 a16 a17, hv1_eq a0 a1 a2 a3 a4 a5 a6 a7 a8 a9 a10 a11 a12 a13 a14 a15 a16 a17, update_eq]
  rfl

/-! ### The readout -/

/-- One score per variable: the last table times the transposed readout weight, plus the one bias entry. The bias index
    is the only index of a one-entry array. -/
theorem aff_v110 : val_main_v110 (F := Ideal) a0 a1 a2 a3 a4 a5 a6 a7 a8 a9 a10 a11 a12 a13 a14 a15 a16 a17
    = affine (val_main_v105 (F := Ideal) a0 a1 a2 a3 a4 a5 a6 a7 a8 a9 a10 a11 a12 a13 a14 a15) (val_main_v106 (F := Ideal) a16) a17 :=
  affine_of _ _ _ _ lidx_main_v107 ridx_main_v107 (fun i => idx_main_v108 (idx_main_v109 i))
    (fun i k => funext fun d => Fin.ext (by match d with | ⟨0, _⟩ => rfl | ⟨1, _⟩ => rfl))
    (fun i k => funext fun d => Fin.ext (by match d with | ⟨0, _⟩ => rfl | ⟨1, _⟩ => rfl))
    (fun i => funext fun d => Fin.ext (by match d with | ⟨0, _⟩ => exact (Nat.lt_one_iff.mp (idx2_lt1 i)).symm))
    (fun i => by rw [val_main_v110_apply, Ideal.addf_def, val_main_v107_apply, val_main_v109_apply, val_main_v108_apply])

/-- The whole network, as a one-column table. -/
theorem net_eq : val_main_v110 (F := Ideal) a0 a1 a2 a3 a4 a5 a6 a7 a8 a9 a10 a11 a12 a13 a14 a15 a16 a17 = Cert.Model.net P (rv a2) (rc a3) (aggC a3) (aggV a2) := by
  rw [aff_v110, hv2_eq a0 a1 a2 a3 a4 a5 a6 a7 a8 a9 a10 a11 a12 a13 a14 a15 a16 a17]
  rfl

/-- The reference's last stage is `out`. -/
theorem out_eq : val_main_v111 (F := Ideal) a0 a1 a2 a3 a4 a5 a6 a7 a8 a9 a10 a11 a12 a13 a14 a15 a16 a17 = out a0 a1 a2 a3 a4 a5 a6 a7 a8 a9 a10 a11 a12 a13 a14 a15 a16 a17 := by
  unfold val_main_v111 out
  rw [net_eq a0 a1 a2 a3 a4 a5 a6 a7 a8 a9 a10 a11 a12 a13 a14 a15 a16 a17]

/-! ## The run -/

/-- Every weakly fair execution of the reference terminates with its result at `out` of the argument arrays' launch
    contents, the arguments unchanged: the generated run, its composed term read as the stages above. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v111)
        = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
      ⟨(h c).1.trans ((val_main_v111_eq m c).trans (out_eq _ _ _ _ _ _ _ _ _ _ _ _ _ _ _ _ _ _)), (h c).2⟩)
    (Cert.ReferenceIdeal.Value.run (F := Ideal) m ρ)

end Cert.ReferenceIdeal.RefValue

end
-- ==== Proof.WeightLayout.lean ====
/-
  One round's weight cut out of a stack of matrices, in two orders.

  A stack `W` of `m` matrices `[a, b]` can be transposed layer by layer and then cut at layer `o`, or cut at layer `o`
  and then transposed: both read `W (o, i, j)` at `(j, i)`. Cutting ONE layer leaves a leading axis of extent one, which a
  cast to the matrix's shape drops. The laws here read every operation at an index given by its coordinates.
-/
import Idealize.ShloMosaic.Lib.ValueIdx
import Idealize.ShloMosaic.Lib.ValueLayout
import Idealize.ShloMosaic.Lib.Pipeline.Value

namespace Cert.WeightLayout

open Idealize.ShloMosaic Idealize.ShloMosaic.ValueIdx

variable {α : Type}

/-- One layer cut out of a stack from layer `o` reads, at `(u, i, j)`, the stack at `(k, i, j)` with `k = o`
    (the unit coordinate `u` is zero). -/
theorem slice_layer_apply {m a b : ℕ} (o : ℕ) (X : (⟨3, ![m, a, b]⟩ : Shape).Idx → α)
    (h : (⟨3, ![m, a, b]⟩ : Shape).Slices ![o, 0, 0] ⟨3, ![1, a, b]⟩)
    (u : Fin 1) (i : Fin a) (j : Fin b) (k : Fin m) (hk : k.val = o) :
    extractStridedSlice ⟨3, ![1, a, b]⟩ ![o, 0, 0] X h (ix3 u i j) = X (ix3 k i j) :=
  extractStridedSlice_apply _ _ _ _ _ (fun ax => by
    match ax with
    | ⟨0, _⟩ =>
      show k.val = o + u.val
      have hu : u.val = 0 := by omega
      rw [hk, hu, Nat.add_zero]
    | ⟨1, _⟩ => exact (Nat.zero_add _).symm
    | ⟨2, _⟩ => exact (Nat.zero_add _).symm)

/-- The layer a one-layer cut from `o` starts at is a layer of the stack. -/
theorem layer_lt {m a b : ℕ} {o : ℕ} (h : (⟨3, ![m, a, b]⟩ : Shape).Slices ![o, 0, 0] ⟨3, ![1, a, b]⟩) : o < m :=
  Nat.lt_of_lt_of_le (Nat.lt_succ_self o) (h.2 0)

/-- TRANSPOSE THE STACK, THEN CUT LAYER `o` = CUT LAYER `o`, THEN TRANSPOSE IT: both are `W (o, i, j)` at `(j, i)`. -/
theorem slice_transpose_at {m a b : ℕ} (o : ℕ) (W : (⟨3, ![m, a, b]⟩ : Shape).Idx → α)
    (hT3 : (⟨3, ![m, a, b]⟩ : Shape).Transposes [0, 2, 1] ⟨3, ![m, b, a]⟩)
    (hS : (⟨3, ![m, b, a]⟩ : Shape).Slices ![o, 0, 0] ⟨3, ![1, b, a]⟩)
    (hS' : (⟨3, ![m, a, b]⟩ : Shape).Slices ![o, 0, 0] ⟨3, ![1, a, b]⟩)
    (hC : (⟨3, ![1, b, a]⟩ : Shape).ShapeCasts ⟨2, ![b, a]⟩)
    (hC' : (⟨3, ![1, a, b]⟩ : Shape).ShapeCasts ⟨2, ![a, b]⟩)
    (hT2 : (⟨2, ![a, b]⟩ : Shape).Transposes [1, 0] ⟨2, ![b, a]⟩) :
    shapeCast ⟨2, ![b, a]⟩ (extractStridedSlice ⟨3, ![1, b, a]⟩ ![o, 0, 0] (transpose ⟨3, ![m, b, a]⟩ [0, 2, 1] W hT3) hS) hC
      = transpose ⟨2, ![b, a]⟩ [1, 0] (shapeCast ⟨2, ![a, b]⟩ (extractStridedSlice ⟨3, ![1, a, b]⟩ ![o, 0, 0] W hS') hC') hT2 := by
  funext x
  obtain ⟨j, i, rfl⟩ : ∃ (j : Fin b) (i : Fin a), x = ix2 j i := ⟨x 0, x 1, eq_ix2 x⟩
  have ho : o < m := layer_lt hS'
  refine (shapeCast_1ab_ab_apply _ hC j i).trans ?_
  refine (slice_layer_apply o _ hS (0 : Fin 1) j i ⟨o, ho⟩ rfl).trans ?_
  refine (transpose_ix3_021_apply W hT3 ⟨o, ho⟩ j i).trans ?_
  refine Eq.symm ?_
  refine (transpose_ix2_apply _ hT2 j i).trans ?_
  refine (shapeCast_1ab_ab_apply _ hC' i j).trans ?_
  exact slice_layer_apply o W hS' (0 : Fin 1) i j ⟨o, ho⟩ rfl

/-- The same for a stack of two `[64, 64]` matrices and round `r`. -/
theorem slice_transpose (r : Fin 2) (W : (⟨3, ![2, 64, 64]⟩ : Shape).Idx → α)
    (hT3 : (⟨3, ![2, 64, 64]⟩ : Shape).Transposes [0, 2, 1] ⟨3, ![2, 64, 64]⟩)
    (hS hS' : (⟨3, ![2, 64, 64]⟩ : Shape).Slices ![r.val, 0, 0] ⟨3, ![1, 64, 64]⟩)
    (hC hC' : (⟨3, ![1, 64, 64]⟩ : Shape).ShapeCasts ⟨2, ![64, 64]⟩)
    (hT2 : (⟨2, ![64, 64]⟩ : Shape).Transposes [1, 0] ⟨2, ![64, 64]⟩) :
    shapeCast ⟨2, ![64, 64]⟩ (extractStridedSlice ⟨3, ![1, 64, 64]⟩ ![r.val, 0, 0] (transpose ⟨3, ![2, 64, 64]⟩ [0, 2, 1] W hT3) hS) hC
      = transpose ⟨2, ![64, 64]⟩ [1, 0] (shapeCast ⟨2, ![64, 64]⟩ (extractStridedSlice ⟨3, ![1, 64, 64]⟩ ![r.val, 0, 0] W hS') hC') hT2 :=
  slice_transpose_at r.val W hT3 hS hS' hC hC' hT2

/-- Round 0, the start vector written as the literal `![0, 0, 0]`. -/
theorem slice_transpose_0 (W : (⟨3, ![2, 64, 64]⟩ : Shape).Idx → α)
    (hT3 : (⟨3, ![2, 64, 64]⟩ : Shape).Transposes [0, 2, 1] ⟨3, ![2, 64, 64]⟩)
    (hS hS' : (⟨3, ![2, 64, 64]⟩ : Shape).Slices ![0, 0, 0] ⟨3, ![1, 64, 64]⟩)
    (hC hC' : (⟨3, ![1, 64, 64]⟩ : Shape).ShapeCasts ⟨2, ![64, 64]⟩)
    (hT2 : (⟨2, ![64, 64]⟩ : Shape).Transposes [1, 0] ⟨2, ![64, 64]⟩) :
    shapeCast ⟨2, ![64, 64]⟩ (extractStridedSlice ⟨3, ![1, 64, 64]⟩ ![0, 0, 0] (transpose ⟨3, ![2, 64, 64]⟩ [0, 2, 1] W hT3) hS) hC
      = transpose ⟨2, ![64, 64]⟩ [1, 0] (shapeCast ⟨2, ![64, 64]⟩ (extractStridedSlice ⟨3, ![1, 64, 64]⟩ ![0, 0, 0] W hS') hC') hT2 :=
  slice_transpose_at 0 W hT3 hS hS' hC hC' hT2

/-- Round 1, the start vector written as the literal `![1, 0, 0]`. -/
theorem slice_transpose_1 (W : (⟨3, ![2, 64, 64]⟩ : Shape).Idx → α)
    (hT3 : (⟨3, ![2, 64, 64]⟩ : Shape).Transposes [0, 2, 1] ⟨3, ![2, 64, 64]⟩)
    (hS hS' : (⟨3, ![2, 64, 64]⟩ : Shape).Slices ![1, 0, 0] ⟨3, ![1, 64, 64]⟩)
    (hC hC' : (⟨3, ![1, 64, 64]⟩ : Shape).ShapeCasts ⟨2, ![64, 64]⟩)
    (hT2 : (⟨2, ![64, 64]⟩ : Shape).Transposes [1, 0] ⟨2, ![64, 64]⟩) :
    shapeCast ⟨2, ![64, 64]⟩ (extractStridedSlice ⟨3, ![1, 64, 64]⟩ ![1, 0, 0] (transpose ⟨3, ![2, 64, 64]⟩ [0, 2, 1] W hT3) hS) hC
      = transpose ⟨2, ![64, 64]⟩ [1, 0] (shapeCast ⟨2, ![64, 64]⟩ (extractStridedSlice ⟨3, ![1, 64, 64]⟩ ![1, 0, 0] W hS') hC') hT2 :=
  slice_transpose_at 1 W hT3 hS hS' hC hC' hT2

end Cert.WeightLayout
-- ==== Proof.lean ====
/-
  The certificate: the kernel program of six pipelined regions (two encoders, four table updates, the last with the
  readout) against the reference's plain host program, equal over the extended reals.

  Both programs compute the network of `Model`: node tables encoded by affine–tanh–affine layers, two rounds of
  messages along the edges of a bipartite graph, a readout. The reference looks a node's row up for every edge and
  applies the message layer to the looked-up rows; the kernel program applies the message layer to the whole node
  table (inside the region that produced the table) and looks rows up afterwards. An affine layer acts on each row by
  itself, so the two orders give the same per-edge messages (`Model.netTable_eq_net`). The kernel program's lookup also
  fills a row with a fixed word where its edge index is out of range; under the precondition every edge index is in
  range, the fill never happens, and both lookups pick the same rows (`Take.take200_eq`, `Gather.gather200_eq`).
  The per-node sums are the same host scatter-add on both sides, applied to equal arguments. The two programs cut a
  round's weight out of the stacked weights in two orders (transpose the stack then cut, or cut then transpose):
  `WeightLayout.slice_transpose`.

  The kernel program's run with its result named is `Run.run` (the launch theorem over the generated segments); the
  result read back through the run's fold is `Fold.result`; the reference's run is `RefValue.run`.
-/
import proofs.«429049_j82403242541640_4_alg».proof.Defs
import proofs.«429049_j82403242541640_4_alg».proof.Proof.Gen.Kernel
import proofs.«429049_j82403242541640_4_alg».proof.Proof.Gen.Kernel.Frame
import proofs.«429049_j82403242541640_4_alg».proof.Proof.Gen.KernelIdeal
import proofs.«429049_j82403242541640_4_alg».proof.Proof.Gen.KernelIdeal.Frame
import proofs.«429049_j82403242541640_4_alg».proof.Proof.Gen.ReferenceIdeal
import proofs.«429049_j82403242541640_4_alg».proof.Proof.Gen.Pre_finite_inputs
import proofs.«429049_j82403242541640_4_alg».proof.Proof.KRun
import proofs.«429049_j82403242541640_4_alg».proof.Proof.KFold
import proofs.«429049_j82403242541640_4_alg».proof.Proof.KTake
import proofs.«429049_j82403242541640_4_alg».proof.Proof.PreIdx
import proofs.«429049_j82403242541640_4_alg».proof.Proof.RefValue
import proofs.«429049_j82403242541640_4_alg».proof.Proof.WeightLayout
import Idealize.ShloMosaic.Adequacy
import Idealize.ShloMosaic.Init

set_option maxRecDepth 16384

noncomputable section

namespace Cert.Proof

open Idealize.ShloMosaic Idealize.SL.Sem

/-! ## The two programs' parameters are the same -/

section Params

variable (m : (ℓ : Loc Cert.KernelIdeal.nD Cert.KernelIdeal.τ Cert.KernelIdeal.sig) → Buf (Elt Ideal) ℓ) (c : Dev Cert.KernelIdeal.nD)

/-- The reference's parameters, read at the kernel program's launch memory, are the kernel program's: the only
    difference in spelling is the order in which a round's weight is cut out of the stack and transposed. -/
theorem params_eq : Cert.ReferenceIdeal.RefValue.params (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) = Cert.KernelIdeal.Fold.PK m c := by
  unfold Cert.ReferenceIdeal.RefValue.params Cert.KernelIdeal.Fold.PK
  rw [← Cert.WeightLayout.slice_transpose_0 (m ((c.tc : Thread Cert.KernelIdeal.nD Cert.KernelIdeal.τ).loc Cert.KernelIdeal.main_arg12)) Cert.KernelIdeal.Facts₀.transposes_S2x64x64_S2x64x64_0_2_1 Cert.KernelIdeal.Facts₀.slices_S2x64x64_S1x64x64_0_0_0 _ Cert.KernelIdeal.Facts₀.shapeCasts_S1x64x64_S64x64 _ _,
    ← Cert.WeightLayout.slice_transpose_1 (m ((c.tc : Thread Cert.KernelIdeal.nD Cert.KernelIdeal.τ).loc Cert.KernelIdeal.main_arg12)) Cert.KernelIdeal.Facts₀.transposes_S2x64x64_S2x64x64_0_2_1 Cert.KernelIdeal.Facts₀.slices_S2x64x64_S1x64x64_1_0_0 _ Cert.KernelIdeal.Facts₀.shapeCasts_S1x64x64_S64x64 _ _,
    ← Cert.WeightLayout.slice_transpose_0 (m ((c.tc : Thread Cert.KernelIdeal.nD Cert.KernelIdeal.τ).loc Cert.KernelIdeal.main_arg14)) Cert.KernelIdeal.Facts₀.transposes_S2x64x64_S2x64x64_0_2_1 Cert.KernelIdeal.Facts₀.slices_S2x64x64_S1x64x64_0_0_0 _ Cert.KernelIdeal.Facts₀.shapeCasts_S1x64x64_S64x64 _ _,
    ← Cert.WeightLayout.slice_transpose_1 (m ((c.tc : Thread Cert.KernelIdeal.nD Cert.KernelIdeal.τ).loc Cert.KernelIdeal.main_arg14)) Cert.KernelIdeal.Facts₀.transposes_S2x64x64_S2x64x64_0_2_1 Cert.KernelIdeal.Facts₀.slices_S2x64x64_S1x64x64_1_0_0 _ Cert.KernelIdeal.Facts₀.shapeCasts_S1x64x64_S64x64 _ _]

/-- So the reference's result function, at the kernel program's launch memory, is the kernel program's result. -/
theorem out_eq : Cert.ReferenceIdeal.RefValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) = Cert.KernelIdeal.Fold.outK m c := by
  unfold Cert.ReferenceIdeal.RefValue.out Cert.KernelIdeal.Fold.outK
  have hrv : Cert.ReferenceIdeal.RefValue.rv (m ((c.tc : Thread Cert.KernelIdeal.nD Cert.KernelIdeal.τ).loc Cert.KernelIdeal.main_arg2)) = Cert.KernelIdeal.Fold.rvK m c := rfl
  have hrc : Cert.ReferenceIdeal.RefValue.rc (m ((c.tc : Thread Cert.KernelIdeal.nD Cert.KernelIdeal.τ).loc Cert.KernelIdeal.main_arg3)) = Cert.KernelIdeal.Fold.rcK m c := rfl
  have haC : Cert.ReferenceIdeal.RefValue.aggC (m ((c.tc : Thread Cert.KernelIdeal.nD Cert.KernelIdeal.τ).loc Cert.KernelIdeal.main_arg3)) = Cert.KernelIdeal.Fold.aggCK m c := rfl
  have haV : Cert.ReferenceIdeal.RefValue.aggV (m ((c.tc : Thread Cert.KernelIdeal.nD Cert.KernelIdeal.τ).loc Cert.KernelIdeal.main_arg2)) = Cert.KernelIdeal.Fold.aggVK m c := rfl
  rw [params_eq m c, hrv, hrc, haC, haV, ← Cert.Model.netTable_eq_net]

end Params

/-! ## The claims -/

theorem frame_p : Cert.frame_Kernel := fun m ρ _ => Cert.Kernel.Gen.frame m ρ
theorem frame_pi : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing: there is nothing to preserve. -/
theorem preserves : Cert.preserves_Kernel_KernelIdeal := trivial

/-- From memories agreeing on the arguments both programs end with the network's scores. -/
theorem algebraic : Cert.algebraic_KernelIdeal_ReferenceIdeal := by
  intro m ρ m' ρ' hpre hagree
  -- the precondition puts every edge index in range
  have hr := fun c : Dev Cert.KernelIdeal.nD => Cert.PreIdx.idx_ranges _ _ _ _ _ _ _ _ _ _ _ _ _ _ _ _ _ _ (hpre c)
  -- so both lookups are row selections
  have hv : ∀ (c : Dev Cert.KernelIdeal.nD) (L : FVec Ideal Cert.KernelIdeal.S200000x64 .f32),
      Cert.KernelIdeal.Take.take200 L (m ((c.tc : Thread Cert.KernelIdeal.nD Cert.KernelIdeal.τ).loc Cert.KernelIdeal.main_arg2)) = Cert.Spec.rows (Cert.KernelIdeal.Fold.rvK m c) L :=
    fun c L => Cert.KernelIdeal.Take.take200_eq L _ (hr c).1
  have hc : ∀ (c : Dev Cert.KernelIdeal.nD) (L : FVec Ideal Cert.KernelIdeal.S100000x64 .f32),
      Cert.KernelIdeal.Take.take100 L (m ((c.tc : Thread Cert.KernelIdeal.nD Cert.KernelIdeal.τ).loc Cert.KernelIdeal.main_arg3)) = Cert.Spec.rows (Cert.KernelIdeal.Fold.rcK m c) L :=
    fun c L => Cert.KernelIdeal.Take.take100_eq L _ (hr c).2
  refine ⟨fun c => Cert.KernelIdeal.Fold.outK m c, ?_, ?_⟩
  · exact (θ_run Cert.KernelIdeal.defs _ _).mono
      (fun r h c => ⟨(h c).1.trans (Cert.KernelIdeal.Fold.result m ρ hv hc c), (h c).2⟩) (Cert.KernelIdeal.Run.run m ρ)
  · refine (θ_run Cert.ReferenceIdeal.defs _ _).mono (fun r h c => ⟨(h c).1.trans ?_, (h c).2⟩) (Cert.ReferenceIdeal.RefValue.run m' ρ')
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]
    exact out_eq m c

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
